-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3x5 : Shape := ⟨3, ![100000, 3, 5]⟩
abbrev S100000x3 : Shape := ⟨2, ![100000, 3]⟩
abbrev S6400000 : Shape := ⟨1, ![6400000]⟩
abbrev S_ : Shape := ⟨0, ![]⟩

class Facts : Prop where
  bcast_S_S100000x3x5 : S_.BroadcastsInDim S100000x3x5 (![] : Fin 0 → Fin S100000x3x5.rank)
  reducesTo_S100000x3x5_S_d0_1_2 : S100000x3x5.ReducesTo [0, 1, 2] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg3 : IVec S6400000 32) (main_v12 : IVec S_ 1) (main_v15 : IVec S_ 1) : IVec S_ 1 :=
  let main_v16 : IVec S_ 1 := andi main_v12 main_v15
  let main_c_6 : IVec S_ 32 := constantI S_ 32 0#32
  let main_v17 : IVec S6400000 32 := broadcastInDim S6400000 ![] bcast_S_S6400000 main_c_6
  let main_v18 : IVec S6400000 1 := cmpi .sge main_arg3 main_v17
  let main_c_7 : IVec S_ 1 := constantI S_ 1 1#1
  let main_v19 : IVec S_ 1 := (fun x v => Host.reduce IntOp.andi x v reducesTo_S6400000_S_d0 h_S_) main_v18 main_c_7
  let main_v20 : IVec S_ 1 := andi main_v16 main_v19
  let main_c_8 : IVec S_ 32 := constantI S_ 32 100000#32
  let main_v21 : IVec S6400000 32 := broadcastInDim S6400000 ![] bcast_S_S6400000 main_c_8
  let main_v22 : IVec S6400000 1 := cmpi .slt main_arg3 main_v21
  let main_c_9 : IVec S_ 1 := constantI S_ 1 1#1
  let main_v23 : IVec S_ 1 := (fun x v => Host.reduce IntOp.andi x v reducesTo_S6400000_S_d0 h_S_) main_v22 main_c_9
  let main_v24 : IVec S_ 1 := andi main_v20 main_v23
  main_v24

def fn {F : FTy → Type} [FloatOps F] (main_arg0 : FVec F S100000x3x5 .f32) (main_arg1 : FVec F S100000x3 .f32) (main_arg2 : IVec S6400000 32) (main_arg3 : IVec S6400000 32) : IVec S_ 1 :=
  let main_v0 : FVec F S100000x3x5 .f32 := Host.absf main_arg0
  let main_cst : FVec F S_ .f32 := constant S_ .f32 0x7F800000#32
  let main_v1 : FVec F S100000x3x5 .f32 := broadcastInDim S100000x3x5 ![] bcast_S_S100000x3x5 main_cst
  let main_v2 : IVec S100000x3x5 1 := cmpf .olt main_v0 main_v1
  let main_c : IVec S_ 1 := constantI S_ 1 1#1
  let main_v3 : IVec S_ 1 := (fun x v => Host.reduce IntOp.andi x v reducesTo_S100000x3x5_S_d0_1_2 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_c_2 : IVec S_ 32 := constantI S_ 32 0#32
  let main_v9 : IVec S6400000 32 := broadcastInDim S6400000 ![] bcast_S_S6400000 main_c_2
  let main_v10 : IVec S6400000 1 := cmpi .sge main_arg2 main_v9
  let main_c_3 : IVec S_ 1 := constantI S_ 1 1#1
  let main_v11 : IVec S_ 1 := (fun x v => Host.reduce IntOp.andi x v reducesTo_S6400000_S_d0 h_S_) main_v10 main_c_3
  let main_v12 : IVec S_ 1 := andi main_v8 main_v11
  let main_c_4 : IVec S_ 32 := constantI S_ 32 100000#32
  let main_v13 : IVec S6400000 32 := broadcastInDim S6400000 ![] bcast_S_S6400000 main_c_4
  let main_v14 : IVec S6400000 1 := cmpi .slt main_arg2 main_v13
  let main_c_5 : IVec S_ 1 := constantI S_ 1 1#1
  let main_v15 : IVec S_ 1 := (fun x v => Host.reduce IntOp.andi x v reducesTo_S6400000_S_d0 h_S_) main_v14 main_c_5
  fn_part1 (F := F) main_arg3 main_v12 main_v15
-- ==== Kernel.lean ====
abbrev S100000x3x5 : Shape := ⟨3, ![100000, 3, 5]⟩
abbrev S100000x3 : Shape := ⟨2, ![100000, 3]⟩
abbrev S6400000 : Shape := ⟨1, ![6400000]⟩
abbrev S100000x3x1 : Shape := ⟨3, ![100000, 3, 1]⟩
abbrev S3x100000 : Shape := ⟨2, ![3, 100000]⟩
abbrev S6x100000 : Shape := ⟨2, ![6, 100000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S6x6400000 : Shape := ⟨2, ![6, 6400000]⟩
abbrev S1x6400000 : Shape := ⟨2, ![1, 6400000]⟩
abbrev S6x128000 : Shape := ⟨2, ![6, 128000]⟩
abbrev S1x128000 : Shape := ⟨2, ![1, 128000]⟩
abbrev S3x128000 : Shape := ⟨2, ![3, 128000]⟩
abbrev S128000 : Shape := ⟨1, ![128000]⟩
abbrev S100000 : Shape := ⟨1, ![100000]⟩
abbrev S3x6400000 : Shape := ⟨2, ![3, 6400000]⟩
abbrev S6x64000 : Shape := ⟨2, ![6, 64000]⟩
abbrev S1x64000 : Shape := ⟨2, ![1, 64000]⟩
abbrev S3x64000 : Shape := ⟨2, ![3, 64000]⟩
abbrev S64000 : Shape := ⟨1, ![64000]⟩
abbrev S100000x1 : Shape := ⟨2, ![100000, 1]⟩
abbrev S100000x8 : Shape := ⟨2, ![100000, 8]⟩

abbrev nBuf : Space → Nat
  | .hbm => 144
  | .vmem => 16
  | .smem => 0
  | _ => 0

abbrev hbmTy0_0 (i : Nat) : BufTy := match i % 128 with
  | 0 => ⟨S100000x3x5, .f32⟩
  | 1 => ⟨S100000x3, .f32⟩
  | 2 => ⟨S6400000, .i32⟩
  | 3 => ⟨S6400000, .i32⟩
  | 4 => ⟨S100000x3x1, .f32⟩
  | 5 => ⟨S100000x3, .f32⟩
  | 6 => ⟨S3x100000, .f32⟩
  | 7 => ⟨S3x100000, .f32⟩
  | 8 => ⟨S6x100000, .f32⟩
  | 9 => ⟨S_, .i32⟩
  | 10 => ⟨S6400000, .i32⟩
  | 11 => ⟨S6400000, .i1⟩
  | 12 => ⟨S_, .i32⟩
  | 13 => ⟨S6400000, .i32⟩
  | 14 => ⟨S6400000, .i32⟩
  | 15 => ⟨S6400000, .i32⟩
  | 16 => ⟨S6400000x1, .i32⟩
  | 17 => ⟨S1, .i32⟩
  | 18 => ⟨S_, .i32⟩
  | 19 => ⟨S6400000x1, .i32⟩
  | 20 => ⟨S6400000x1, .i1⟩
  | 21 => ⟨S1x1, .i32⟩
  | 22 => ⟨S6400000x1, .i32⟩
  | 23 => ⟨S6400000x1, .i1⟩
  | 24 => ⟨S6400000x1, .i1⟩
  | 25 => ⟨S_, .i1⟩
  | 26 => ⟨S6400000, .i1⟩
  | 27 => ⟨S6x6400000, .f32⟩
  | 28 => ⟨S6x6400000, .i1⟩
  | 29 => ⟨S_, .f32⟩
  | 30 => ⟨S6x6400000, .f32⟩
  | 31 => ⟨S6x6400000, .f32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S1, .i32⟩
  | 41 => ⟨S_, .i32⟩
  | 42 => ⟨S6400000x1, .i32⟩
  | 43 => ⟨S6400000x1, .i1⟩
  | 44 => ⟨S1x1, .i32⟩
  | 45 => ⟨S6400000x1, .i32⟩
  | 46 => ⟨S6400000x1, .i1⟩
  | 47 => ⟨S6400000x1, .i1⟩
  | 48 => ⟨S_, .i1⟩
  | 49 => ⟨S6400000, .i1⟩
  | 50 => ⟨S6x6400000, .f32⟩
  | 51 => ⟨S6x6400000, .i1⟩
  | 52 => ⟨S_, .f32⟩
  | 53 => ⟨S6x6400000, .f32⟩
  | 54 => ⟨S6x6400000, .f32⟩
  | 55 => ⟨S1x6400000, .f32⟩
  | 56 => ⟨S6400000, .f32⟩
  | 57 => ⟨S_, .f32⟩
  | 58 => ⟨S100000, .f32⟩
  | 59 => ⟨S6400000x1, .i32⟩
  | 60 => ⟨S100000, .f32⟩
  | 61 => ⟨S_, .f32⟩
  | 62 => ⟨S100000, .f32⟩
  | 63 => ⟨S100000, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .f32⟩
  | 70 => ⟨S_, .i32⟩
  | 71 => ⟨S6400000, .i32⟩
  | 72 => ⟨S6400000, .i1⟩
  | 73 => ⟨S_, .i32⟩
  | 74 => ⟨S6400000, .i32⟩
  | 75 => ⟨S6400000, .i32⟩
  | 76 => ⟨S6400000, .i32⟩
  | 77 => ⟨S6400000x1, .i32⟩
  | 78 => ⟨S1, .i32⟩
  | 79 => ⟨S_, .i32⟩
  | 80 => ⟨S6400000x1, .i32⟩
  | 81 => ⟨S6400000x1, .i1⟩
  | 82 => ⟨S1x1, .i32⟩
  | 83 => ⟨S6400000x1, .i32⟩
  | 84 => ⟨S6400000x1, .i1⟩
  | 85 => ⟨S6400000x1, .i1⟩
  | 86 => ⟨S_, .i1⟩
  | 87 => ⟨S6400000, .i1⟩
  | 88 => ⟨S6400000, .f32⟩
  | 89 => ⟨S_, .f32⟩
  | 90 => ⟨S6400000, .f32⟩
  | 91 => ⟨S6400000, .f32⟩
  | 92 => ⟨S1x6400000, .f32⟩
  | 93 => ⟨S_, .i32⟩
  | 94 => ⟨S6400000, .i32⟩
  | 95 => ⟨S6400000, .i1⟩
  | 96 => ⟨S_, .i32⟩
  | 97 => ⟨S6400000, .i32⟩
  | 98 => ⟨S6400000, .i32⟩
  | 99 => ⟨S6400000, .i32⟩
  | 100 => ⟨S6400000x1, .i32⟩
  | 101 => ⟨S1, .i32⟩
  | 102 => ⟨S_, .i32⟩
  | 103 => ⟨S6400000x1, .i32⟩
  | 104 => ⟨S6400000x1, .i1⟩
  | 105 => ⟨S1x1, .i32⟩
  | 106 => ⟨S6400000x1, .i32⟩
  | 107 => ⟨S6400000x1, .i1⟩
  | 108 => ⟨S6400000x1, .i1⟩
  | 109 => ⟨S_, .i1⟩
  | 110 => ⟨S6400000, .i1⟩
  | 111 => ⟨S6400000, .f32⟩
  | 112 => ⟨S_, .f32⟩
  | 113 => ⟨S6400000, .f32⟩
  | 114 => ⟨S6400000, .f32⟩
  | 115 => ⟨S1x6400000, .f32⟩
  | 116 => ⟨S3x6400000, .f32⟩
  | 117 => ⟨S1x6400000, .f32⟩
  | 118 => ⟨S6400000, .f32⟩
  | 119 => ⟨S_, .f32⟩
  | 120 => ⟨S100000, .f32⟩
  | 121 => ⟨S6400000x1, .i32⟩
  | 122 => ⟨S100000, .f32⟩
  | 123 => ⟨S1x6400000, .f32⟩
  | 124 => ⟨S6400000, .f32⟩
  | 125 => ⟨S_, .f32⟩
  | 126 => ⟨S100000, .f32⟩
  | 127 => ⟨S6400000x1, .i32⟩
  | _ => ⟨S100000x3x5, .f32⟩

abbrev hbmTy0_1 (i : Nat) : BufTy := match i % 128 with
  | 0 => ⟨S100000, .f32⟩
  | 1 => ⟨S1x6400000, .f32⟩
  | 2 => ⟨S6400000, .f32⟩
  | 3 => ⟨S_, .f32⟩
  | 4 => ⟨S100000, .f32⟩
  | 5 => ⟨S6400000x1, .i32⟩
  | 6 => ⟨S100000, .f32⟩
  | 7 => ⟨S100000x1, .f32⟩
  | 8 => ⟨S100000x1, .f32⟩
  | 9 => ⟨S100000x1, .f32⟩
  | 10 => ⟨S100000x3, .f32⟩
  | 11 => ⟨S_, .f32⟩
  | 12 => ⟨S100000x3, .f32⟩
  | 13 => ⟨S100000x1, .f32⟩
  | 14 => ⟨S100000x1, .f32⟩
  | 15 => ⟨S100000x8, .f32⟩
  | _ => ⟨S100000x3x5, .f32⟩

abbrev hbmTy (i : Nat) : BufTy := match i / 128 with
  | 0 => hbmTy0_0 i
  | 1 => hbmTy0_1 i
  | _ => ⟨S100000x3x5, .f32⟩

abbrev bufTy : (tb : Table) → Fin (tcTables nBuf tb) → BufTy
  | .hbm, ⟨i, _⟩ => hbmTy i
  | .local _ .vmem, ⟨0, _⟩ => ⟨S6x128000, .f32⟩
  | .local _ .vmem, ⟨1, _⟩ => ⟨S6x128000, .f32⟩
  | .local _ .vmem, ⟨2, _⟩ => ⟨S6x128000, .f32⟩
  | .local _ .vmem, ⟨3, _⟩ => ⟨S6x128000, .f32⟩
  | .local _ .vmem, ⟨4, _⟩ => ⟨S1x128000, .f32⟩
  | .local _ .vmem, ⟨5, _⟩ => ⟨S1x128000, .f32⟩
  | .local _ .vmem, ⟨6, _⟩ => ⟨S6x64000, .f32⟩
  | .local _ .vmem, ⟨7, _⟩ => ⟨S6x64000, .f32⟩
  | .local _ .vmem, ⟨8, _⟩ => ⟨S6x64000, .f32⟩
  | .local _ .vmem, ⟨9, _⟩ => ⟨S6x64000, .f32⟩
  | .local _ .vmem, ⟨10, _⟩ => ⟨S1x64000, .f32⟩
  | .local _ .vmem, ⟨11, _⟩ => ⟨S1x64000, .f32⟩
  | .local _ .vmem, ⟨12, _⟩ => ⟨S1x64000, .f32⟩
  | .local _ .vmem, ⟨13, _⟩ => ⟨S1x64000, .f32⟩
  | .local _ .vmem, ⟨14, _⟩ => ⟨S3x64000, .f32⟩
  | .local _ .vmem, ⟨15, _⟩ => ⟨S3x64000, .f32⟩
  | _, _ => ⟨S100000x3x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_cst : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_cst_0 : Ref sig .tc := ⟨.hbm, 61, rfl⟩
abbrev main_v12 : Ref sig .tc := ⟨.hbm, 62, rfl⟩
abbrev main_v13 : Ref sig .tc := ⟨.hbm, 63, rfl⟩
abbrev main_cst_1 : Ref sig .tc := ⟨.hbm, 64, rfl⟩
abbrev main_v14 : Ref sig .tc := ⟨.hbm, 65, rfl⟩
abbrev main_v15 : Ref sig .tc := ⟨.hbm, 66, rfl⟩
abbrev main_cst_2 : Ref sig .tc := ⟨.hbm, 67, rfl⟩
abbrev main_v16 : Ref sig .tc := ⟨.hbm, 68, rfl⟩
abbrev main_v17 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_cst : Ref sig .tc := ⟨.hbm, 89, rfl⟩
abbrev main_call2_v14 : Ref sig .tc := ⟨.hbm, 90, rfl⟩
abbrev main_v18 : Ref sig .tc := ⟨.hbm, 91, rfl⟩
abbrev main_v19 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_cst : Ref sig .tc := ⟨.hbm, 112, rfl⟩
abbrev main_call3_v14 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_cst_3 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_cst_4 : Ref sig .tc := ⟨.hbm, 125, rfl⟩
abbrev main_v30 : Ref sig .tc := ⟨.hbm, 126, rfl⟩
abbrev main_v31 : Ref sig .tc := ⟨.hbm, 127, rfl⟩
abbrev main_v32 : Ref sig .tc := ⟨.hbm, 128, rfl⟩
abbrev main_v33 : Ref sig .tc := ⟨.hbm, 129, rfl⟩
abbrev main_v34 : Ref sig .tc := ⟨.hbm, 130, rfl⟩
abbrev main_cst_5 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_cst_6 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S6x64000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6x64000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x64000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S100000x3x5_S100000x3x1_0_0_4 : S100000x3x5.Slices ![0, 0, 4] S100000x3x1
  shapeCasts_S100000x3x1_S100000x3 : S100000x3x1.ShapeCasts S100000x3
  transposes_S100000x3_S3x100000_1_0 : S100000x3.Transposes [1, 0] S3x100000
  concatenates_S3x100000_S3x100000_S6x100000_d0 : Shape.Concatenates [S3x100000, S3x100000] S6x100000 0
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6x6400000_1 : S6400000.BroadcastsInDim S6x6400000 (![1] : Fin 1 → Fin S6x6400000.rank)
  bcast_S_S6x6400000 : S_.BroadcastsInDim S6x6400000 (![] : Fin 0 → Fin S6x6400000.rank)
  inb_S6x128000_S6x128000_0_0 : ∀ a, (![0, 0] : Fin 2 → Nat) a + S6x128000.size a ≤ S6x128000.size a
  h_S6x128000 : 0 < S6x128000.numel
  shapeCasts_S6x128000_S6x128000 : S6x128000.ShapeCasts S6x128000
  slices_S6x128000_o0_0_S3x128000 : S6x128000.Slices ![0, 0] S3x128000
  reduces_S3x128000_S128000 : S3x128000.Reduces [0] S128000
  shapeCasts_S128000_S1x128000 : S128000.ShapeCasts S1x128000
  inb_S1x128000_S1x128000_0_0 : ∀ a, (![0, 0] : Fin 2 → Nat) a + S1x128000.size a ≤ S1x128000.size a
  h_S1x128000 : 0 < S1x128000.numel
  shapeCasts_S1x6400000_S6400000 : S1x6400000.ShapeCasts S6400000
  bcast_S_S100000 : S_.BroadcastsInDim S100000 (![] : Fin 0 → Fin S100000.rank)
  shapeCasts_S6400000_S1x6400000 : S6400000.ShapeCasts S1x6400000
  inb_S6x64000_S6x64000_0_0 : ∀ a, (![0, 0] : Fin 2 → Nat) a + S6x64000.size a ≤ S6x64000.size a
  h_S6x64000 : 0 < S6x64000.numel
  shapeCasts_S6x64000_S6x64000 : S6x64000.ShapeCasts S6x64000
  slices_S6x64000_o0_0_S3x64000 : S6x64000.Slices ![0, 0] S3x64000
  slices_S6x64000_o3_0_S3x64000 : S6x64000.Slices ![3, 0] S3x64000
  reduces_S3x64000_S64000 : S3x64000.Reduces [0] S64000
  shapeCasts_S64000_S1x64000 : S64000.ShapeCasts S1x64000
  inb_S1x64000_S1x64000_0_0 : ∀ a, (![0, 0] : Fin 2 → Nat) a + S1x64000.size a ≤ S1x64000.size a
  h_S1x64000 : 0 < S1x64000.numel
  shapeCasts_S1x64000_S1x64000 : S1x64000.ShapeCasts S1x64000
  broadcasts_S1x64000_S3x64000 : S1x64000.Broadcasts S3x64000
  inb_S3x64000_S3x64000_0_0 : ∀ a, (![0, 0] : Fin 2 → Nat) a + S3x64000.size a ≤ S3x64000.size a
  h_S3x64000 : 0 < S3x64000.numel
  slices_S3x6400000_S1x6400000_0_0 : S3x6400000.Slices ![0, 0] S1x6400000
  slices_S3x6400000_S1x6400000_1_0 : S3x6400000.Slices ![1, 0] S1x6400000
  slices_S3x6400000_S1x6400000_2_0 : S3x6400000.Slices ![2, 0] S1x6400000
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  bcast_S_S100000x3 : S_.BroadcastsInDim S100000x3 (![] : Fin 0 → Fin S100000x3.rank)
  concatenates_S100000x3_S100000x3_S100000x1_S100000x1_S100000x8_d1 : Shape.Concatenates [S100000x3, S100000x3, S100000x1, S100000x1] S100000x8 1
  gather_S6x100000_S6400000x1_S6x6400000_0_1_n_n_1_1_61_wf : GatherDims.WF S6x100000 S6400000x1 S6x6400000 [0] [1] [] [1] [] 1 ![6, 1]
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x128000.size a ≤ S6x6400000.size a
  hwx0_0 : ∀ i : grid0.Coords, EltTy.bits .f32 = 32 ∨ (Rect.block (s := S6x6400000) S6x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x128000.size a ≤ S6x6400000.size a
  hwx0_1 : ∀ i : grid0.Coords, EltTy.bits .f32 = 32 ∨ (Rect.block (s := S6x6400000) S6x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128000.size a ≤ S1x6400000.size a
  hwx0_2 : ∀ i : grid0.Coords, EltTy.bits .f32 = 32 ∨ (Rect.block (s := S1x6400000) S1x128000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6x64000.size a ≤ S6x6400000.size a
  hwx1_0 : ∀ i : grid1.Coords, EltTy.bits .f32 = 32 ∨ (Rect.block (s := S6x6400000) S6x64000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6x64000.size a ≤ S6x6400000.size a
  hwx1_1 : ∀ i : grid1.Coords, EltTy.bits .f32 = 32 ∨ (Rect.block (s := S6x6400000) S6x64000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64000.size a ≤ S1x6400000.size a
  hwx1_2 : ∀ i : grid1.Coords, EltTy.bits .f32 = 32 ∨ (Rect.block (s := S1x6400000) S1x64000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64000.size a ≤ S1x6400000.size a
  hwx1_3 : ∀ i : grid1.Coords, EltTy.bits .f32 = 32 ∨ (Rect.block (s := S1x6400000) S1x64000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x64000.size a ≤ S3x6400000.size a
  hwx1_4 : ∀ i : grid1.Coords, EltTy.bits .f32 = 32 ∨ (Rect.block (s := S3x6400000) S3x64000.size (cc1_transform_4 i) (hinb1_4 i)).WholeWords (EltTy.packing .f32)

variable [Facts₀]

def gather_S6x100000_S6400000x1_S6x6400000_0_1_n_n_1_1_61 : GatherDims S6x100000 S6400000x1 S6x6400000 where
  offsetDims := [0]
  collapsedSliceDims := [1]
  operandBatchingDims := []
  startIndicesBatchingDims := []
  startIndexMap := [1]
  indexVectorDim := 1
  sliceSizes := ![6, 1]
  wf := gather_S6x100000_S6400000x1_S6x6400000_0_1_n_n_1_1_61_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

abbrev win0_0 : Pipeline.Window sig grid0 :=
  Pipeline.Window.ofSpec (Memref.whole main_v5) S6x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S6x64000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S6x64000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x64000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x64000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S3x64000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x3x5 : Shape := ⟨3, ![100000, 3, 5]⟩
abbrev S100000x3 : Shape := ⟨2, ![100000, 3]⟩
abbrev S6400000 : Shape := ⟨1, ![6400000]⟩
abbrev S100000x3x1 : Shape := ⟨3, ![100000, 3, 1]⟩
abbrev S_ : Shape := ⟨0, ![]⟩
abbrev S6400000x1 : Shape := ⟨2, ![6400000, 1]⟩
abbrev S6400000x3 : Shape := ⟨2, ![6400000, 3]⟩
abbrev S100000 : Shape := ⟨1, ![100000]⟩
abbrev S100000x1 : Shape := ⟨2, ![100000, 1]⟩
abbrev S100000x8 : Shape := ⟨2, ![100000, 8]⟩

abbrev nBuf : Space → Nat
  | .hbm => 255
  | .vmem => 0
  | .smem => 0
  | _ => 0

abbrev hbmTy0_0 (i : Nat) : BufTy := match i % 128 with
  | 0 => ⟨S100000x3x5, .f32⟩
  | 1 => ⟨S100000x3, .f32⟩
  | 2 => ⟨S6400000, .i32⟩
  | 3 => ⟨S6400000, .i32⟩
  | 4 => ⟨S100000x3x1, .f32⟩
  | 5 => ⟨S100000x3, .f32⟩
  | 6 => ⟨S_, .i32⟩
  | 7 => ⟨S6400000, .i32⟩
  | 8 => ⟨S6400000, .i1⟩
  | 9 => ⟨S_, .i32⟩
  | 10 => ⟨S6400000, .i32⟩
  | 11 => ⟨S6400000, .i32⟩
  | 12 => ⟨S6400000, .i32⟩
  | 13 => ⟨S6400000x1, .i32⟩
  | 14 => ⟨S6400000x3, .f32⟩
  | 15 => ⟨S_, .i32⟩
  | 16 => ⟨S6400000, .i32⟩
  | 17 => ⟨S6400000, .i1⟩
  | 18 => ⟨S_, .i32⟩
  | 19 => ⟨S6400000, .i32⟩
  | 20 => ⟨S6400000, .i32⟩
  | 21 => ⟨S6400000, .i32⟩
  | 22 => ⟨S6400000x1, .i32⟩
  | 23 => ⟨S6400000x3, .f32⟩
  | 24 => ⟨S6400000x3, .f32⟩
  | 25 => ⟨S6400000x3, .f32⟩
  | 26 => ⟨S_, .f32⟩
  | 27 => ⟨S6400000, .f32⟩
  | 28 => ⟨S6400000, .f32⟩
  | 29 => ⟨S_, .f32⟩
  | 30 => ⟨S6400000, .f32⟩
  | 31 => ⟨S6400000, .f32⟩
  | 32 => ⟨S_, .f32⟩
  | 33 => ⟨S6400000, .f32⟩
  | 34 => ⟨S6400000, .f32⟩
  | 35 => ⟨S_, .f32⟩
  | 36 => ⟨S6400000, .f32⟩
  | 37 => ⟨S6400000, .f32⟩
  | 38 => ⟨S_, .f32⟩
  | 39 => ⟨S6400000, .f32⟩
  | 40 => ⟨S6400000, .f32⟩
  | 41 => ⟨S_, .f32⟩
  | 42 => ⟨S6400000, .f32⟩
  | 43 => ⟨S6400000, .f32⟩
  | 44 => ⟨S_, .f32⟩
  | 45 => ⟨S6400000, .f32⟩
  | 46 => ⟨S6400000, .f32⟩
  | 47 => ⟨S_, .f32⟩
  | 48 => ⟨S6400000, .f32⟩
  | 49 => ⟨S6400000, .f32⟩
  | 50 => ⟨S6400000, .f32⟩
  | 51 => ⟨S6400000, .f32⟩
  | 52 => ⟨S6400000, .f32⟩
  | 53 => ⟨S6400000, .f32⟩
  | 54 => ⟨S6400000, .f32⟩
  | 55 => ⟨S6400000, .f32⟩
  | 56 => ⟨S_, .f32⟩
  | 57 => ⟨S6400000, .f32⟩
  | 58 => ⟨S6400000, .f32⟩
  | 59 => ⟨S6400000, .f32⟩
  | 60 => ⟨S6400000, .f32⟩
  | 61 => ⟨S6400000, .f32⟩
  | 62 => ⟨S6400000, .f32⟩
  | 63 => ⟨S_, .f32⟩
  | 64 => ⟨S6400000, .f32⟩
  | 65 => ⟨S6400000, .f32⟩
  | 66 => ⟨S6400000, .f32⟩
  | 67 => ⟨S_, .f32⟩
  | 68 => ⟨S6400000, .f32⟩
  | 69 => ⟨S6400000, .f32⟩
  | 70 => ⟨S_, .f32⟩
  | 71 => ⟨S100000, .f32⟩
  | 72 => ⟨S6400000x1, .i32⟩
  | 73 => ⟨S100000, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .f32⟩
  | 80 => ⟨S_, .f32⟩
  | 81 => ⟨S100000, .f32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .f32⟩
  | 89 => ⟨S_, .i32⟩
  | 90 => ⟨S6400000, .i32⟩
  | 91 => ⟨S6400000, .i1⟩
  | 92 => ⟨S_, .i32⟩
  | 93 => ⟨S6400000, .i32⟩
  | 94 => ⟨S6400000, .i32⟩
  | 95 => ⟨S6400000, .i32⟩
  | 96 => ⟨S6400000x1, .i32⟩
  | 97 => ⟨S6400000, .f32⟩
  | 98 => ⟨S_, .i32⟩
  | 99 => ⟨S6400000, .i32⟩
  | 100 => ⟨S6400000, .i1⟩
  | 101 => ⟨S_, .i32⟩
  | 102 => ⟨S6400000, .i32⟩
  | 103 => ⟨S6400000, .i32⟩
  | 104 => ⟨S6400000, .i32⟩
  | 105 => ⟨S6400000x1, .i32⟩
  | 106 => ⟨S6400000, .f32⟩
  | 107 => ⟨S_, .i32⟩
  | 108 => ⟨S6400000, .i32⟩
  | 109 => ⟨S6400000, .i1⟩
  | 110 => ⟨S_, .i32⟩
  | 111 => ⟨S6400000, .i32⟩
  | 112 => ⟨S6400000, .i32⟩
  | 113 => ⟨S6400000, .i32⟩
  | 114 => ⟨S6400000x1, .i32⟩
  | 115 => ⟨S6400000, .f32⟩
  | 116 => ⟨S_, .i32⟩
  | 117 => ⟨S6400000, .i32⟩
  | 118 => ⟨S6400000, .i1⟩
  | 119 => ⟨S_, .i32⟩
  | 120 => ⟨S6400000, .i32⟩
  | 121 => ⟨S6400000, .i32⟩
  | 122 => ⟨S6400000, .i32⟩
  | 123 => ⟨S6400000x1, .i32⟩
  | 124 => ⟨S6400000, .f32⟩
  | 125 => ⟨S_, .i32⟩
  | 126 => ⟨S6400000, .i32⟩
  | 127 => ⟨S6400000, .i1⟩
  | _ => ⟨S100000x3x5, .f32⟩

abbrev hbmTy0_1 (i : Nat) : BufTy := match i % 128 with
  | 0 => ⟨S_, .i32⟩
  | 1 => ⟨S6400000, .i32⟩
  | 2 => ⟨S6400000, .i32⟩
  | 3 => ⟨S6400000, .i32⟩
  | 4 => ⟨S6400000x1, .i32⟩
  | 5 => ⟨S6400000x3, .f32⟩
  | 6 => ⟨S_, .i32⟩
  | 7 => ⟨S6400000, .i32⟩
  | 8 => ⟨S6400000, .i1⟩
  | 9 => ⟨S_, .i32⟩
  | 10 => ⟨S6400000, .i32⟩
  | 11 => ⟨S6400000, .i32⟩
  | 12 => ⟨S6400000, .i32⟩
  | 13 => ⟨S6400000x1, .i32⟩
  | 14 => ⟨S6400000x3, .f32⟩
  | 15 => ⟨S6400000, .f32⟩
  | 16 => ⟨S6400000, .f32⟩
  | 17 => ⟨S6400000, .f32⟩
  | 18 => ⟨S6400000, .f32⟩
  | 19 => ⟨S6400000, .f32⟩
  | 20 => ⟨S_, .f32⟩
  | 21 => ⟨S6400000, .f32⟩
  | 22 => ⟨S6400000, .f32⟩
  | 23 => ⟨S6400000, .f32⟩
  | 24 => ⟨S_, .f32⟩
  | 25 => ⟨S6400000, .f32⟩
  | 26 => ⟨S6400000, .f32⟩
  | 27 => ⟨S6400000, .f32⟩
  | 28 => ⟨S6400000, .f32⟩
  | 29 => ⟨S_, .f32⟩
  | 30 => ⟨S6400000, .f32⟩
  | 31 => ⟨S6400000, .f32⟩
  | 32 => ⟨S_, .f32⟩
  | 33 => ⟨S6400000, .f32⟩
  | 34 => ⟨S6400000, .f32⟩
  | 35 => ⟨S_, .f32⟩
  | 36 => ⟨S6400000, .f32⟩
  | 37 => ⟨S6400000, .f32⟩
  | 38 => ⟨S_, .f32⟩
  | 39 => ⟨S6400000, .f32⟩
  | 40 => ⟨S6400000, .f32⟩
  | 41 => ⟨S_, .f32⟩
  | 42 => ⟨S6400000, .f32⟩
  | 43 => ⟨S6400000, .f32⟩
  | 44 => ⟨S_, .f32⟩
  | 45 => ⟨S6400000, .f32⟩
  | 46 => ⟨S6400000, .f32⟩
  | 47 => ⟨S_, .f32⟩
  | 48 => ⟨S6400000, .f32⟩
  | 49 => ⟨S6400000, .f32⟩
  | 50 => ⟨S6400000, .f32⟩
  | 51 => ⟨S6400000, .f32⟩
  | 52 => ⟨S6400000, .f32⟩
  | 53 => ⟨S6400000, .f32⟩
  | 54 => ⟨S_, .f32⟩
  | 55 => ⟨S6400000, .f32⟩
  | 56 => ⟨S6400000, .f32⟩
  | 57 => ⟨S6400000, .f32⟩
  | 58 => ⟨S6400000, .f32⟩
  | 59 => ⟨S6400000, .f32⟩
  | 60 => ⟨S_, .f32⟩
  | 61 => ⟨S6400000, .f32⟩
  | 62 => ⟨S6400000, .f32⟩
  | 63 => ⟨S6400000, .f32⟩
  | 64 => ⟨S_, .f32⟩
  | 65 => ⟨S6400000, .f32⟩
  | 66 => ⟨S6400000, .f32⟩
  | 67 => ⟨S6400000, .f32⟩
  | 68 => ⟨S_, .f32⟩
  | 69 => ⟨S6400000, .f32⟩
  | 70 => ⟨S6400000, .f32⟩
  | 71 => ⟨S6400000, .f32⟩
  | 72 => ⟨S6400000x1, .f32⟩
  | 73 => ⟨S6400000x3, .f32⟩
  | 74 => ⟨S6400000x3, .f32⟩
  | 75 => ⟨S6400000x3, .f32⟩
  | 76 => ⟨S6400000x3, .f32⟩
  | 77 => ⟨S_, .f32⟩
  | 78 => ⟨S6400000, .f32⟩
  | 79 => ⟨S6400000x1, .f32⟩
  | 80 => ⟨S6400000x3, .f32⟩
  | 81 => ⟨S6400000x3, .f32⟩
  | 82 => ⟨S6400000x1, .f32⟩
  | 83 => ⟨S6400000x3, .f32⟩
  | 84 => ⟨S6400000x3, .f32⟩
  | 85 => ⟨S6400000x3, .f32⟩
  | 86 => ⟨S6400000x3, .f32⟩
  | 87 => ⟨S_, .f32⟩
  | 88 => ⟨S6400000, .f32⟩
  | 89 => ⟨S6400000x1, .f32⟩
  | 90 => ⟨S6400000x3, .f32⟩
  | 91 => ⟨S6400000x3, .f32⟩
  | 92 => ⟨S6400000x3, .f32⟩
  | 93 => ⟨S_, .f32⟩
  | 94 => ⟨S6400000x3, .f32⟩
  | 95 => ⟨S6400000x3, .f32⟩
  | 96 => ⟨S6400000x3, .f32⟩
  | 97 => ⟨S6400000x1, .f32⟩
  | 98 => ⟨S6400000x1, .f32⟩
  | 99 => ⟨S6400000x1, .f32⟩
  | 100 => ⟨S6400000x3, .f32⟩
  | 101 => ⟨S6400000x3, .f32⟩
  | 102 => ⟨S6400000x3, .f32⟩
  | 103 => ⟨S_, .f32⟩
  | 104 => ⟨S6400000x3, .f32⟩
  | 105 => ⟨S6400000x3, .f32⟩
  | 106 => ⟨S6400000x3, .f32⟩
  | 107 => ⟨S6400000x3, .f32⟩
  | 108 => ⟨S6400000x3, .f32⟩
  | 109 => ⟨S_, .f32⟩
  | 110 => ⟨S6400000, .f32⟩
  | 111 => ⟨S6400000x1, .f32⟩
  | 112 => ⟨S6400000x1, .f32⟩
  | 113 => ⟨S6400000x1, .f32⟩
  | 114 => ⟨S6400000x3, .f32⟩
  | 115 => ⟨S6400000x3, .f32⟩
  | 116 => ⟨S_, .f32⟩
  | 117 => ⟨S100000x3, .f32⟩
  | 118 => ⟨S6400000x1, .i32⟩
  | 119 => ⟨S100000x3, .f32⟩
  | 120 => ⟨S_, .f32⟩
  | 121 => ⟨S100000x3, .f32⟩
  | 122 => ⟨S6400000x1, .i32⟩
  | 123 => ⟨S100000x3, .f32⟩
  | 124 => ⟨S100000x1, .f32⟩
  | 125 => ⟨S100000x1, .f32⟩
  | 126 => ⟨S100000x8, .f32⟩
  | _ => ⟨S100000x3x5, .f32⟩

abbrev hbmTy (i : Nat) : BufTy := match i / 128 with
  | 0 => hbmTy0_0 i
  | 1 => hbmTy0_1 i
  | _ => ⟨S100000x3x5, .f32⟩

abbrev bufTy : (tb : Table) → Fin (tcTables nBuf tb) → BufTy
  | .hbm, ⟨i, _⟩ => hbmTy i
  | _, _ => ⟨S100000x3x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_c_19 : Ref sig .tc := ⟨.hbm, 89, rfl⟩
abbrev main_v64 : Ref sig .tc := ⟨.hbm, 90, rfl⟩
abbrev main_v65 : Ref sig .tc := ⟨.hbm, 91, rfl⟩
abbrev main_c_20 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_21 : Ref sig .tc := ⟨.hbm, 98, rfl⟩
abbrev main_v71 : Ref sig .tc := ⟨.hbm, 99, rfl⟩
abbrev main_v72 : Ref sig .tc := ⟨.hbm, 100, rfl⟩
abbrev main_c_22 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_23 : Ref sig .tc := ⟨.hbm, 107, rfl⟩
abbrev main_v78 : Ref sig .tc := ⟨.hbm, 108, rfl⟩
abbrev main_v79 : Ref sig .tc := ⟨.hbm, 109, rfl⟩
abbrev main_c_24 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_25 : Ref sig .tc := ⟨.hbm, 116, rfl⟩
abbrev main_v85 : Ref sig .tc := ⟨.hbm, 117, rfl⟩
abbrev main_v86 : Ref sig .tc := ⟨.hbm, 118, rfl⟩
abbrev main_c_26 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_27 : Ref sig .tc := ⟨.hbm, 125, rfl⟩
abbrev main_v92 : Ref sig .tc := ⟨.hbm, 126, rfl⟩
abbrev main_v93 : Ref sig .tc := ⟨.hbm, 127, rfl⟩
abbrev main_c_28 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_29 : Ref sig .tc := ⟨.hbm, 134, rfl⟩
abbrev main_v99 : Ref sig .tc := ⟨.hbm, 135, rfl⟩
abbrev main_v100 : Ref sig .tc := ⟨.hbm, 136, rfl⟩
abbrev main_c_30 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_31 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_32 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_33 : Ref sig .tc := ⟨.hbm, 157, rfl⟩
abbrev main_v118 : Ref sig .tc := ⟨.hbm, 158, rfl⟩
abbrev main_v119 : Ref sig .tc := ⟨.hbm, 159, rfl⟩
abbrev main_cst_34 : Ref sig .tc := ⟨.hbm, 160, rfl⟩
abbrev main_v120 : Ref sig .tc := ⟨.hbm, 161, rfl⟩
abbrev main_v121 : Ref sig .tc := ⟨.hbm, 162, rfl⟩
abbrev main_cst_35 : Ref sig .tc := ⟨.hbm, 163, rfl⟩
abbrev main_v122 : Ref sig .tc := ⟨.hbm, 164, rfl⟩
abbrev main_v123 : Ref sig .tc := ⟨.hbm, 165, rfl⟩
abbrev main_cst_36 : Ref sig .tc := ⟨.hbm, 166, rfl⟩
abbrev main_v124 : Ref sig .tc := ⟨.hbm, 167, rfl⟩
abbrev main_v125 : Ref sig .tc := ⟨.hbm, 168, rfl⟩
abbrev main_cst_37 : Ref sig .tc := ⟨.hbm, 169, rfl⟩
abbrev main_v126 : Ref sig .tc := ⟨.hbm, 170, rfl⟩
abbrev main_v127 : Ref sig .tc := ⟨.hbm, 171, rfl⟩
abbrev main_cst_38 : Ref sig .tc := ⟨.hbm, 172, rfl⟩
abbrev main_v128 : Ref sig .tc := ⟨.hbm, 173, rfl⟩
abbrev main_v129 : Ref sig .tc := ⟨.hbm, 174, rfl⟩
abbrev main_cst_39 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_40 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_41 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_42 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_43 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_44 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_cst_45 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_46 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_cst_47 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_cst_48 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_49 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_cst_50 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩

abbrev nD : Nat := 1
abbrev τ : Topo := Topo.v7x

variable {F : FTy → Type} [FloatOps F]

class Facts₀ : Prop where
  slices_S100000x3x5_S100000x3x1_0_0_4 : S100000x3x5.Slices ![0, 0, 4] S100000x3x1
  shapeCasts_S100000x3x1_S100000x3 : S100000x3x1.ShapeCasts S100000x3
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x3_S6400000_d1 : S6400000x3.ReducesTo [1] S6400000
  h_S_ : 0 < S_.numel
  bcast_S_S100000 : S_.BroadcastsInDim S100000 (![] : Fin 0 → Fin S100000.rank)
  bcast_S6400000x1_S6400000x3_0_1 : S6400000x1.BroadcastsInDim S6400000x3 (![0, 1] : Fin 2 → Fin S6400000x3.rank)
  bcast_S_S6400000x3 : S_.BroadcastsInDim S6400000x3 (![] : Fin 0 → Fin S6400000x3.rank)
  bcast_S_S100000x3 : S_.BroadcastsInDim S100000x3 (![] : Fin 0 → Fin S100000x3.rank)
  bcast_S100000_S100000x1_0 : S100000.BroadcastsInDim S100000x1 (![0] : Fin 1 → Fin S100000x1.rank)
  concatenates_S100000x3_S100000x3_S100000x1_S100000x1_S100000x8_d1 : Shape.Concatenates [S100000x3, S100000x3, S100000x1, S100000x1] S100000x8 1
  gather_S100000x3_S6400000x1_S6400000x3_1_0_n_n_0_1_13_wf : GatherDims.WF S100000x3 S6400000x1 S6400000x3 [1] [0] [] [0] [] 1 ![1, 3]
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  scatter_S100000x3_S6400000x1_S6400000x3_1_0_0_1_wf : ScatterDims.WF S100000x3 S6400000x1 S6400000x3 [1] [0] [0] 1

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf

class Facts : Prop extends Facts₀ where

variable [Facts]
-- ==== Proof.RefFrame.lean ====
/-
  The reference program is host operations only: its frame (it runs to the end, faults nowhere and leaves its four
  argument arrays as launched) is its run read back with the result's value dropped.
-/
import proofs.«429571_j62895501083203_3_alg».proof.Defs
import proofs.«429571_j62895501083203_3_alg».proof.Proof.Gen.ReferenceIdeal
import proofs.«429571_j62895501083203_3_alg».proof.Proof.Gen.ReferenceIdeal.Run
import proofs.«429571_j62895501083203_3_alg».proof.Proof.Gen.Pre_finite_inputs

noncomputable section

open Idealize.ShloMosaic Idealize.SL.Sem

namespace Cert.Proof.RefFrame

/-- Every weakly fair execution of the reference ends with its arguments unchanged: the second half of its run's post. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.IndexRange.lean ====
/-
  What the precondition says, entry by entry. The printed precondition is a conjunction of six whole-array tests:
  every position and every velocity has finite magnitude, and every edge's two endpoints, read as signed 32-bit
  words, lie in [0, 100000). Read back, a word with 0 ≤ w < 100000 as a signed integer is a word whose unsigned
  value is below 100000.
-/
import proofs.«429571_j62895501083203_3_alg».proof.Pre_finite_inputs
import proofs.«429571_j62895501083203_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Proof.IndexRange

open Idealize.ShloMosaic Cert.Pre_finite_inputs Cert.Pre_finite_inputs.Gen

variable {F : FTy → Type} [FloatOps F]

/-- The scalar shape has no axis, so any two of its indices are equal. -/
theorem scalar_idx_eq (a b : S_.Idx) : a = b := funext fun d => d.elim0

/-- A 32-bit word that, read signed, is at least 0 and below 100000 has an unsigned value below 100000: a word
    whose top bit is set reads negative, so the lower test excludes it, and below the top bit the two readings agree. -/
theorem toNat_lt_of_signed_range (w : BitVec 32) (h0 : IntOp.cmpi .sge w 0#32 = 1#1)
    (h1 : IntOp.cmpi .slt w 100000#32 = 1#1) : w.toNat < 100000 := by
  have a : (0#32 : BitVec 32).toInt ≤ w.toInt := IntOp.cmpi_sge.1 h0
  have b : w.toInt < (100000#32 : BitVec 32).toInt := IntOp.cmpi_slt.1 h1
  rw [StableHlo.Predicate.toInt_ofNat_small 0 (by norm_num)] at a
  rw [StableHlo.Predicate.toInt_ofNat_small 100000 (by norm_num)] at b
  have hw : w.toNat < 2 ^ 32 := w.isLt
  have e := BitVec.toInt_eq_toNat_cond w
  split at e <;> omega

/-- At the extended reals, a value whose magnitude max(v, −v) lies strictly below +∞ is neither infinity, so it is
    a real number. The pattern 0x7F800000 denotes +∞. -/
theorem real_of_abs_lt_inf (v : EReal)
    (hv : BitVec.ofBool (decide (max v (-v) < (Ideal.ofBits .f32 0x7F800000#32 : EReal))) = 1#1) :
    ∃ r : ℝ, v = (r : EReal) := by
  have htop : (Ideal.ofBits .f32 0x7F800000#32 : EReal) = (⊤ : EReal) := by simp [Ideal.ofBits, Ideal.ieee]
  rw [htop] at hv
  have hlt : max v (-v) < (⊤ : EReal) := of_decide_eq_true ((StableHlo.Predicate.ofBool_eq_one_iff _).1 hv)
  have h1 : v < ⊤ := lt_of_le_of_lt (le_max_left _ _) hlt
  have h2 : -v < ⊤ := lt_of_le_of_lt (le_max_right _ _) hlt
  have hnt : v ≠ ⊤ := ne_of_lt h1
  have hnb : v ≠ ⊥ := by
    intro hb
    rw [hb, EReal.neg_bot] at h2
    exact lt_irrefl _ h2
  exact ⟨v.toReal, (EReal.coe_toReal hnt hnb).symm⟩

/-- The precondition read back: it is the conjunction of six whole-array tests, each a reduction by "and" of an
    entrywise comparison, so when it is 1 each comparison is 1 at every entry. -/
theorem decode (a0 : FVec F S100000x3x5 .f32) (a1 : FVec F S100000x3 .f32) (i j : IVec S6400000 32)
    (h : fn (F := F) a0 a1 i j = fun _ => 1#1) :
    (∀ x : S100000x3x5.Idx,
        FloatOps.cmpf .olt (FloatOps.hostAbsf (a0 x)) (FloatOps.ofBits (F := F) .f32 0x7F800000#32) = 1#1) ∧
    (∀ x : S100000x3.Idx,
        FloatOps.cmpf .olt (FloatOps.hostAbsf (a1 x)) (FloatOps.ofBits (F := F) .f32 0x7F800000#32) = 1#1) ∧
    (∀ e : S6400000.Idx, IntOp.cmpi .sge (i e) 0#32 = 1#1) ∧
    (∀ e : S6400000.Idx, IntOp.cmpi .slt (i e) 100000#32 = 1#1) ∧
    (∀ e : S6400000.Idx, IntOp.cmpi .sge (j e) 0#32 = 1#1) ∧
    (∀ e : S6400000.Idx, IntOp.cmpi .slt (j e) 100000#32 = 1#1) := by
  have h0 := congrFun h ValueIdx.ix0
  dsimp only [fn, fn_part1] at h0
  simp only [andi, IntOp.andi_eq_one] at h0
  obtain ⟨⟨⟨⟨⟨h3, h7⟩, h11⟩, h15⟩, h19⟩, h23⟩ := h0
  refine ⟨fun x => ?_, fun x => ?_, fun e => ?_, fun e => ?_, fun e => ?_, fun e => ?_⟩
  · have t := Host.reduce_andi_eq_one _ _ _ _ _ h3 x (scalar_idx_eq _ _)
    exact t
  · have t := Host.reduce_andi_eq_one _ _ _ _ _ h7 x (scalar_idx_eq _ _)
    exact t
  · have t := Host.reduce_andi_eq_one _ _ _ _ _ h11 e (scalar_idx_eq _ _)
    exact t
  · have t := Host.reduce_andi_eq_one _ _ _ _ _ h15 e (scalar_idx_eq _ _)
    exact t
  · have t := Host.reduce_andi_eq_one _ _ _ _ _ h19 e (scalar_idx_eq _ _)
    exact t
  · have t := Host.reduce_andi_eq_one _ _ _ _ _ h23 e (scalar_idx_eq _ _)
    exact t

/-- Under the precondition every first endpoint is a particle number: its word, unsigned, is below 100000. -/
theorem i_inb (a0 : FVec F S100000x3x5 .f32) (a1 : FVec F S100000x3 .f32) (i j : IVec S6400000 32)
    (h : fn (F := F) a0 a1 i j = fun _ => 1#1) : ∀ e : S6400000.Idx, (i e).toNat < 100000 := by
  intro e
  have d := decode a0 a1 i j h
  exact toNat_lt_of_signed_range (i e) (d.2.2.1 e) (d.2.2.2.1 e)

/-- Under the precondition every second endpoint is a particle number. -/
theorem j_inb (a0 : FVec F S100000x3x5 .f32) (a1 : FVec F S100000x3 .f32) (i j : IVec S6400000 32)
    (h : fn (F := F) a0 a1 i j = fun _ => 1#1) : ∀ e : S6400000.Idx, (j e).toNat < 100000 := by
  intro e
  have d := decode a0 a1 i j h
  exact toNat_lt_of_signed_range (j e) (d.2.2.2.2.1 e) (d.2.2.2.2.2 e)

/-- Under the precondition, at the extended reals, every position entry is a real number. -/
theorem pos_finite (a0 : FVec Ideal S100000x3x5 .f32) (a1 : FVec Ideal S100000x3 .f32) (i j : IVec S6400000 32)
    (h : fn (F := Ideal) a0 a1 i j = fun _ => 1#1) : ∀ x : S100000x3x5.Idx, ∃ r : ℝ, (a0 x : EReal) = (r : EReal) := by
  intro x
  have d := (decode a0 a1 i j h).1 x
  exact real_of_abs_lt_inf (a0 x) d

/-- Under the precondition, at the extended reals, every velocity entry is a real number. -/
theorem vel_finite (a0 : FVec Ideal S100000x3x5 .f32) (a1 : FVec Ideal S100000x3 .f32) (i j : IVec S6400000 32)
    (h : fn (F := Ideal) a0 a1 i j = fun _ => 1#1) : ∀ x : S100000x3.Idx, ∃ r : ℝ, (a1 x : EReal) = (r : EReal) := by
  intro x
  have d := (decode a0 a1 i j h).2.1 x
  exact real_of_abs_lt_inf (a1 x) d

end Cert.Proof.IndexRange

end
-- ==== Proof.Sph.lean ====
/-
  The function both programs compute, written once over the extended reals.

  There are 100000 particles, each with a position r n ∈ EReal³ (the last of its five stored positions) and a velocity
  u n ∈ EReal³, stacked as one column col n ∈ EReal⁶, and 6400000 directed edges e from particle ni e to particle
  nj e. Per edge, from the two endpoint columns xi, xj: the displacement drC = xi[0:3] − xj[0:3], its length distC,
  and the quintic spline weight wC. A particle's density rho n is the sum of the weights of the edges that START at
  n; a density's pressure is 100 · (rho − 1). Per edge again, from the endpoint columns and the endpoint densities
  ri, rj: the density-weighted pressure pijC, the volume weight wvC, the scalar cC = wvC · gker(dist) / (dist + ε)
  with gker the spline's derivative, and the acceleration aC = cC · ((0 − pijC) · drC + η · (xi[3:6] − xj[3:6])).
  A particle's rate of change dudt n is the sum of the accelerations of the edges that start at n. The result row
  of particle n is (dudt n 0, dudt n 1, dudt n 2, 0, 0, 0, rho n, pressure n + 0).

  Float literals stay the words the programs print: the same word on both sides is never evaluated. The products
  are associated exactly as both programs associate them (x⁵ = x · ((x·x)·(x·x)), x⁴ = (x·x)·(x·x)).
-/
import Idealize.ShloMosaic.PureOps.Ideal
import Idealize.ShloMosaic.PureOps.Ideal.Laws
import Idealize.ShloMosaic.Lib.ValueIdx

noncomputable section

namespace Cert.Proof.Sph

open Idealize.ShloMosaic Idealize.ShloMosaic.ValueIdx

/-! ## The literals, as the words both programs print -/

/-- 0.0 -/ abbrev w0 : EReal := Ideal.ofBits .f32 0x00000000#32
/-- 1.0 -/ abbrev w1 : EReal := Ideal.ofBits .f32 0x3F800000#32
/-- 2.0 -/ abbrev w2 : EReal := Ideal.ofBits .f32 0x40000000#32
/-- 3.0 -/ abbrev w3 : EReal := Ideal.ofBits .f32 0x40400000#32
/-- 6.0 -/ abbrev w6 : EReal := Ideal.ofBits .f32 0x40C00000#32
/-- 15.0 -/ abbrev w15 : EReal := Ideal.ofBits .f32 0x41700000#32
/-- the spline's normalisation 3 / (359 π), as an f32 -/ abbrev wSig : EReal := Ideal.ofBits .f32 0x3B2E52E9#32
/-- minus five times it, as an f32 -/ abbrev wGrad : EReal := Ideal.ofBits .f32 0xBC59E7A4#32
/-- 100.0, the reference pressure -/ abbrev w100 : EReal := Ideal.ofBits .f32 0x42C80000#32
/-- 1e-8 as an f32 -/ abbrev wEps : EReal := Ideal.ofBits .f32 0x322BCC77#32
/-- the viscosity 2·0.01·0.01 / (2·0.01 + 1e-8) as an f32 -/ abbrev wEta : EReal := Ideal.ofBits .f32 0x3C23D705#32

/-! ## The spline and its derivative, of a distance -/

/-- max(0, a − d / 1) for a = 1, 2, 3: the three clipped arms of the quintic spline. -/
def arm (a d : EReal) : EReal := max w0 (a - Ideal.div d w1)

/-- The quintic spline weight of a distance. -/
def wker (d : EReal) : EReal :=
  wSig * (((arm w3 d * ((arm w3 d * arm w3 d) * (arm w3 d * arm w3 d)))
            - w6 * (arm w2 d * ((arm w2 d * arm w2 d) * (arm w2 d * arm w2 d))))
          + w15 * (arm w1 d * ((arm w1 d * arm w1 d) * (arm w1 d * arm w1 d))))

/-- The spline's derivative at a distance. -/
def gker (d : EReal) : EReal :=
  wGrad * ((((arm w3 d * arm w3 d) * (arm w3 d * arm w3 d))
            - w6 * ((arm w2 d * arm w2 d) * (arm w2 d * arm w2 d)))
          + w15 * ((arm w1 d * arm w1 d) * (arm w1 d * arm w1 d)))

/-! ## One edge, from its endpoints' columns and densities -/

/-- Rows 0, 1, 2 of a column: the position part. -/
abbrev lo (k : Fin 3) : Fin 6 := ⟨k.val, by omega⟩
/-- Rows 3, 4, 5 of a column: the velocity part. -/
abbrev hi (k : Fin 3) : Fin 6 := ⟨k.val + 3, by omega⟩

/-- The displacement, component k. -/
def drC (xi xj : Fin 6 → EReal) (k : Fin 3) : EReal := xi (lo k) - xj (lo k)

/-- The length of the displacement. -/
def distC (xi xj : Fin 6 → EReal) : EReal := Ideal.sqrt (∑ k : Fin 3, drC xi xj k * drC xi xj k)

/-- The spline weight of the edge. -/
def wC (xi xj : Fin 6 → EReal) : EReal := wker (distC xi xj)

/-- The pressure of a density. -/
def presC (rh : EReal) : EReal := w100 * (rh - w1)

/-- The density-weighted pressure of the edge. -/
def pijC (ri rj : EReal) : EReal := Ideal.div (rj * presC ri + ri * presC rj) (ri + rj)

/-- The volume weight 1/rho_i² + 1/rho_j². -/
def wvC (ri rj : EReal) : EReal := Ideal.div w1 ri * Ideal.div w1 ri + Ideal.div w1 rj * Ideal.div w1 rj

/-- The edge's scalar factor. -/
def cC (xi xj : Fin 6 → EReal) (ri rj : EReal) : EReal :=
  Ideal.div (wvC ri rj * gker (distC xi xj)) (distC xi xj + wEps)

/-- The edge's acceleration, component k. -/
def aC (xi xj : Fin 6 → EReal) (ri rj : EReal) (k : Fin 3) : EReal :=
  cC xi xj ri rj * ((w0 - pijC ri rj) * drC xi xj k + wEta * (xi (hi k) - xj (hi k)))

/-! ## All edges and all particles -/

section

variable (col : Fin 100000 → Fin 6 → EReal) (ni nj : Fin 6400000 → Fin 100000)

/-- Particle n's density: the weights of the edges that start at n, summed. -/
def rho (n : Fin 100000) : EReal := ∑ e : Fin 6400000, if ni e = n then wC (col (ni e)) (col (nj e)) else 0

/-- Edge e's acceleration, component k. -/
def aE (e : Fin 6400000) (k : Fin 3) : EReal :=
  aC (col (ni e)) (col (nj e)) (rho col ni nj (ni e)) (rho col ni nj (nj e)) k

/-- Particle n's rate of change, component k: the accelerations of the edges that start at n, summed. -/
def dudt (n : Fin 100000) (k : Fin 3) : EReal := ∑ e : Fin 6400000, if ni e = n then aE col ni nj e k else 0

/-- Row n of the result: the rate of change, three zeros, the density, and the pressure plus the background pressure
    (the literal 0.0 both programs add). -/
def row (n : Fin 100000) (c : Fin 8) : EReal :=
  if h : c.val < 3 then dudt col ni nj n ⟨c.val, h⟩
  else if c.val < 6 then 0
  else if c.val = 6 then rho col ni nj n
  else presC (rho col ni nj n) + w0

end

/-! ## The inputs as the programs hold them -/

/-- Particle n's column: its current position (the last of its five stored ones) over its velocity. -/
def colOf (a0 : (⟨3, ![100000, 3, 5]⟩ : Shape).Idx → EReal) (a1 : (⟨2, ![100000, 3]⟩ : Shape).Idx → EReal) :
    Fin 100000 → Fin 6 → EReal :=
  fun n t => if h : t.val < 3 then a0 (ix3 n (⟨t.val, h⟩ : Fin 3) (4 : Fin 5))
    else a1 (ix2 n (⟨t.val - 3, by omega⟩ : Fin 3))

/-- An edge's endpoint as a particle number, for an index array all of whose words are below 100000. -/
def nodeOf (idx : IVec ⟨1, ![6400000]⟩ 32) (h : ∀ e : (⟨1, ![6400000]⟩ : Shape).Idx, (idx e).toNat < 100000) :
    Fin 6400000 → Fin 100000 :=
  fun e => ⟨(idx (ix1 e)).toNat, h (ix1 e)⟩

/-- The whole result array, of the four inputs (the index arrays with their range facts). -/
def result (a0 : (⟨3, ![100000, 3, 5]⟩ : Shape).Idx → EReal) (a1 : (⟨2, ![100000, 3]⟩ : Shape).Idx → EReal)
    (i j : IVec ⟨1, ![6400000]⟩ 32) (hni : ∀ e, (i e).toNat < 100000) (hnj : ∀ e, (j e).toNat < 100000) :
    (⟨2, ![100000, 8]⟩ : Shape).Idx → EReal :=
  fun y => row (colOf a0 a1) (nodeOf i hni) (nodeOf j hnj) ⟨(y 0).val, (y 0).isLt⟩ ⟨(y 1).val, (y 1).isLt⟩

/-! ## The two kernels' outputs as whole arrays over the edges -/

/-- The density kernel's output, of the two [6 × E] arrays of gathered endpoint columns: entry (0, e) is the spline
    weight of edge e's two columns. -/
def densArr (x0 x1 : (⟨2, ![6, 6400000]⟩ : Shape).Idx → EReal) : (⟨2, ![1, 6400000]⟩ : Shape).Idx → EReal :=
  fun y => wC (fun t => x0 (ix2 t (⟨(y 1).val, (y 1).isLt⟩ : Fin 6400000)))
    (fun t => x1 (ix2 t (⟨(y 1).val, (y 1).isLt⟩ : Fin 6400000)))

/-- The acceleration kernel's output, of the two arrays of gathered endpoint columns and the two [1 × E] arrays of
    gathered endpoint densities: entry (k, e) is component k of edge e's acceleration. -/
def accArr (x0 x1 : (⟨2, ![6, 6400000]⟩ : Shape).Idx → EReal) (x2 x3 : (⟨2, ![1, 6400000]⟩ : Shape).Idx → EReal) :
    (⟨2, ![3, 6400000]⟩ : Shape).Idx → EReal :=
  fun y => aC (fun t => x0 (ix2 t (⟨(y 1).val, (y 1).isLt⟩ : Fin 6400000)))
    (fun t => x1 (ix2 t (⟨(y 1).val, (y 1).isLt⟩ : Fin 6400000)))
    (x2 (ix2 (0 : Fin 1) (⟨(y 1).val, (y 1).isLt⟩ : Fin 6400000)))
    (x3 (ix2 (0 : Fin 1) (⟨(y 1).val, (y 1).isLt⟩ : Fin 6400000)))
    (⟨(y 0).val, (y 0).isLt⟩ : Fin 3)

/-- The result depends on the four inputs only: equal inputs give equal results, whatever witnesses the range facts. -/
theorem result_congr {a0 b0 : (⟨3, ![100000, 3, 5]⟩ : Shape).Idx → EReal} {a1 b1 : (⟨2, ![100000, 3]⟩ : Shape).Idx → EReal}
    {i i' j j' : IVec ⟨1, ![6400000]⟩ 32} (h0 : a0 = b0) (h1 : a1 = b1) (h2 : i = i') (h3 : j = j')
    (hi : ∀ e, (i e).toNat < 100000) (hj : ∀ e, (j e).toNat < 100000)
    (hi' : ∀ e, (i' e).toNat < 100000) (hj' : ∀ e, (j' e).toNat < 100000) :
    result a0 a1 i j hi hj = result b0 b1 i' j' hi' hj' := by
  subst h0 h1 h2 h3; rfl

/-- The position part of a particle's column. -/
theorem colOf_lo (a0 : (⟨3, ![100000, 3, 5]⟩ : Shape).Idx → EReal) (a1 : (⟨2, ![100000, 3]⟩ : Shape).Idx → EReal)
    (n : Fin 100000) (k : Fin 3) : colOf a0 a1 n (lo k) = a0 (ix3 n k (4 : Fin 5)) := by
  unfold colOf; rw [dif_pos (show (lo k).val < 3 from k.isLt)]

/-- The velocity part of a particle's column. -/
theorem colOf_hi (a0 : (⟨3, ![100000, 3, 5]⟩ : Shape).Idx → EReal) (a1 : (⟨2, ![100000, 3]⟩ : Shape).Idx → EReal)
    (n : Fin 100000) (k : Fin 3) : colOf a0 a1 n (hi k) = a1 (ix2 n k) := by
  unfold colOf
  rw [dif_neg (show ¬ (hi k).val < 3 by simp [hi])]
  congr 2

/-- The signed reading of an in-range endpoint word is its particle number. -/
theorem toInt_nodeOf (idx : IVec ⟨1, ![6400000]⟩ 32) (h : ∀ e, (idx e).toNat < 100000) (e : Fin 6400000) :
    (idx (ix1 e)).toInt = ((nodeOf idx h e : Fin 100000) : ℤ) := by
  have := h (ix1 e)
  rw [BitVec.toInt_eq_toNat_of_lt (by omega)]
  rfl

/-- The word 0.0 is the number 0. -/
theorem w0_eq : w0 = 0 := Ideal.ofBits_zero_f32

/-- The word 1.0 is the number 1. -/
theorem w1_eq : w1 = 1 := by
  simp [w1, Ideal.ofBits, Ideal.ieee, -EReal.coe_mul]; norm_num

/-- Dividing by the word 1.0 changes nothing, on every extended real. -/
theorem div_w1 (x : EReal) : Ideal.div x w1 = x := by
  rw [w1_eq, Ideal.div, if_neg one_ne_zero, inv_one, mul_one]

/-- Raising to the power 1.0 changes nothing, on every extended real. -/
theorem pow_w1 (x : EReal) : Ideal.pow x w1 = x := by
  rw [w1_eq, ← EReal.coe_one]
  induction x using EReal.rec with
  | bot => rfl
  | top =>
    show (if (0 : EReal) < ((1 : ℝ) : EReal) then (⊤ : EReal) else if ((1 : ℝ) : EReal) = 0 then 1 else 0) = ⊤
    rw [if_pos (by exact_mod_cast (one_pos : (0 : ℝ) < 1))]
  | coe x =>
    show ((x ^ (1 : ℝ) : ℝ) : EReal) = (x : EReal)
    rw [Real.rpow_one]

/-- Subtracting from the word 0.0 is negation, on every extended real. -/
theorem w0_sub (x : EReal) : w0 - x = -x := by rw [w0_eq, zero_sub]

/-- Adding the word 0.0 changes nothing. -/
theorem add_w0 (x : EReal) : x + w0 = x := by rw [w0_eq, add_zero]

/-- Adding to the word 0.0 changes nothing. -/
theorem w0_add (x : EReal) : w0 + x = x := by rw [w0_eq, zero_add]

end Cert.Proof.Sph

end
-- ==== Proof.DensityBody.lean ====
/- Region 0 of @main, the density pass over the edges, seen from inside one grid point.

   The region walks the 6400000 edges in 50 blocks of 128000 lanes. At a point it holds, in staging buffers, the
   block of each gathered endpoint array (six rows per lane, one lane per edge) and a block of the output row. The
   body reads both input blocks whole, forms per lane the spline weight of the distance between the two endpoints,
   and writes that row over the whole output block, once. So what the body leaves in the output block is a function
   of the two input blocks alone, and it leaves the input blocks as it found them.

   Stated here, at any entry contents `V` of the core's buffers and at any float instance: the blocks (`iblk`), the
   row the body leaves (`out2`, and `out2_eq`: it is the weight of the two blocks), the body's triple
   (`sound_kernel`), the proof data of the pipeline (`dat`) and its body obligation (`body_obligation`). -/
import proofs.«429571_j62895501083203_3_alg».proof.Proof.Gen.KernelIdeal.Launch
import proofs.«429571_j62895501083203_3_alg».proof.Proof.Gen.KernelIdeal.Skeleton
import proofs.«429571_j62895501083203_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Density

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks -/

/-- The block of window `w` at grid point `t`: the 128000 lanes of its array that point `t` works on, read off the
    array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle that is all of a [6 × 128000] block: offsets zero, the block's own extents. -/
abbrev whole6 : Rect S6x128000 := Rect.unit (s := S6x128000) ![0, 0] S6x128000.size inb_S6x128000_S6x128000_0_0
/-- The rectangle that is all of a [1 × 128000] block. -/
abbrev whole1 : Rect S1x128000 := Rect.unit (s := S1x128000) ![0, 0] S1x128000.size inb_S1x128000_S1x128000_0_0

/-- The offsets of a whole-block access, as the constant zero. -/
theorem zero_offsets : (![0, 0] : Fin 2 → Nat) = fun _ => 0 := by
  funext a; fin_cases a <;> rfl

/-! ## What the body leaves in the output block -/

/-- The output block after the body, from the two input blocks: one piece, the whole block, carrying the weight row
    of the two blocks read whole. -/
def out2 (x0 x1 : Vec F S6x128000 .f32) : Vec F S1x128000 .f32 :=
  View.canon [⟨whole1, k0_pay1 (View.ld x0 whole6) (View.ld x1 whole6)⟩]

/-- One piece that is the whole block leaves its payload, and reading a block whole reads the block: the row left
    is the weight row of the two blocks. -/
theorem out2_eq (x0 x1 : Vec F S6x128000 .f32) : out2 x0 x1 = k0_pay1 x0 x1 := by
  unfold out2
  rw [View.canon_unit_zero (S := S1x128000) zero_offsets inb_S1x128000_S1x128000_0_0]
  rw [View.ld_unit_zero (S := S6x128000) zero_offsets inb_S6x128000_S6x128000_0_0 x0,
    View.ld_unit_zero (S := S6x128000) zero_offsets inb_S6x128000_S6x128000_0_0 x1]

/-- Every index of the output block lies in the one piece, whatever it carries. -/
theorem cover_out (p : Vec F S1x128000 .f32) (y : S1x128000.Idx) :
    ∃ pc ∈ ([⟨whole1, p⟩] : List (View.Piece (Elt F) S1x128000 .f32)), y ∈ pc.1.set :=
  ⟨_, List.mem_singleton_self _, View.mem_set_unit_zero (S := S1x128000) zero_offsets inb_S1x128000_S1x128000_0_0 y⟩

/-! ## The body's triple -/

set_option maxHeartbeats 1000000 in
/-- The body at any grid coordinates, on three whole staging memrefs: with the two input memrefs reading `x0` and
    `x1` and the output memref holding anything, it runs to its continuation with the inputs reading what they read
    and the output reading `out2 x0 x1`. The body is two whole loads, the weight, a whole load of the output and one
    whole store over it. -/
theorem sound_kernel (c : Dev nD) (E : Set ℕ) (i : grid0.Coords)
    (arg1 : Memref sig .tc .vmem S6x128000 .f32) (harg1 : arg1.IsWhole)
    (arg2 : Memref sig .tc .vmem S6x128000 .f32) (harg2 : arg2.IsWhole)
    (arg3 : Memref sig .tc .vmem S1x128000 .f32) (harg3 : arg3.IsWhole)
    (x0 x1 : Vec F S6x128000 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__density_kernel i arg1 harg1 arg2 harg2 arg3 harg3) K := by
  simp only [cc0__density_kernel_eq_skeleton]; unfold cc0__density_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the region on core `c`: the three arrays as the region finds them; after the body at point
    `t` each input block in place and the output block at the weight row of the two; the invariant is the rest of
    the core's scoped memory and its generator register, untouched; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

/-- Its arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by
  dsimp only [dat]

/-! ## What the body finds in the input blocks

An input window is fetched at a point only when its block index moved; where it did not, the buffer still holds the
previous point's block, which is this point's. The body leaves an input block in place, so at every point the buffer
holds the block of that point, whatever was there before the first fetch. -/

/-- The first endpoint's staging buffer holds that array's block at every point. -/
theorem before_0 (c : Dev nD) (t : Fin cfg0.N) (d) : (dat V c).before 0 t d = iblk V c 0 t := by
  have hblock : ∀ s, (dat V c).blockOf 0 s = iblk V c 0 s := fun s => by
    unfold Dat.blockOf iblk; rw [A_eq]
  have hkeep : ∀ s, (cfg0.win 0).cut (cfg0.grid.coords s) ((dat V c).after 0 s) = (dat V c).blockOf 0 s := fun s => by
    rw [after_0, hblock]; try rfl
  have hfetched : (dat V c).fetched 0 t d = iblk V c 0 t := by
    unfold Dat.fetched; rw [hblock]; try rfl
  exact ((dat V c).before_in_eq_fetched 0 rfl (fun _ => rfl) (fun _ _ _ => rfl) hkeep t d).trans hfetched

/-- The second endpoint's staging buffer holds that array's block at every point. -/
theorem before_1 (c : Dev nD) (t : Fin cfg0.N) (d) : (dat V c).before 1 t d = iblk V c 1 t := by
  have hblock : ∀ s, (dat V c).blockOf 1 s = iblk V c 1 s := fun s => by
    unfold Dat.blockOf iblk; rw [A_eq]
  have hkeep : ∀ s, (cfg0.win 1).cut (cfg0.grid.coords s) ((dat V c).after 1 s) = (dat V c).blockOf 1 s := fun s => by
    rw [after_1, hblock]; try rfl
  have hfetched : (dat V c).fetched 1 t d = iblk V c 1 t := by
    unfold Dat.fetched; rw [hblock]; try rfl
  exact ((dat V c).before_in_eq_fetched 1 rfl (fun _ => rfl) (fun _ _ _ => rfl) hkeep t d).trans hfetched

/-! ## The body obligation -/

/-- What the body is called with at point `t`: the invariant, what the core owes, and each window's current
    staging buffer at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns: the same invariant and debt, each buffer at what the body leaves there. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: both input buffers hold their blocks, so the body's triple applies at those blocks; the
    invariant and the debt are not read and pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rewrite [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the several-regions launch asks of this region's body, at every point. -/
theorem body_obligation (c : Dev nD) : BodyObligation (dat (F := F) V c) (defs₀ (F := F)) Variants.none () Set.univ := fun t => by
  rw [bigSep_W0, bigSep_W0]
  exact sound_body V c t

end Cert.KernelIdeal.Density

end
-- ==== Proof.AccelBody.lean ====
/-
  Region 1 of @main — the acceleration pass of the neighbour loop — seen from inside its pipeline.

  The pass walks the 6 400 000 edges in 100 consecutive stretches of 64 000. At stretch t the pipeline hands the
  body five staging buffers: the two gathered endpoint columns of the stretch (6 rows: position over velocity),
  the two gathered endpoint densities (1 row each), and the place for the stretch's 3 rows of pairwise
  accelerations. The body reads the four inputs whole, computes, and overwrites the output whole, once.

  This module says exactly that, for ANY contents V the TensorCore's buffers hold when the region is entered and at
  any float instance: what each window's block at a stretch is (iblk), what the body leaves in the output buffer as
  a function of the four input blocks (out4, which is the body's arithmetic k1_pay1 ∘ (k1_pay4 … k1_pay8) applied
  to the blocks: out4_eq), the body's Hoare triple on arbitrary whole staging memrefs (sound_kernel), the
  pipeline's proof data (dat) and the obligation the pipeline rule asks of the body at every stretch
  (body_obligation). Nothing here depends on which stretch of host operations produced V.
-/
import proofs.«429571_j62895501083203_3_alg».proof.Proof.Gen.KernelIdeal.Launch
import proofs.«429571_j62895501083203_3_alg».proof.Proof.Gen.KernelIdeal.Skeleton
import proofs.«429571_j62895501083203_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Accel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at stretch t: the 64 000 consecutive columns t·64000 … t·64000 + 63999 (every row) of the
    window's array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ### An input's staging buffer holds its block

The four inputs are never written by the body and every block lies whole inside its array. So for ANY proof data
whose array for the window is the entry contents (hA) and whose body hands the buffer back holding the block
(hkeep), the buffer the body is called with at stretch t holds the block of stretch t — whether the pipeline
copied it in just then, or did not because the block had not moved since the stretch before. One statement per
input window, each the same two steps: the library's lemma for an input left in place, then "what a copy-in
leaves is the block", both sides being one and the same read of the array once hA is used. -/

theorem before_0_of {c : Dev nD} (D : Dat τ (Elt F) Unit ℕ (UR sig nD τ) ℕ cfg1 c) (hA : D.A 0 = V c (Pipeline.arrRef spec1 0))
    (hkeep : ∀ t, D.after 0 t = iblk V c 0 t) (t : Fin cfg1.N) (d) : D.before 0 t d = iblk V c 0 t := by
  refine (D.before_in_eq_fetched 0 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

theorem before_1_of {c : Dev nD} (D : Dat τ (Elt F) Unit ℕ (UR sig nD τ) ℕ cfg1 c) (hA : D.A 1 = V c (Pipeline.arrRef spec1 1))
    (hkeep : ∀ t, D.after 1 t = iblk V c 1 t) (t : Fin cfg1.N) (d) : D.before 1 t d = iblk V c 1 t := by
  refine (D.before_in_eq_fetched 1 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

theorem before_2_of {c : Dev nD} (D : Dat τ (Elt F) Unit ℕ (UR sig nD τ) ℕ cfg1 c) (hA : D.A 2 = V c (Pipeline.arrRef spec1 2))
    (hkeep : ∀ t, D.after 2 t = iblk V c 2 t) (t : Fin cfg1.N) (d) : D.before 2 t d = iblk V c 2 t := by
  refine (D.before_in_eq_fetched 2 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

theorem before_3_of {c : Dev nD} (D : Dat τ (Elt F) Unit ℕ (UR sig nD τ) ℕ cfg1 c) (hA : D.A 3 = V c (Pipeline.arrRef spec1 3))
    (hkeep : ∀ t, D.after 3 t = iblk V c 3 t) (t : Fin cfg1.N) (d) : D.before 3 t d = iblk V c 3 t := by
  refine (D.before_in_eq_fetched 3 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

/-! ## The body's accesses: each staging buffer, whole -/

/-- All of a 6 × 64000 buffer (an endpoint's gathered position and velocity columns). -/
abbrev whole6 : Rect S6x64000 := Rect.unit (s := S6x64000) ![0, 0] S6x64000.size inb_S6x64000_S6x64000_0_0
/-- All of a 1 × 64000 buffer (an endpoint's gathered densities). -/
abbrev whole1 : Rect S1x64000 := Rect.unit (s := S1x64000) ![0, 0] S1x64000.size inb_S1x64000_S1x64000_0_0
/-- All of the 3 × 64000 output buffer (the pairwise accelerations). -/
abbrev whole3 : Rect S3x64000 := Rect.unit (s := S3x64000) ![0, 0] S3x64000.size inb_S3x64000_S3x64000_0_0

/-- Their offsets are zero on both axes. -/
theorem zeros2 : (![0, 0] : Fin 2 → ℕ) = fun _ => 0 :=
  funext fun a => by match a with | ⟨0, _⟩ => rfl | ⟨1, _⟩ => rfl

/-! ## What the body leaves in the output buffer -/

/-- The output buffer after the body, from the four input blocks x0, x1 (endpoints i and j: rows 0–2 position,
    rows 3–5 velocity) and x2, x3 (their densities): its single store, laid over the whole buffer, of the pairwise
    acceleration k1_pay1 = c · (−p · dr + η · (vi − vj)) at vi (k1_pay4: rows 3–5 of x0), vj (k1_pay5: rows 3–5 of
    x1), the separation dr (k1_pay6: rows 0–2 of x0 less those of x1), its length (k1_pay7), the smoothing
    kernel's radial derivative there (k1_pay8), and the two densities, from which k1_pay1 forms the pressure
    term p and the scalar c. -/
def out4 (x0 x1 : Vec F S6x64000 .f32) (x2 x3 : Vec F S1x64000 .f32) : Vec F S3x64000 .f32 :=
  View.canon [⟨whole3, k1_pay1 (k1_pay4 (View.ld x0 whole6)) (k1_pay5 (View.ld x1 whole6)) (k1_pay6 (View.ld x0 whole6) (View.ld x1 whole6))
    (k1_pay7 (View.ld x0 whole6) (View.ld x1 whole6)) (k1_pay8 (View.ld x0 whole6) (View.ld x1 whole6)) (View.ld x2 whole1) (View.ld x3 whole1)⟩]

/-- One store through the whole buffer leaves its payload, and a read through a whole buffer reads the contents:
    the output buffer holds the body's arithmetic applied to the four blocks. -/
theorem out4_eq (x0 x1 : Vec F S6x64000 .f32) (x2 x3 : Vec F S1x64000 .f32) :
    out4 x0 x1 x2 x3 = k1_pay1 (k1_pay4 x0) (k1_pay5 x1) (k1_pay6 x0 x1) (k1_pay7 x0 x1) (k1_pay8 x0 x1) x2 x3 := by
  unfold out4
  rw [View.canon_unit_zero zeros2, View.ld_unit_zero zeros2, View.ld_unit_zero zeros2, View.ld_unit_zero zeros2,
    View.ld_unit_zero zeros2]

/-- The single store reaches every index of the output buffer, whatever it stores. -/
theorem cover4 (p : Vec F S3x64000 .f32) (y : S3x64000.Idx) :
    ∃ pc ∈ ([⟨whole3, p⟩] : List (View.Piece (Elt F) S3x64000 .f32)), y ∈ pc.1.set :=
  ⟨⟨whole3, p⟩, List.mem_singleton_self _, View.mem_set_unit_zero (S := S3x64000) zeros2 inb_S3x64000_S3x64000_0_0 y⟩

/-! ## The body's triple -/

set_option maxHeartbeats 1000000 in
/-- On five whole staging memrefs — the four inputs reading x0 … x3, the output holding anything — the body runs,
    faults nowhere, and reaches its continuation with the inputs as they were and the output reading
    out4 x0 x1 x2 x3: its five loads read the buffers' contents, its one store covers the output buffer. -/
theorem sound_kernel (c : Dev nD) (E : Set ℕ) (i : grid1.Coords)
    (a0 : Memref sig .tc .vmem S6x64000 .f32) (h0 : a0.IsWhole) (a1 : Memref sig .tc .vmem S6x64000 .f32) (h1 : a1.IsWhole)
    (a2 : Memref sig .tc .vmem S1x64000 .f32) (h2 : a2.IsWhole) (a3 : Memref sig .tc .vmem S1x64000 .f32) (h3 : a3.IsWhole)
    (a4 : Memref sig .tc .vmem S3x64000 .f32) (h4 : a4.IsWhole)
    (x0 x1 : Vec F S6x64000 .f32) (x2 x3 : Vec F S1x64000 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
              ∗ owns (c : Thread nD τ) a2 fullShare x2 ∗ owns (c : Thread nD τ) a3 fullShare x3
              ∗ owns (c : Thread nD τ) a4 fullShare (out4 x0 x1 x2 x3)) -∗ K ⟨⟩))
      ⊢ wp frame (wpE (defs₀ (F := F)) Variants.none c none) E (cc1__accel_kernel i a0 h0 a1 h1 a2 h2 a3 h3 a4 h4) K := by
  simp only [cc1__accel_kernel_eq_skeleton]; unfold cc1__accel_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of the acceleration pipeline on core c: the arrays as the region finds them; after the body at
    stretch t each input's buffer still at its block and the output's at out4 of the four blocks; the invariant
    the rest of the core's scoped memory and its generator register, untouched; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec1 c
  q _ := fullShare
  owed _ := 0

/-- Its arrays are the entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out4 (iblk V c 0 t) (iblk V c 1 t) (iblk V c 2 t) (iblk V c 3 t) := by dsimp only [dat]

/-- Each input's staging buffer holds its block when the body is called, at every stretch. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-- The invariant and what the core owes do not change from one stretch to the next. -/
theorem inv_succ (c : Dev nD) (t : Fin cfg1.N) : (dat V c).Φ t.succ = (dat V c).Φ t.castSucc := rfl
theorem owes_succ (c : Dev nD) (t : Fin cfg1.N) : (dat V c).owesAt () t.succ = (dat V c).owesAt () t.castSucc := rfl

/-! ## The body obligation, at any stretch -/

/-- What the body is called with at stretch t: the invariant, what the core owes, and the five current staging
    buffers at what they then hold, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it hands back: the same invariant and debts, the five buffers at what the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any stretch: the four inputs' buffers hold their blocks, so the body's triple applies at those
    blocks; the invariant and the debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [inv_succ, owes_succ, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _
    (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- What the pipeline rule asks of the body, at every stretch. -/
theorem body_obligation (c : Dev nD) : BodyObligation (dat (F := F) V c) (defs₀ (F := F)) Variants.none () Set.univ := fun t => by
  rw [bigSep_W1, bigSep_W1]
  exact sound_body V c t

end Cert.KernelIdeal.Accel

end
-- ==== Proof.KernelRun.lean ====
/- THE RUN of the kernel program's @main, at any float instance: its eleven items in order (three host stretches,
   the density pallas_call, five host stretches, the acceleration pallas_call, one host stretch) as the segments of the
   several-regions launch theorem, the TensorCore's buffer contents NAMED at every boundary between two items
   (`W0` … `W11`: a fold from the launch memory), so that what @main leaves in every unscoped buffer — the result
   `main_v45` among them — is `W11` by name, and every argument array ends as launched. -/
import proofs.«429571_j62895501083203_3_alg».proof.Proof.DensityBody
import proofs.«429571_j62895501083203_3_alg».proof.Proof.AccelBody
import proofs.«429571_j62895501083203_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- memberships decided over the signature's 160 references recurse past the default depth
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of @main: a fold from the launch memory -/

/-- Core `c`'s buffers at launch. -/
abbrev W0 (c : Dev nD) : Valuation τ sig (Elt F) := fun b => m (c, b)
/-- After the first stretch: `main_v4` holds the six-row particle table — rows 0–2 the last component (index 4) of
    every row of `main_arg0`, transposed; rows 3–5 `main_arg1`, transposed. -/
abbrev W1 (c : Dev nD) : Valuation τ sig (Elt F) := StableHlo.after hostOps0 (W0 m c)
/-- After the first gather: `main_v5` holds, per edge, the table's column at the edge's first endpoint (`main_arg2`). -/
abbrev W2 (c : Dev nD) : Valuation τ sig (Elt F) := StableHlo.after hostOps0_1 (W1 m c)
/-- After the second gather: `main_v6` holds, per edge, the table's column at the edge's second endpoint (`main_arg3`).
    These are the contents region 0 is entered from. -/
abbrev W3 (c : Dev nD) : Valuation τ sig (Elt F) := StableHlo.after hostOps0_2 (W2 m c)
/-- The same read at the TensorCore's references: what region 0's proof data take. -/
abbrev E3 : (c : Dev nD) → (b : Ref sig .tc) → Buf (Elt F) ((c : Thread nD τ).loc b) := fun c b => W3 m c b
/-- At region 0's exit: its windows' arrays at what the pipeline leaves (the inputs `main_v5`, `main_v6` as entered,
    the output `main_v7` — the density kernel's value per edge — at its write-backs folded), every other buffer as entered. -/
def W4 (c : Dev nD) : Valuation τ sig (Elt F) :=
  Pipeline.withArrays spec0 c (W3 m c) fun w => (Density.dat (E3 m) c).arrAt w cfg0.N
/-- After the stretch between the regions: `main_v11` the per-particle sum of `main_v7` over the edges by first
    endpoint, `main_v17` = 100 · (`main_v11` − 1) + 0. -/
abbrev W5 (c : Dev nD) : Valuation τ sig (Elt F) := StableHlo.after hostOps1 (W4 m c)
/-- `main_v18`: `main_v11` gathered at every edge's first endpoint. -/
abbrev W6 (c : Dev nD) : Valuation τ sig (Elt F) := StableHlo.after hostOps1_1 (W5 m c)
/-- `main_v19`: the same as one row. -/
abbrev W7 (c : Dev nD) : Valuation τ sig (Elt F) := StableHlo.after hostOps1_2 (W6 m c)
/-- `main_v20`: `main_v11` gathered at every edge's second endpoint. -/
abbrev W8 (c : Dev nD) : Valuation τ sig (Elt F) := StableHlo.after hostOps1_3 (W7 m c)
/-- `main_v21`: the same as one row. These are the contents region 1 is entered from. -/
abbrev W9 (c : Dev nD) : Valuation τ sig (Elt F) := StableHlo.after hostOps1_4 (W8 m c)
/-- The same read at the TensorCore's references: what region 1's proof data take. -/
abbrev E9 : (c : Dev nD) → (b : Ref sig .tc) → Buf (Elt F) ((c : Thread nD τ).loc b) := fun c b => W9 m c b
/-- At region 1's exit: its windows' arrays at what the pipeline leaves (the four inputs as entered, the output
    `main_v22` — the acceleration kernel's three components per edge — at its write-backs folded), every other buffer as entered. -/
def W10 (c : Dev nD) : Valuation τ sig (Elt F) :=
  Pipeline.withArrays spec1 c (W9 m c) fun w => (Accel.dat (E9 m) c).arrAt w cfg1.N
/-- At the return: the three rows of `main_v22` summed per particle over the edges by first endpoint, beside a zero
    block, `main_v11` and `main_v17`, as the eight columns of the result `main_v45`. -/
abbrev W11 (c : Dev nD) : Valuation τ sig (Elt F) := StableHlo.after hostOps2 (W10 m c)

/-! ## What each item leaves unchanged -/

/-- A host stretch changes only the references it writes. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h

/-- Region 0 leaves each of its windows' arrays at what the pipeline leaves there, -/
theorem W4_arr (c : Dev nD) (w : Fin cfg0.W) :
    W4 m c (Proc.devRef .tc (Pipeline.arrRef spec0 w)) = (Density.dat (E3 m) c).arrAt w cfg0.N := by
  unfold W4; exact Pipeline.withArrays_arr spec0 launch0.win.arr_inj c _ _ w
/-- and every buffer that is no window's array as it found it. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents read at the TensorCore's references. -/
abbrev E4 : (c : Dev nD) → (b : Ref sig .tc) → Buf (Elt F) ((c : Thread nD τ).loc b) := fun c b => W4 m c b
/-- At region 0's exit each of its arrays holds what the pipeline leaves (`hF0`) and every other buffer what it held
    at entry (`hrest0`): what putting the arrays back among the unscoped buffers takes. -/
theorem hF0 (c : Dev nD) (w : Fin cfg0.W) : (Density.dat (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

theorem W5_of (c : Dev nD) (r : Ref sig .tc) (h : r ∉ hostOps1_W) : W5 m c (Proc.devRef .tc r) = W4 m c (Proc.devRef .tc r) :=
  StableHlo.after_of_writes_sub hostOps1 _ hostOps1_writes h
theorem W6_of (c : Dev nD) (r : Ref sig .tc) (h : r ∉ hostOps1_1_W) : W6 m c (Proc.devRef .tc r) = W5 m c (Proc.devRef .tc r) :=
  StableHlo.after_of_writes_sub hostOps1_1 _ hostOps1_1_writes h
theorem W7_of (c : Dev nD) (r : Ref sig .tc) (h : r ∉ hostOps1_2_W) : W7 m c (Proc.devRef .tc r) = W6 m c (Proc.devRef .tc r) :=
  StableHlo.after_of_writes_sub hostOps1_2 _ hostOps1_2_writes h
theorem W8_of (c : Dev nD) (r : Ref sig .tc) (h : r ∉ hostOps1_3_W) : W8 m c (Proc.devRef .tc r) = W7 m c (Proc.devRef .tc r) :=
  StableHlo.after_of_writes_sub hostOps1_3 _ hostOps1_3_writes h
theorem W9_of (c : Dev nD) (r : Ref sig .tc) (h : r ∉ hostOps1_4_W) : W9 m c (Proc.devRef .tc r) = W8 m c (Proc.devRef .tc r) :=
  StableHlo.after_of_writes_sub hostOps1_4 _ hostOps1_4_writes h

/-- Region 1 leaves each of its windows' arrays at what the pipeline leaves there, -/
theorem W10_arr (c : Dev nD) (w : Fin cfg1.W) :
    W10 m c (Proc.devRef .tc (Pipeline.arrRef spec1 w)) = (Accel.dat (E9 m) c).arrAt w cfg1.N := by
  unfold W10; exact Pipeline.withArrays_arr spec1 launch1.win.arr_inj c _ _ w
/-- and every buffer that is no window's array as it found it. -/
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
/-- Region 1's exit contents read at the TensorCore's references. -/
abbrev E10 : (c : Dev nD) → (b : Ref sig .tc) → Buf (Elt F) ((c : Thread nD τ).loc b) := fun c b => W10 m c b
/-- The same two facts at region 1's exit. -/
theorem hF1 (c : Dev nD) (w : Fin cfg1.W) : (Accel.dat (E9 m) c).arrAt w cfg1.N = E10 m c (Pipeline.arrRef spec1 w) :=
  (W10_arr m c w).symm
theorem hrest1 (c : Dev nD) : ∀ b, b ∉ Finset.univ.image (Pipeline.arrRef spec1) → E10 m c b = E9 m c b :=
  fun b hb => W10_of_ne m c b fun w e => hb (Finset.mem_image.mpr ⟨w, Finset.mem_univ _, e⟩)

theorem W11_of (c : Dev nD) (r : Ref sig .tc) (h : r ∉ hostOps2_W) : W11 m c (Proc.devRef .tc r) = W10 m c (Proc.devRef .tc r) :=
  StableHlo.after_of_writes_sub hostOps2 _ hostOps2_writes h

/-! ## The arguments end as launched -/

/-- A reference no host stretch writes and no region stages ends holding its launch contents: the fold at it walks
    back to the launch memory, one item at a time. -/
theorem W11_of_launch (c : Dev nD) (r : Ref sig .tc)
    (h0 : r ∉ hostOps0_W) (h1 : r ∉ hostOps0_1_W) (h2 : r ∉ hostOps0_2_W) (hr0 : ∀ w, Pipeline.arrRef spec0 w ≠ r)
    (h4 : r ∉ hostOps1_W) (h5 : r ∉ hostOps1_1_W) (h6 : r ∉ hostOps1_2_W) (h7 : r ∉ hostOps1_3_W) (h8 : r ∉ hostOps1_4_W)
    (hr1 : ∀ w, Pipeline.arrRef spec1 w ≠ r) (h10 : r ∉ hostOps2_W) :
    W11 m c (Proc.devRef .tc r) = m ((c : Thread nD τ).loc r) :=
  calc W11 m c (Proc.devRef .tc r)
    _ = W10 m c (Proc.devRef .tc r) := W11_of m c r h10
    _ = W9 m c (Proc.devRef .tc r) := W10_of_ne m c r hr1
    _ = W8 m c (Proc.devRef .tc r) := W9_of m c r h8
    _ = W7 m c (Proc.devRef .tc r) := W8_of m c r h7
    _ = W6 m c (Proc.devRef .tc r) := W7_of m c r h6
    _ = W5 m c (Proc.devRef .tc r) := W6_of m c r h5
    _ = W4 m c (Proc.devRef .tc r) := W5_of m c r h4
    _ = W3 m c (Proc.devRef .tc r) := W4_of_ne m c r hr0
    _ = W2 m c (Proc.devRef .tc r) := W3_of m c r h2
    _ = W1 m c (Proc.devRef .tc r) := W2_of m c r h1
    _ = W0 m c (Proc.devRef .tc r) := W1_of m c r h0
    _ = m ((c : Thread nD τ).loc r) := rfl

/-- No host stretch writes an argument and no region stages one (each is read by host operations only). -/
theorem W11_main_arg0 (c : Dev nD) : W11 m c (Proc.devRef .tc main_arg0) = m ((c : Thread nD τ).loc main_arg0) :=
  W11_of_launch m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_of_launch m c main_arg1 (by decide) (by decide) (by decide) (by decide) (by decide) (by decide) (by decide) (by decide) (by decide) (by decide) (by decide)
theorem W11_main_arg2 (c : Dev nD) : W11 m c (Proc.devRef .tc main_arg2) = m ((c : Thread nD τ).loc main_arg2) :=
  W11_of_launch m c main_arg2 (by decide) (by decide) (by decide) (by decide) (by decide) (by decide) (by decide) (by decide) (by decide) (by decide) (by decide)
theorem W11_main_arg3 (c : Dev nD) : W11 m c (Proc.devRef .tc main_arg3) = m ((c : Thread nD τ).loc main_arg3) :=
  W11_of_launch m c main_arg3 (by decide) (by decide) (by decide) (by decide) (by decide) (by decide) (by decide) (by decide) (by decide) (by decide) (by decide)

/-! # The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Density.dat (E3 m) c
  | ⟨1, _⟩ => fun c => Accel.dat (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m c) ∗ ∃ r, prngReg c r)
/-- What the last host stretch leaves is that state beside the core owing nothing (the separating conjunction re-associated). -/
theorem last_post (c : Dev nD) :
    (iprop(StableHlo.held (c : Thread nD τ) (Pipeline.ucRefs τ sig) (W11 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! # The regions as segments -/

-- a library lemma stated over the pinned configuration of pipeline `p` unifies with the printed configuration only when
-- unification may unfold plain definitions in a metavariable's type
set_option backward.isDefEq.respectTransparency.types false in
/-- REGION 0 (pallas_call 0) over the thread state: entered from every unscoped buffer at `W3`, left at `W4`.
    Its windows' arrays are split out of the unscoped buffers at entry and put back at the exit contents; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Density.body_obligation (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` unifies with the printed configuration only when
-- unification may unfold plain definitions in a metavariable's type
set_option backward.isDefEq.respectTransparency.types false in
/-- REGION 1 (pallas_call 1) over the thread state: entered from every unscoped buffer at `W9`, left at `W10`.
    Its windows' arrays are split out of the unscoped buffers at entry and put back at the exit contents; the generator
    register goes into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Accel.body_obligation (E9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 11 segments in order: a host segment per stretch from its boundary's contents, a region per pallas_call. -/
abbrev runSegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .host (hseg hostOps1_3 hostOps1_3_sub hostOps1_3_fresh (W7 m)),
    .host (hseg hostOps1_4 hostOps1_4_sub hostOps1_4_fresh (W8 m)),
    .region (reg1 m),
    .host (hseg hostOps2 hostOps2_sub hostOps2_fresh (W10 m)) ]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer at `W11`: the
    several-regions launch over the segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (runSegs m)
    (fun c Q => by
      rewrite [main_chain c, Pipeline.Seg.run_eq_chain,
        show (runSegs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- THE FRAME, at any float instance: @main runs and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c)⟩) (run_all m ρ)

/-- THE RESULT, by name: @main runs, the result array `main_v45` ends at the last boundary's contents `W11`, and
    every argument array ends holding its launch contents. -/
theorem run_result : θ_run defs (onTc (τ := τ) (main (F := F))) ⟨m, fun _ => 0, ρ⟩ (fun r => ∀ c : Dev nD,
      r.2.mem ((c.tc : Thread nD τ).loc main_v45) = W11 m c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v45 (by decide)),
      (h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c)⟩) (run_all m ρ)

end Cert.KernelIdeal.Run

end
-- ==== Proof.WordDensityBody.lean ====
/- Region 0 of @main, the density pass over the edges, seen from inside one grid point.

   The region walks the 6400000 edges in 50 blocks of 128000 lanes. At a point it holds, in staging buffers, the
   block of each gathered endpoint array (six rows per lane, one lane per edge) and a block of the output row. The
   body reads both input blocks whole, forms per lane the spline weight of the distance between the two endpoints,
   and writes that row over the whole output block, once. So what the body leaves in the output block is a function
   of the two input blocks alone, and it leaves the input blocks as it found them.

   Stated here, at any entry contents `V` of the core's buffers and at any float instance: the blocks (`iblk`), the
   row the body leaves (`out2`, and `out2_eq`: it is the weight of the two blocks), the body's triple
   (`sound_kernel`), the proof data of the pipeline (`dat`) and its body obligation (`body_obligation`). -/
import proofs.«429571_j62895501083203_3_alg».proof.Proof.Gen.Kernel.Launch
import proofs.«429571_j62895501083203_3_alg».proof.Proof.Gen.Kernel.Skeleton
import proofs.«429571_j62895501083203_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Density

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks -/

/-- The block of window `w` at grid point `t`: the 128000 lanes of its array that point `t` works on, read off the
    array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle that is all of a [6 × 128000] block: offsets zero, the block's own extents. -/
abbrev whole6 : Rect S6x128000 := Rect.unit (s := S6x128000) ![0, 0] S6x128000.size inb_S6x128000_S6x128000_0_0
/-- The rectangle that is all of a [1 × 128000] block. -/
abbrev whole1 : Rect S1x128000 := Rect.unit (s := S1x128000) ![0, 0] S1x128000.size inb_S1x128000_S1x128000_0_0

/-- The offsets of a whole-block access, as the constant zero. -/
theorem zero_offsets : (![0, 0] : Fin 2 → Nat) = fun _ => 0 := by
  funext a; fin_cases a <;> rfl

/-! ## What the body leaves in the output block -/

/-- The output block after the body, from the two input blocks: one piece, the whole block, carrying the weight row
    of the two blocks read whole. -/
def out2 (x0 x1 : Vec F S6x128000 .f32) : Vec F S1x128000 .f32 :=
  View.canon [⟨whole1, k0_pay1 (View.ld x0 whole6) (View.ld x1 whole6)⟩]

/-- One piece that is the whole block leaves its payload, and reading a block whole reads the block: the row left
    is the weight row of the two blocks. -/
theorem out2_eq (x0 x1 : Vec F S6x128000 .f32) : out2 x0 x1 = k0_pay1 x0 x1 := by
  unfold out2
  rw [View.canon_unit_zero (S := S1x128000) zero_offsets inb_S1x128000_S1x128000_0_0]
  rw [View.ld_unit_zero (S := S6x128000) zero_offsets inb_S6x128000_S6x128000_0_0 x0,
    View.ld_unit_zero (S := S6x128000) zero_offsets inb_S6x128000_S6x128000_0_0 x1]

/-- Every index of the output block lies in the one piece, whatever it carries. -/
theorem cover_out (p : Vec F S1x128000 .f32) (y : S1x128000.Idx) :
    ∃ pc ∈ ([⟨whole1, p⟩] : List (View.Piece (Elt F) S1x128000 .f32)), y ∈ pc.1.set :=
  ⟨_, List.mem_singleton_self _, View.mem_set_unit_zero (S := S1x128000) zero_offsets inb_S1x128000_S1x128000_0_0 y⟩

/-! ## The body's triple -/

set_option maxHeartbeats 1000000 in
/-- The body at any grid coordinates, on three whole staging memrefs: with the two input memrefs reading `x0` and
    `x1` and the output memref holding anything, it runs to its continuation with the inputs reading what they read
    and the output reading `out2 x0 x1`. The body is two whole loads, the weight, a whole load of the output and one
    whole store over it. -/
theorem sound_kernel (c : Dev nD) (E : Set ℕ) (i : grid0.Coords)
    (arg1 : Memref sig .tc .vmem S6x128000 .f32) (harg1 : arg1.IsWhole)
    (arg2 : Memref sig .tc .vmem S6x128000 .f32) (harg2 : arg2.IsWhole)
    (arg3 : Memref sig .tc .vmem S1x128000 .f32) (harg3 : arg3.IsWhole)
    (x0 x1 : Vec F S6x128000 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__density_kernel i arg1 harg1 arg2 harg2 arg3 harg3) K := by
  simp only [cc0__density_kernel_eq_skeleton]; unfold cc0__density_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the region on core `c`: the three arrays as the region finds them; after the body at point
    `t` each input block in place and the output block at the weight row of the two; the invariant is the rest of
    the core's scoped memory and its generator register, untouched; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

/-- Its arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by
  dsimp only [dat]

/-! ## What the body finds in the input blocks

An input window is fetched at a point only when its block index moved; where it did not, the buffer still holds the
previous point's block, which is this point's. The body leaves an input block in place, so at every point the buffer
holds the block of that point, whatever was there before the first fetch. -/

/-- The first endpoint's staging buffer holds that array's block at every point. -/
theorem before_0 (c : Dev nD) (t : Fin cfg0.N) (d) : (dat V c).before 0 t d = iblk V c 0 t := by
  have hblock : ∀ s, (dat V c).blockOf 0 s = iblk V c 0 s := fun s => by
    unfold Dat.blockOf iblk; rw [A_eq]
  have hkeep : ∀ s, (cfg0.win 0).cut (cfg0.grid.coords s) ((dat V c).after 0 s) = (dat V c).blockOf 0 s := fun s => by
    rw [after_0, hblock]; try rfl
  have hfetched : (dat V c).fetched 0 t d = iblk V c 0 t := by
    unfold Dat.fetched; rw [hblock]; try rfl
  exact ((dat V c).before_in_eq_fetched 0 rfl (fun _ => rfl) (fun _ _ _ => rfl) hkeep t d).trans hfetched

/-- The second endpoint's staging buffer holds that array's block at every point. -/
theorem before_1 (c : Dev nD) (t : Fin cfg0.N) (d) : (dat V c).before 1 t d = iblk V c 1 t := by
  have hblock : ∀ s, (dat V c).blockOf 1 s = iblk V c 1 s := fun s => by
    unfold Dat.blockOf iblk; rw [A_eq]
  have hkeep : ∀ s, (cfg0.win 1).cut (cfg0.grid.coords s) ((dat V c).after 1 s) = (dat V c).blockOf 1 s := fun s => by
    rw [after_1, hblock]; try rfl
  have hfetched : (dat V c).fetched 1 t d = iblk V c 1 t := by
    unfold Dat.fetched; rw [hblock]; try rfl
  exact ((dat V c).before_in_eq_fetched 1 rfl (fun _ => rfl) (fun _ _ _ => rfl) hkeep t d).trans hfetched

/-! ## The body obligation -/

/-- What the body is called with at point `t`: the invariant, what the core owes, and each window's current
    staging buffer at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns: the same invariant and debt, each buffer at what the body leaves there. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: both input buffers hold their blocks, so the body's triple applies at those blocks; the
    invariant and the debt are not read and pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rewrite [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the several-regions launch asks of this region's body, at every point. -/
theorem body_obligation (c : Dev nD) : BodyObligation (dat (F := F) V c) (defs₀ (F := F)) Variants.none () Set.univ := fun t => by
  rw [bigSep_W0, bigSep_W0]
  exact sound_body V c t

end Cert.Kernel.Density

end
-- ==== Proof.WordAccelBody.lean ====
/-
  Region 1 of @main — the acceleration pass of the neighbour loop — seen from inside its pipeline.

  The pass walks the 6 400 000 edges in 100 consecutive stretches of 64 000. At stretch t the pipeline hands the
  body five staging buffers: the two gathered endpoint columns of the stretch (6 rows: position over velocity),
  the two gathered endpoint densities (1 row each), and the place for the stretch's 3 rows of pairwise
  accelerations. The body reads the four inputs whole, computes, and overwrites the output whole, once.

  This module says exactly that, for ANY contents V the TensorCore's buffers hold when the region is entered and at
  any float instance: what each window's block at a stretch is (iblk), what the body leaves in the output buffer as
  a function of the four input blocks (out4, which is the body's arithmetic k1_pay1 ∘ (k1_pay4 … k1_pay8) applied
  to the blocks: out4_eq), the body's Hoare triple on arbitrary whole staging memrefs (sound_kernel), the
  pipeline's proof data (dat) and the obligation the pipeline rule asks of the body at every stretch
  (body_obligation). Nothing here depends on which stretch of host operations produced V.
-/
import proofs.«429571_j62895501083203_3_alg».proof.Proof.Gen.Kernel.Launch
import proofs.«429571_j62895501083203_3_alg».proof.Proof.Gen.Kernel.Skeleton
import proofs.«429571_j62895501083203_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Accel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at stretch t: the 64 000 consecutive columns t·64000 … t·64000 + 63999 (every row) of the
    window's array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ### An input's staging buffer holds its block

The four inputs are never written by the body and every block lies whole inside its array. So for ANY proof data
whose array for the window is the entry contents (hA) and whose body hands the buffer back holding the block
(hkeep), the buffer the body is called with at stretch t holds the block of stretch t — whether the pipeline
copied it in just then, or did not because the block had not moved since the stretch before. One statement per
input window, each the same two steps: the library's lemma for an input left in place, then "what a copy-in
leaves is the block", both sides being one and the same read of the array once hA is used. -/

theorem before_0_of {c : Dev nD} (D : Dat τ (Elt F) Unit ℕ (UR sig nD τ) ℕ cfg1 c) (hA : D.A 0 = V c (Pipeline.arrRef spec1 0))
    (hkeep : ∀ t, D.after 0 t = iblk V c 0 t) (t : Fin cfg1.N) (d) : D.before 0 t d = iblk V c 0 t := by
  refine (D.before_in_eq_fetched 0 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

theorem before_1_of {c : Dev nD} (D : Dat τ (Elt F) Unit ℕ (UR sig nD τ) ℕ cfg1 c) (hA : D.A 1 = V c (Pipeline.arrRef spec1 1))
    (hkeep : ∀ t, D.after 1 t = iblk V c 1 t) (t : Fin cfg1.N) (d) : D.before 1 t d = iblk V c 1 t := by
  refine (D.before_in_eq_fetched 1 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

theorem before_2_of {c : Dev nD} (D : Dat τ (Elt F) Unit ℕ (UR sig nD τ) ℕ cfg1 c) (hA : D.A 2 = V c (Pipeline.arrRef spec1 2))
    (hkeep : ∀ t, D.after 2 t = iblk V c 2 t) (t : Fin cfg1.N) (d) : D.before 2 t d = iblk V c 2 t := by
  refine (D.before_in_eq_fetched 2 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

theorem before_3_of {c : Dev nD} (D : Dat τ (Elt F) Unit ℕ (UR sig nD τ) ℕ cfg1 c) (hA : D.A 3 = V c (Pipeline.arrRef spec1 3))
    (hkeep : ∀ t, D.after 3 t = iblk V c 3 t) (t : Fin cfg1.N) (d) : D.before 3 t d = iblk V c 3 t := by
  refine (D.before_in_eq_fetched 3 rfl (fun _ => rfl) (fun _ _ _ => rfl) (fun s => ?_) t d).trans ?_
  · rw [hkeep]; unfold Dat.blockOf iblk; rw [hA]; first | done | rfl
  · unfold Dat.fetched Dat.blockOf iblk; rw [hA]; first | done | rfl

/-! ## The body's accesses: each staging buffer, whole -/

/-- All of a 6 × 64000 buffer (an endpoint's gathered position and velocity columns). -/
abbrev whole6 : Rect S6x64000 := Rect.unit (s := S6x64000) ![0, 0] S6x64000.size inb_S6x64000_S6x64000_0_0
/-- All of a 1 × 64000 buffer (an endpoint's gathered densities). -/
abbrev whole1 : Rect S1x64000 := Rect.unit (s := S1x64000) ![0, 0] S1x64000.size inb_S1x64000_S1x64000_0_0
/-- All of the 3 × 64000 output buffer (the pairwise accelerations). -/
abbrev whole3 : Rect S3x64000 := Rect.unit (s := S3x64000) ![0, 0] S3x64000.size inb_S3x64000_S3x64000_0_0

/-- Their offsets are zero on both axes. -/
theorem zeros2 : (![0, 0] : Fin 2 → ℕ) = fun _ => 0 :=
  funext fun a => by match a with | ⟨0, _⟩ => rfl | ⟨1, _⟩ => rfl

/-! ## What the body leaves in the output buffer -/

/-- The output buffer after the body, from the four input blocks x0, x1 (endpoints i and j: rows 0–2 position,
    rows 3–5 velocity) and x2, x3 (their densities): its single store, laid over the whole buffer, of the pairwise
    acceleration k1_pay1 = c · (−p · dr + η · (vi − vj)) at vi (k1_pay4: rows 3–5 of x0), vj (k1_pay5: rows 3–5 of
    x1), the separation dr (k1_pay6: rows 0–2 of x0 less those of x1), its length (k1_pay7), the smoothing
    kernel's radial derivative there (k1_pay8), and the two densities, from which k1_pay1 forms the pressure
    term p and the scalar c. -/
def out4 (x0 x1 : Vec F S6x64000 .f32) (x2 x3 : Vec F S1x64000 .f32) : Vec F S3x64000 .f32 :=
  View.canon [⟨whole3, k1_pay1 (k1_pay4 (View.ld x0 whole6)) (k1_pay5 (View.ld x1 whole6)) (k1_pay6 (View.ld x0 whole6) (View.ld x1 whole6))
    (k1_pay7 (View.ld x0 whole6) (View.ld x1 whole6)) (k1_pay8 (View.ld x0 whole6) (View.ld x1 whole6)) (View.ld x2 whole1) (View.ld x3 whole1)⟩]

/-- One store through the whole buffer leaves its payload, and a read through a whole buffer reads the contents:
    the output buffer holds the body's arithmetic applied to the four blocks. -/
theorem out4_eq (x0 x1 : Vec F S6x64000 .f32) (x2 x3 : Vec F S1x64000 .f32) :
    out4 x0 x1 x2 x3 = k1_pay1 (k1_pay4 x0) (k1_pay5 x1) (k1_pay6 x0 x1) (k1_pay7 x0 x1) (k1_pay8 x0 x1) x2 x3 := by
  unfold out4
  rw [View.canon_unit_zero zeros2, View.ld_unit_zero zeros2, View.ld_unit_zero zeros2, View.ld_unit_zero zeros2,
    View.ld_unit_zero zeros2]

/-- The single store reaches every index of the output buffer, whatever it stores. -/
theorem cover4 (p : Vec F S3x64000 .f32) (y : S3x64000.Idx) :
    ∃ pc ∈ ([⟨whole3, p⟩] : List (View.Piece (Elt F) S3x64000 .f32)), y ∈ pc.1.set :=
  ⟨⟨whole3, p⟩, List.mem_singleton_self _, View.mem_set_unit_zero (S := S3x64000) zeros2 inb_S3x64000_S3x64000_0_0 y⟩

/-! ## The body's triple -/

set_option maxHeartbeats 1000000 in
/-- On five whole staging memrefs — the four inputs reading x0 … x3, the output holding anything — the body runs,
    faults nowhere, and reaches its continuation with the inputs as they were and the output reading
    out4 x0 x1 x2 x3: its five loads read the buffers' contents, its one store covers the output buffer. -/
theorem sound_kernel (c : Dev nD) (E : Set ℕ) (i : grid1.Coords)
    (a0 : Memref sig .tc .vmem S6x64000 .f32) (h0 : a0.IsWhole) (a1 : Memref sig .tc .vmem S6x64000 .f32) (h1 : a1.IsWhole)
    (a2 : Memref sig .tc .vmem S1x64000 .f32) (h2 : a2.IsWhole) (a3 : Memref sig .tc .vmem S1x64000 .f32) (h3 : a3.IsWhole)
    (a4 : Memref sig .tc .vmem S3x64000 .f32) (h4 : a4.IsWhole)
    (x0 x1 : Vec F S6x64000 .f32) (x2 x3 : Vec F S1x64000 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
              ∗ owns (c : Thread nD τ) a2 fullShare x2 ∗ owns (c : Thread nD τ) a3 fullShare x3
              ∗ owns (c : Thread nD τ) a4 fullShare (out4 x0 x1 x2 x3)) -∗ K ⟨⟩))
      ⊢ wp frame (wpE (defs₀ (F := F)) Variants.none c none) E (cc1__accel_kernel i a0 h0 a1 h1 a2 h2 a3 h3 a4 h4) K := by
  simp only [cc1__accel_kernel_eq_skeleton]; unfold cc1__accel_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of the acceleration pipeline on core c: the arrays as the region finds them; after the body at
    stretch t each input's buffer still at its block and the output's at out4 of the four blocks; the invariant
    the rest of the core's scoped memory and its generator register, untouched; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec1 c
  q _ := fullShare
  owed _ := 0

/-- Its arrays are the entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out4 (iblk V c 0 t) (iblk V c 1 t) (iblk V c 2 t) (iblk V c 3 t) := by dsimp only [dat]

/-- Each input's staging buffer holds its block when the body is called, at every stretch. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-- The invariant and what the core owes do not change from one stretch to the next. -/
theorem inv_succ (c : Dev nD) (t : Fin cfg1.N) : (dat V c).Φ t.succ = (dat V c).Φ t.castSucc := rfl
theorem owes_succ (c : Dev nD) (t : Fin cfg1.N) : (dat V c).owesAt () t.succ = (dat V c).owesAt () t.castSucc := rfl

/-! ## The body obligation, at any stretch -/

/-- What the body is called with at stretch t: the invariant, what the core owes, and the five current staging
    buffers at what they then hold, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it hands back: the same invariant and debts, the five buffers at what the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any stretch: the four inputs' buffers hold their blocks, so the body's triple applies at those
    blocks; the invariant and the debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [inv_succ, owes_succ, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _
    (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- What the pipeline rule asks of the body, at every stretch. -/
theorem body_obligation (c : Dev nD) : BodyObligation (dat (F := F) V c) (defs₀ (F := F)) Variants.none () Set.univ := fun t => by
  rw [bigSep_W1, bigSep_W1]
  exact sound_body V c t

end Cert.Kernel.Accel

end
-- ==== Proof.WordKernelRun.lean ====
/- THE RUN of the kernel program's @main, at any float instance: its eleven items in order (three host stretches,
   the density pallas_call, five host stretches, the acceleration pallas_call, one host stretch) as the segments of the
   several-regions launch theorem, the TensorCore's buffer contents NAMED at every boundary between two items
   (`W0` … `W11`: a fold from the launch memory), so that what @main leaves in every unscoped buffer — the result
   `main_v45` among them — is `W11` by name, and every argument array ends as launched. -/
import proofs.«429571_j62895501083203_3_alg».proof.Proof.WordDensityBody
import proofs.«429571_j62895501083203_3_alg».proof.Proof.WordAccelBody
import proofs.«429571_j62895501083203_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- memberships decided over the signature's 160 references recurse past the default depth
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of @main: a fold from the launch memory -/

/-- Core `c`'s buffers at launch. -/
abbrev W0 (c : Dev nD) : Valuation τ sig (Elt F) := fun b => m (c, b)
/-- After the first stretch: `main_v4` holds the six-row particle table — rows 0–2 the last component (index 4) of
    every row of `main_arg0`, transposed; rows 3–5 `main_arg1`, transposed. -/
abbrev W1 (c : Dev nD) : Valuation τ sig (Elt F) := StableHlo.after hostOps0 (W0 m c)
/-- After the first gather: `main_v5` holds, per edge, the table's column at the edge's first endpoint (`main_arg2`). -/
abbrev W2 (c : Dev nD) : Valuation τ sig (Elt F) := StableHlo.after hostOps0_1 (W1 m c)
/-- After the second gather: `main_v6` holds, per edge, the table's column at the edge's second endpoint (`main_arg3`).
    These are the contents region 0 is entered from. -/
abbrev W3 (c : Dev nD) : Valuation τ sig (Elt F) := StableHlo.after hostOps0_2 (W2 m c)
/-- The same read at the TensorCore's references: what region 0's proof data take. -/
abbrev E3 : (c : Dev nD) → (b : Ref sig .tc) → Buf (Elt F) ((c : Thread nD τ).loc b) := fun c b => W3 m c b
/-- At region 0's exit: its windows' arrays at what the pipeline leaves (the inputs `main_v5`, `main_v6` as entered,
    the output `main_v7` — the density kernel's value per edge — at its write-backs folded), every other buffer as entered. -/
def W4 (c : Dev nD) : Valuation τ sig (Elt F) :=
  Pipeline.withArrays spec0 c (W3 m c) fun w => (Density.dat (E3 m) c).arrAt w cfg0.N
/-- After the stretch between the regions: `main_v11` the per-particle sum of `main_v7` over the edges by first
    endpoint, `main_v17` = 100 · (`main_v11` − 1) + 0. -/
abbrev W5 (c : Dev nD) : Valuation τ sig (Elt F) := StableHlo.after hostOps1 (W4 m c)
/-- `main_v18`: `main_v11` gathered at every edge's first endpoint. -/
abbrev W6 (c : Dev nD) : Valuation τ sig (Elt F) := StableHlo.after hostOps1_1 (W5 m c)
/-- `main_v19`: the same as one row. -/
abbrev W7 (c : Dev nD) : Valuation τ sig (Elt F) := StableHlo.after hostOps1_2 (W6 m c)
/-- `main_v20`: `main_v11` gathered at every edge's second endpoint. -/
abbrev W8 (c : Dev nD) : Valuation τ sig (Elt F) := StableHlo.after hostOps1_3 (W7 m c)
/-- `main_v21`: the same as one row. These are the contents region 1 is entered from. -/
abbrev W9 (c : Dev nD) : Valuation τ sig (Elt F) := StableHlo.after hostOps1_4 (W8 m c)
/-- The same read at the TensorCore's references: what region 1's proof data take. -/
abbrev E9 : (c : Dev nD) → (b : Ref sig .tc) → Buf (Elt F) ((c : Thread nD τ).loc b) := fun c b => W9 m c b
/-- At region 1's exit: its windows' arrays at what the pipeline leaves (the four inputs as entered, the output
    `main_v22` — the acceleration kernel's three components per edge — at its write-backs folded), every other buffer as entered. -/
def W10 (c : Dev nD) : Valuation τ sig (Elt F) :=
  Pipeline.withArrays spec1 c (W9 m c) fun w => (Accel.dat (E9 m) c).arrAt w cfg1.N
/-- At the return: the three rows of `main_v22` summed per particle over the edges by first endpoint, beside a zero
    block, `main_v11` and `main_v17`, as the eight columns of the result `main_v45`. -/
abbrev W11 (c : Dev nD) : Valuation τ sig (Elt F) := StableHlo.after hostOps2 (W10 m c)

/-! ## What each item leaves unchanged -/

/-- A host stretch changes only the references it writes. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h

/-- Region 0 leaves each of its windows' arrays at what the pipeline leaves there, -/
theorem W4_arr (c : Dev nD) (w : Fin cfg0.W) :
    W4 m c (Proc.devRef .tc (Pipeline.arrRef spec0 w)) = (Density.dat (E3 m) c).arrAt w cfg0.N := by
  unfold W4; exact Pipeline.withArrays_arr spec0 launch0.win.arr_inj c _ _ w
/-- and every buffer that is no window's array as it found it. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents read at the TensorCore's references. -/
abbrev E4 : (c : Dev nD) → (b : Ref sig .tc) → Buf (Elt F) ((c : Thread nD τ).loc b) := fun c b => W4 m c b
/-- At region 0's exit each of its arrays holds what the pipeline leaves (`hF0`) and every other buffer what it held
    at entry (`hrest0`): what putting the arrays back among the unscoped buffers takes. -/
theorem hF0 (c : Dev nD) (w : Fin cfg0.W) : (Density.dat (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

theorem W5_of (c : Dev nD) (r : Ref sig .tc) (h : r ∉ hostOps1_W) : W5 m c (Proc.devRef .tc r) = W4 m c (Proc.devRef .tc r) :=
  StableHlo.after_of_writes_sub hostOps1 _ hostOps1_writes h
theorem W6_of (c : Dev nD) (r : Ref sig .tc) (h : r ∉ hostOps1_1_W) : W6 m c (Proc.devRef .tc r) = W5 m c (Proc.devRef .tc r) :=
  StableHlo.after_of_writes_sub hostOps1_1 _ hostOps1_1_writes h
theorem W7_of (c : Dev nD) (r : Ref sig .tc) (h : r ∉ hostOps1_2_W) : W7 m c (Proc.devRef .tc r) = W6 m c (Proc.devRef .tc r) :=
  StableHlo.after_of_writes_sub hostOps1_2 _ hostOps1_2_writes h
theorem W8_of (c : Dev nD) (r : Ref sig .tc) (h : r ∉ hostOps1_3_W) : W8 m c (Proc.devRef .tc r) = W7 m c (Proc.devRef .tc r) :=
  StableHlo.after_of_writes_sub hostOps1_3 _ hostOps1_3_writes h
theorem W9_of (c : Dev nD) (r : Ref sig .tc) (h : r ∉ hostOps1_4_W) : W9 m c (Proc.devRef .tc r) = W8 m c (Proc.devRef .tc r) :=
  StableHlo.after_of_writes_sub hostOps1_4 _ hostOps1_4_writes h

/-- Region 1 leaves each of its windows' arrays at what the pipeline leaves there, -/
theorem W10_arr (c : Dev nD) (w : Fin cfg1.W) :
    W10 m c (Proc.devRef .tc (Pipeline.arrRef spec1 w)) = (Accel.dat (E9 m) c).arrAt w cfg1.N := by
  unfold W10; exact Pipeline.withArrays_arr spec1 launch1.win.arr_inj c _ _ w
/-- and every buffer that is no window's array as it found it. -/
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
/-- Region 1's exit contents read at the TensorCore's references. -/
abbrev E10 : (c : Dev nD) → (b : Ref sig .tc) → Buf (Elt F) ((c : Thread nD τ).loc b) := fun c b => W10 m c b
/-- The same two facts at region 1's exit. -/
theorem hF1 (c : Dev nD) (w : Fin cfg1.W) : (Accel.dat (E9 m) c).arrAt w cfg1.N = E10 m c (Pipeline.arrRef spec1 w) :=
  (W10_arr m c w).symm
theorem hrest1 (c : Dev nD) : ∀ b, b ∉ Finset.univ.image (Pipeline.arrRef spec1) → E10 m c b = E9 m c b :=
  fun b hb => W10_of_ne m c b fun w e => hb (Finset.mem_image.mpr ⟨w, Finset.mem_univ _, e⟩)

theorem W11_of (c : Dev nD) (r : Ref sig .tc) (h : r ∉ hostOps2_W) : W11 m c (Proc.devRef .tc r) = W10 m c (Proc.devRef .tc r) :=
  StableHlo.after_of_writes_sub hostOps2 _ hostOps2_writes h

/-! ## The arguments end as launched -/

/-- A reference no host stretch writes and no region stages ends holding its launch contents: the fold at it walks
    back to the launch memory, one item at a time. -/
theorem W11_of_launch (c : Dev nD) (r : Ref sig .tc)
    (h0 : r ∉ hostOps0_W) (h1 : r ∉ hostOps0_1_W) (h2 : r ∉ hostOps0_2_W) (hr0 : ∀ w, Pipeline.arrRef spec0 w ≠ r)
    (h4 : r ∉ hostOps1_W) (h5 : r ∉ hostOps1_1_W) (h6 : r ∉ hostOps1_2_W) (h7 : r ∉ hostOps1_3_W) (h8 : r ∉ hostOps1_4_W)
    (hr1 : ∀ w, Pipeline.arrRef spec1 w ≠ r) (h10 : r ∉ hostOps2_W) :
    W11 m c (Proc.devRef .tc r) = m ((c : Thread nD τ).loc r) :=
  calc W11 m c (Proc.devRef .tc r)
    _ = W10 m c (Proc.devRef .tc r) := W11_of m c r h10
    _ = W9 m c (Proc.devRef .tc r) := W10_of_ne m c r hr1
    _ = W8 m c (Proc.devRef .tc r) := W9_of m c r h8
    _ = W7 m c (Proc.devRef .tc r) := W8_of m c r h7
    _ = W6 m c (Proc.devRef .tc r) := W7_of m c r h6
    _ = W5 m c (Proc.devRef .tc r) := W6_of m c r h5
    _ = W4 m c (Proc.devRef .tc r) := W5_of m c r h4
    _ = W3 m c (Proc.devRef .tc r) := W4_of_ne m c r hr0
    _ = W2 m c (Proc.devRef .tc r) := W3_of m c r h2
    _ = W1 m c (Proc.devRef .tc r) := W2_of m c r h1
    _ = W0 m c (Proc.devRef .tc r) := W1_of m c r h0
    _ = m ((c : Thread nD τ).loc r) := rfl

/-- No host stretch writes an argument and no region stages one (each is read by host operations only). -/
theorem W11_main_arg0 (c : Dev nD) : W11 m c (Proc.devRef .tc main_arg0) = m ((c : Thread nD τ).loc main_arg0) :=
  W11_of_launch m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_of_launch m c main_arg1 (by decide) (by decide) (by decide) (by decide) (by decide) (by decide) (by decide) (by decide) (by decide) (by decide) (by decide)
theorem W11_main_arg2 (c : Dev nD) : W11 m c (Proc.devRef .tc main_arg2) = m ((c : Thread nD τ).loc main_arg2) :=
  W11_of_launch m c main_arg2 (by decide) (by decide) (by decide) (by decide) (by decide) (by decide) (by decide) (by decide) (by decide) (by decide) (by decide)
theorem W11_main_arg3 (c : Dev nD) : W11 m c (Proc.devRef .tc main_arg3) = m ((c : Thread nD τ).loc main_arg3) :=
  W11_of_launch m c main_arg3 (by decide) (by decide) (by decide) (by decide) (by decide) (by decide) (by decide) (by decide) (by decide) (by decide) (by decide)

/-! # The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Density.dat (E3 m) c
  | ⟨1, _⟩ => fun c => Accel.dat (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m c) ∗ ∃ r, prngReg c r)
/-- What the last host stretch leaves is that state beside the core owing nothing (the separating conjunction re-associated). -/
theorem last_post (c : Dev nD) :
    (iprop(StableHlo.held (c : Thread nD τ) (Pipeline.ucRefs τ sig) (W11 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! # The regions as segments -/

-- a library lemma stated over the pinned configuration of pipeline `p` unifies with the printed configuration only when
-- unification may unfold plain definitions in a metavariable's type
set_option backward.isDefEq.respectTransparency.types false in
/-- REGION 0 (pallas_call 0) over the thread state: entered from every unscoped buffer at `W3`, left at `W4`.
    Its windows' arrays are split out of the unscoped buffers at entry and put back at the exit contents; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Density.body_obligation (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` unifies with the printed configuration only when
-- unification may unfold plain definitions in a metavariable's type
set_option backward.isDefEq.respectTransparency.types false in
/-- REGION 1 (pallas_call 1) over the thread state: entered from every unscoped buffer at `W9`, left at `W10`.
    Its windows' arrays are split out of the unscoped buffers at entry and put back at the exit contents; the generator
    register goes into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Accel.body_obligation (E9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 11 segments in order: a host segment per stretch from its boundary's contents, a region per pallas_call. -/
abbrev runSegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .host (hseg hostOps1_3 hostOps1_3_sub hostOps1_3_fresh (W7 m)),
    .host (hseg hostOps1_4 hostOps1_4_sub hostOps1_4_fresh (W8 m)),
    .region (reg1 m),
    .host (hseg hostOps2 hostOps2_sub hostOps2_fresh (W10 m)) ]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer at `W11`: the
    several-regions launch over the segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (runSegs m)
    (fun c Q => by
      rewrite [main_chain c, Pipeline.Seg.run_eq_chain,
        show (runSegs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- THE FRAME, at any float instance: @main runs and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c)⟩) (run_all m ρ)

/-- THE RESULT, by name: @main runs, the result array `main_v45` ends at the last boundary's contents `W11`, and
    every argument array ends holding its launch contents. -/
theorem run_result : θ_run defs (onTc (τ := τ) (main (F := F))) ⟨m, fun _ => 0, ρ⟩ (fun r => ∀ c : Dev nD,
      r.2.mem ((c.tc : Thread nD τ).loc main_v45) = W11 m c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v45 (by decide)),
      (h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c)⟩) (run_all m ρ)

end Cert.Kernel.Run

end
-- ==== Proof.DensityPayload.lean ====
/- The density pass at one edge.

   At a grid point the density kernel holds two blocks of gathered endpoint columns, six rows by 128000 lanes, one
   lane per edge, and leaves one row of 128000 weights. Lane q of that row depends on lane q of the two blocks alone:
   the displacement is rows 0, 1, 2 of the first block minus rows 0, 1, 2 of the second, its squared components are
   summed down the three rows, the square root of that sum is the distance, and the quintic spline of the distance
   is the weight. This is the edge's weight wC of the two columns standing in lane q.

   The row is cut in two, at any float instance: the distance row, the only part that moves entries between
   positions (two row slices, a sum down the rows, a row put back as a one-row block), and the spline of a row,
   entry by entry. Each is read at a lane over the extended reals. -/
import proofs.«429571_j62895501083203_3_alg».proof.Proof.Gen.KernelIdeal.Skeleton
import proofs.«429571_j62895501083203_3_alg».proof.Proof.Sph
import Idealize.ShloMosaic.Lib.Pipeline.Value
import Idealize.ShloMosaic.Lib.ValueIdx
import Idealize.ShloMosaic.PureOps.Ideal.Laws

noncomputable section

namespace Cert.KernelIdeal.DensityValue

open Idealize.ShloMosaic Idealize.ShloMosaic.ValueIdx
open Cert.KernelIdeal Cert.KernelIdeal.Gen
open Cert.Proof

/-! ## The row in two parts, at any float instance -/

section Parts

variable {F : FTy → Type} [FloatOps F]

/-- Rows 0, 1, 2 of a block of columns: the positions. -/
def posRows (v : Vec F S6x128000 .f32) : FVec F S3x128000 .f32 :=
  extractStridedSlice S3x128000 ![0, 0] (shapeCast S6x128000 v shapeCasts_S6x128000_S6x128000)
    slices_S6x128000_o0_0_S3x128000

/-- The squared components of the displacement between the two blocks' positions, lane by lane. -/
def sqDisp (v0 v2 : Vec F S6x128000 .f32) : FVec F S3x128000 .f32 :=
  mulf (subf (posRows v0) (posRows v2)) (subf (posRows v0) (posRows v2))

/-- The distance row: the square root of the squared components summed down the three rows. -/
def distRow (v0 v2 : Vec F S6x128000 .f32) : FVec F S1x128000 .f32 :=
  sqrt (shapeCast S1x128000
    (multiReduction .add [0] S128000 (sqDisp v0 v2) 0x00000000#32 reduces_S3x128000_S128000 (.inl rfl) rfl)
    shapeCasts_S128000_S1x128000)

/-- One clipped arm of the spline, of the scaled distance row: max(0, a − r). -/
def armRow (a : BitVec 32) (r : FVec F S1x128000 .f32) : FVec F S1x128000 .f32 :=
  maximumf (broadcast S1x128000 (Scalar.ofBits .f32 0x00000000#32)) (subf (broadcast S1x128000 (Scalar.ofBits .f32 a)) r)

/-- The fifth power, as x · ((x·x) · (x·x)). -/
def pow5Row (x : FVec F S1x128000 .f32) : FVec F S1x128000 .f32 :=
  mulf x (mulf (mulf x x) (mulf x x))

/-- The quintic spline of a distance row, entry by entry. -/
def splineRow (d : FVec F S1x128000 .f32) : FVec F S1x128000 .f32 :=
  mulf (broadcast S1x128000 (Scalar.ofBits .f32 0x3B2E52E9#32))
    (addf
      (subf (pow5Row (armRow 0x40400000#32 (divf d (broadcast S1x128000 (Scalar.ofBits .f32 0x3F800000#32)))))
        (mulf (broadcast S1x128000 (Scalar.ofBits .f32 0x40C00000#32))
          (pow5Row (armRow 0x40000000#32 (divf d (broadcast S1x128000 (Scalar.ofBits .f32 0x3F800000#32)))))))
      (mulf (broadcast S1x128000 (Scalar.ofBits .f32 0x41700000#32))
        (pow5Row (armRow 0x3F800000#32 (divf d (broadcast S1x128000 (Scalar.ofBits .f32 0x3F800000#32)))))))

/-- The kernel's row is the spline of the distance row of its two blocks. -/
theorem pay_split (v0 v2 : Vec F S6x128000 .f32) : k0_pay1 v0 v2 = splineRow (distRow v0 v2) := rfl

end Parts

/-! ## The parts at a lane, over the extended reals -/

/-- Row k of the positions is row k of the block. -/
theorem posRows_apply (x : Vec Ideal S6x128000 .f32) (k : Fin 3) (q : Fin 128000) :
    posRows (F := Ideal) x (ix2 k q) = x (ix2 (Sph.lo k) q) := by
  unfold posRows
  rw [shapeCast_self]
  refine extractStridedSlice_apply _ _ _ _ _ fun a => ?_
  match a with
  | ⟨0, _⟩ => show k.val = 0 + k.val; omega
  | ⟨1, _⟩ => show q.val = 0 + q.val; omega

/-- A squared component of the displacement at a lane is that of the two columns in the lane. -/
theorem sqDisp_apply (x0 x1 : Vec Ideal S6x128000 .f32) (k : Fin 3) (q : Fin 128000) :
    sqDisp (F := Ideal) x0 x1 (ix2 k q)
      = Sph.drC (fun t => x0 (ix2 t q)) (fun t => x1 (ix2 t q)) k * Sph.drC (fun t => x0 (ix2 t q)) (fun t => x1 (ix2 t q)) k := by
  show (posRows (F := Ideal) x0 (ix2 k q) - posRows (F := Ideal) x1 (ix2 k q))
      * (posRows (F := Ideal) x0 (ix2 k q) - posRows (F := Ideal) x1 (ix2 k q)) = _
  rw [posRows_apply, posRows_apply]
  rfl

/-- The sum down the three rows, at a lane. -/
theorem laneSum (src : FVec Ideal S3x128000 .f32) (q : Fin 128000) :
    multiReduction (F := Ideal) .add [0] S128000 src 0x00000000#32 reduces_S3x128000_S128000 (.inl rfl) rfl (ix1 q)
      = ∑ k : Fin 3, src (ix2 k q) := by
  refine (Ideal.multiReduction_add_single src 0x00000000#32 reduces_S3x128000_S128000 (.inl rfl) rfl (ix1 q)).trans ?_
  refine Finset.sum_congr rfl fun k _ => congrArg src ?_
  funext a
  match a with
  | ⟨0, _⟩ => exact Fin.ext rfl
  | ⟨1, _⟩ => exact Fin.ext rfl

/-- A row put back as a one-row block reads its lane. -/
theorem oneRow_apply {α : Type} (v : S128000.Idx → α) (q : Fin 128000) :
    shapeCast S1x128000 v shapeCasts_S128000_S1x128000 (ix2 (0 : Fin 1) q) = v (ix1 q) := by
  refine (shapeCast_addUnit_apply ![128000] v shapeCasts_S128000_S1x128000 (ix2 (0 : Fin 1) q)).trans (congrArg v ?_)
  funext a
  match a with
  | ⟨0, _⟩ => rfl

/-- The square root of a row, at an entry, is the square root of the entry. -/
theorem sqrtRow_apply {s : Shape} {φ : FTy} (a : FVec Ideal s φ) (i : s.Idx) : sqrt a i = Ideal.sqrt (a i) := rfl

/-- The distance row at a lane is the distance between the two columns in the lane. -/
theorem distRow_apply (x0 x1 : Vec Ideal S6x128000 .f32) (q : Fin 128000) :
    distRow (F := Ideal) x0 x1 (ix2 (0 : Fin 1) q) = Sph.distC (fun t => x0 (ix2 t q)) (fun t => x1 (ix2 t q)) := by
  unfold distRow Sph.distC
  rw [sqrtRow_apply, oneRow_apply, laneSum]
  exact congrArg Ideal.sqrt (Finset.sum_congr rfl fun k _ => sqDisp_apply x0 x1 k q)

/-- The spline of a row, at an entry, is the spline of the entry. -/
theorem splineRow_apply (d : FVec Ideal S1x128000 .f32) (i : S1x128000.Idx) :
    splineRow (F := Ideal) d i = Sph.wker (d i) := by
  unfold splineRow pow5Row armRow
  simp only [mulf_apply, addf_apply, subf_apply, divf_apply, maximumf_apply, broadcast_apply]
  rfl

/-! ## The kernel's row at a lane -/

/-- Lane q of the row the kernel leaves is the weight of the edge whose two endpoint columns stand in lane q of
    the two blocks. -/
theorem pay_apply (x0 x1 : Vec Ideal S6x128000 .f32) (q : Fin 128000) :
    k0_pay1 (F := Ideal) x0 x1 (ix2 (0 : Fin 1) q)
      = Sph.wC (fun t => x0 (ix2 t q)) (fun t => x1 (ix2 t q)) := by
  rw [pay_split, splineRow_apply, distRow_apply]
  rfl

end Cert.KernelIdeal.DensityValue

end
-- ==== Proof.DensityValue.lean ====
/- The density pass's output array.

   The pass walks the 6400000 edges in 50 blocks of 128000 lanes. At point t it reads columns
   128000·t … 128000·t + 127999 of the two arrays of gathered endpoint columns and writes back columns
   128000·t … 128000·t + 127999 of the one-row output array. What it writes back at lane q is the weight of the two
   columns in lane q of its blocks, that is, of columns 128000·t + q of the two arrays: the block at point t of ONE
   function of the two arrays, the array of edge weights. The 50 blocks tile the output row — column e lies in the
   block of point e / 128000 — so after the pass the output array IS the array of edge weights of the two input
   arrays as the pass found them. -/
import proofs.«429571_j62895501083203_3_alg».proof.Proof.DensityBody
import proofs.«429571_j62895501083203_3_alg».proof.Proof.DensityPayload
import Idealize.ShloMosaic.Lib.Pipeline.Value

noncomputable section

namespace Cert.KernelIdeal.DensityValue

open Idealize.ShloMosaic Idealize.ShloMosaic.TcCoe Idealize.ShloMosaic.ValueIdx Idealize.SL.Sem
open Idealize.ShloMosaic.Pipeline (Dat)
open Cert.KernelIdeal Cert.KernelIdeal.Gen
open Cert.Proof

-- the TensorCore's buffer contents when the pass is entered, over the extended reals
variable (V : (c : Dev nD) → (b : Ref sig .tc) → Buf (Elt Ideal) ((c : Thread nD τ).loc b))

/-! ## Where the blocks sit -/

/-- At point t each of the three windows is on block (0, t) of its array. -/
theorem block_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Entry (r, q) of the first endpoints' block at point t is entry (r, 128000·t + q) of their array. -/
theorem iblk0_apply (c : Dev nD) (t : Fin cfg0.N) (x : S6x128000.Idx) (k : S6x6400000.Idx)
    (hk0 : (k 0).val = (x 0).val) (hk1 : (k 1).val = 128000 * t.val + (x 1).val) :
    (Density.iblk V c 0 t : Vec Ideal S6x128000 .f32) x = (V c main_v5 : S6x6400000.Idx → EReal) k := by
  obtain ⟨e0, e1, -, -, -, -⟩ := block_index t
  unfold Density.iblk
  rw [View.read_apply]
  show V c main_v5 _ = V c main_v5 _
  congr 1
  funext a
  apply Fin.ext
  match a with
  | ⟨0, _⟩ => show win0_0.index t (0 : Fin 2) * 6 + 1 * (x 0).val = (k 0).val; rw [e0, hk0]; omega
  | ⟨1, _⟩ => show win0_0.index t (1 : Fin 2) * 128000 + 1 * (x 1).val = (k 1).val; rw [e1, hk1]; omega

/-- Entry (r, q) of the second endpoints' block at point t is entry (r, 128000·t + q) of their array. -/
theorem iblk1_apply (c : Dev nD) (t : Fin cfg0.N) (x : S6x128000.Idx) (k : S6x6400000.Idx)
    (hk0 : (k 0).val = (x 0).val) (hk1 : (k 1).val = 128000 * t.val + (x 1).val) :
    (Density.iblk V c 1 t : Vec Ideal S6x128000 .f32) x = (V c main_v6 : S6x6400000.Idx → EReal) k := by
  obtain ⟨-, -, e2, e3, -, -⟩ := block_index t
  unfold Density.iblk
  rw [View.read_apply]
  show V c main_v6 _ = V c main_v6 _
  congr 1
  funext a
  apply Fin.ext
  match a with
  | ⟨0, _⟩ => show win0_1.index t (0 : Fin 2) * 6 + 1 * (x 0).val = (k 0).val; rw [e2, hk0]; omega
  | ⟨1, _⟩ => show win0_1.index t (1 : Fin 2) * 128000 + 1 * (x 1).val = (k 1).val; rw [e3, hk1]; omega

/-! ## What a point writes back -/

/-- Two blocks that are columns 128000·n … of two arrays give, at lane q, the weight the array of edge weights has
    at column 128000·n + q. -/
theorem weight_at (x0 x1 : Vec Ideal S6x128000 .f32) (A0 A1 : S6x6400000.Idx → EReal) (n : ℕ)
    (h0 : ∀ (x : S6x128000.Idx) (k : S6x6400000.Idx),
      (k 0).val = (x 0).val → (k 1).val = 128000 * n + (x 1).val → x0 x = A0 k)
    (h1 : ∀ (x : S6x128000.Idx) (k : S6x6400000.Idx),
      (k 0).val = (x 0).val → (k 1).val = 128000 * n + (x 1).val → x1 x = A1 k)
    (j : S1x128000.Idx) (i : S1x6400000.Idx) (hi : (i 1).val = 128000 * n + (j 1).val) :
    k0_pay1 (F := Ideal) x0 x1 j = Sph.densArr A0 A1 i := by
  obtain ⟨p, q, rfl⟩ : ∃ (p : Fin 1) (q : Fin 128000), j = ix2 p q := ⟨j 0, j 1, eq_ix2 j⟩
  obtain rfl : p = 0 := Fin.fin_one_eq_zero p
  rw [pay_apply]
  exact congrArg₂ Sph.wC (funext fun r => h0 (ix2 r q) (ix2 r ⟨(i 1).val, (i 1).isLt⟩) rfl hi)
    (funext fun r => h1 (ix2 r q) (ix2 r ⟨(i 1).val, (i 1).isLt⟩) rfl hi)

/-- What point t writes back is the block at point t of the array of edge weights of the two input arrays. -/
theorem flushed_eq (c : Dev nD) (t : Fin cfg0.N) :
    (Density.dat (F := Ideal) V c).flushed 2 t
      = ((cfg0.win 2).blk t).view.read (Elt Ideal) (Sph.densArr (V c main_v5) (V c main_v6)) := by
  show (cfg0.win 2).cut (grid0.coords t) ((Density.dat (F := Ideal) V c).after 2 t) = _
  rw [Density.after_2, Density.out2_eq]
  obtain ⟨-, -, -, -, -, e5⟩ := block_index t
  funext j
  show k0_pay1 (F := Ideal) (Density.iblk V c 0 t) (Density.iblk V c 1 t) ((cfg0.win 2).xinj (grid0.coords t) j)
    = Sph.densArr (V c main_v5) (V c main_v6) (((cfg0.win 2).blk t).view.emb j)
  refine weight_at (Density.iblk V c 0 t) (Density.iblk V c 1 t) (V c main_v5) (V c main_v6) t.val
    (iblk0_apply V c t) (iblk1_apply V c t)
    ((cfg0.win 2).xinj (grid0.coords t) j) (((cfg0.win 2).blk t).view.emb j) ?_
  show win0_2.index t (1 : Fin 2) * 128000 + 1 * (j 1).val = 128000 * t.val + (j 1).val
  rw [e5]; omega

/-! ## The blocks tile the row -/

/-- Column e of the output row lies in the block of point e / 128000, which is written back. -/
theorem covered (i : S1x6400000.Idx) :
    ∃ t : Fin cfg0.N, (cfg0.win 2).flush t = true ∧ i ∈ ((cfg0.win 2).blk t).view.set := by
  have hi0 : (i 0).val < 1 := (i 0).isLt
  have hi1 : (i 1).val < 6400000 := (i 1).isLt
  obtain ⟨t, ht⟩ : ∃ t : Fin cfg0.N, t.val = (i 1).val / 128000 :=
    ⟨⟨(i 1).val / 128000, by rw [show cfg0.N = 50 from N_0]; omega⟩, rfl⟩
  obtain ⟨-, -, -, -, e4, e5⟩ := block_index t
  refine ⟨t, flush0_2 t, ?_⟩
  show i ∈ ((View.whole main_v7).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    rw [e4]; omega
  | ⟨1, _⟩ =>
    show win0_2.index t (1 : Fin 2) * 128000 ≤ (i 1).val
      ∧ (i 1).val < win0_2.index t (1 : Fin 2) * 128000 + 128000
    rw [e5]; omega

/-! ## The array after the pass -/

/-- After the pass the output array is the array of edge weights of the two arrays of gathered endpoint columns as
    the pass found them. -/
theorem arrAt_out (c : Dev nD) :
    (Density.dat (F := Ideal) V c).arrAt 2 cfg0.N = Sph.densArr (V c main_v5) (V c main_v6) :=
  (Density.dat (F := Ideal) V c).arrAt_eq_of_cover 2 (Sph.densArr (V c main_v5) (V c main_v6))
    (fun t _ => flushed_eq V c t) covered

end Cert.KernelIdeal.DensityValue

end
-- ==== Proof.AccelPayload.lean ====
/-
  The acceleration kernel's payload read at an index, over the extended reals.

  The payload is a tree of pointwise operations over the four blocks the body loads, with two row slices of each
  six-row block (rows 0..2, the positions; rows 3..5, the velocities), one sum over the three rows of the squared
  displacement, and two broadcasts of a one-row factor over the three rows. Read at row k and lane q it is the
  specification's per-edge acceleration `Sph.aC`, component k, of the two endpoint columns in lane q and the two
  endpoint densities in lane q. One lemma per auxiliary value, then the payload.
-/
import proofs.«429571_j62895501083203_3_alg».proof.Proof.Gen.KernelIdeal.Skeleton
import proofs.«429571_j62895501083203_3_alg».proof.Proof.Sph
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.AccelValue

open Idealize.ShloMosaic Idealize.ShloMosaic.ValueIdx
open Cert.KernelIdeal Cert.KernelIdeal.Gen
open Cert.Proof

/-! ## The row slices -/

/-- Rows 0..2 of a six-row block: entry (k, q) of the slice is entry (k, q) of the block. -/
theorem rows_lo (x : Vec Ideal S6x64000 .f32) (hc : S6x64000.ShapeCasts S6x64000)
    (hs : S6x64000.Slices ![0, 0] S3x64000) (k : Fin 3) (q : Fin 64000) :
    extractStridedSlice S3x64000 ![0, 0] (shapeCast S6x64000 x hc) hs (ix2 k q) = x (ix2 (Sph.lo k) q) := by
  rw [shapeCast_self]
  exact slice2_axis0_apply 0 x hs k q (Sph.lo k) (Nat.zero_add _).symm

/-- Rows 3..5 of a six-row block: entry (k, q) of the slice is entry (k + 3, q) of the block. -/
theorem rows_hi (x : Vec Ideal S6x64000 .f32) (hc : S6x64000.ShapeCasts S6x64000)
    (hs : S6x64000.Slices ![3, 0] S3x64000) (k : Fin 3) (q : Fin 64000) :
    extractStridedSlice S3x64000 ![3, 0] (shapeCast S6x64000 x hc) hs (ix2 k q) = x (ix2 (Sph.hi k) q) := by
  rw [shapeCast_self]
  exact slice2_axis0_apply 3 x hs k q (Sph.hi k) (Nat.add_comm _ _)

/-- The first endpoint's velocity, component k, in lane q. -/
theorem pay4_apply (x0 : Vec Ideal S6x64000 .f32) (k : Fin 3) (q : Fin 64000) :
    k1_pay4 (F := Ideal) x0 (ix2 k q) = x0 (ix2 (Sph.hi k) q) :=
  rows_hi x0 shapeCasts_S6x64000_S6x64000 slices_S6x64000_o3_0_S3x64000 k q

/-- The second endpoint's velocity, component k, in lane q. -/
theorem pay5_apply (x1 : Vec Ideal S6x64000 .f32) (k : Fin 3) (q : Fin 64000) :
    k1_pay5 (F := Ideal) x1 (ix2 k q) = x1 (ix2 (Sph.hi k) q) :=
  rows_hi x1 shapeCasts_S6x64000_S6x64000 slices_S6x64000_o3_0_S3x64000 k q

/-- The displacement, component k, in lane q. -/
theorem pay6_apply (x0 x1 : Vec Ideal S6x64000 .f32) (k : Fin 3) (q : Fin 64000) :
    k1_pay6 (F := Ideal) x0 x1 (ix2 k q) = Sph.drC (fun t => x0 (ix2 t q)) (fun t => x1 (ix2 t q)) k :=
  congrArg₂ (fun a b : EReal => a - b)
    (rows_lo x0 shapeCasts_S6x64000_S6x64000 slices_S6x64000_o0_0_S3x64000 k q)
    (rows_lo x1 shapeCasts_S6x64000_S6x64000 slices_S6x64000_o0_0_S3x64000 k q)

/-! ## The sum over the three rows -/

/-- The sum over the rows of a three-row block, in lane q, is the sum of its three entries in that lane. -/
theorem laneSum_apply (v : FVec Ideal S3x64000 .f32) (h : S3x64000.Reduces [0] S64000) (hφ : FKind.Formats .f32)
    (hacc : (0x00000000#32 : BitVec 32) = FKind.add.neutral .f32 hφ) (q : Fin 64000) :
    multiReduction (F := Ideal) .add [0] S64000 v 0x00000000#32 h hφ hacc (ix1 q) = ∑ k : Fin 3, v (ix2 k q) := by
  refine (Ideal.multiReduction_add_single v 0x00000000#32 h hφ hacc (ix1 q)).trans ?_
  show ∑ k : Fin 3, v (h.lift (ix1 q) k) = ∑ k : Fin 3, v (ix2 k q)
  refine Finset.sum_congr rfl fun k _ => congrArg v ?_
  funext a
  apply Fin.ext
  match a with
  | ⟨0, _⟩ => rfl
  | ⟨1, _⟩ => rfl

/-- A pointwise square root at an index is the square root of the element. -/
theorem sqrt_apply {s : Shape} {φ : FTy} (a : FVec Ideal s φ) (i : s.Idx) :
    Idealize.ShloMosaic.sqrt a i = Ideal.sqrt (a i) := rfl

/-- The length of the displacement in lane q. -/
theorem pay7_apply (x0 x1 : Vec Ideal S6x64000 .f32) (q : Fin 64000) :
    k1_pay7 (F := Ideal) x0 x1 (ix2 (0 : Fin 1) q)
      = Sph.distC (fun t => x0 (ix2 t q)) (fun t => x1 (ix2 t q)) := by
  unfold k1_pay7 Sph.distC
  simp only [sqrt_apply, shapeCast_a_1a_apply]
  refine congrArg Ideal.sqrt ?_
  refine (laneSum_apply _ reduces_S3x64000_S64000 (.inl rfl) rfl q).trans ?_
  refine Finset.sum_congr rfl fun k _ => ?_
  rw [mulf_apply, pay6_apply]

/-- The spline's derivative at the length of the displacement in lane q: the payload's pointwise operations are the
    specification's, literal for literal and product for product. -/
theorem pay8_apply (x0 x1 : Vec Ideal S6x64000 .f32) (q : Fin 64000) :
    k1_pay8 (F := Ideal) x0 x1 (ix2 (0 : Fin 1) q)
      = Sph.gker (Sph.distC (fun t => x0 (ix2 t q)) (fun t => x1 (ix2 t q))) :=
  (show k1_pay8 (F := Ideal) x0 x1 (ix2 (0 : Fin 1) q)
      = Sph.gker (k1_pay7 (F := Ideal) x0 x1 (ix2 (0 : Fin 1) q)) from rfl).trans
    (congrArg Sph.gker (pay7_apply x0 x1 q))

/-! ## The payload -/

/-- THE PAYLOAD AT AN INDEX: row k, lane q of what the body stores is component k of the acceleration of the edge in
    lane q, of its two endpoint columns and its two endpoint densities. -/
theorem pay_apply (x0 x1 : Vec Ideal S6x64000 .f32) (x2 x3 : Vec Ideal S1x64000 .f32) (k : Fin 3) (q : Fin 64000) :
    k1_pay1 (F := Ideal) (k1_pay4 x0) (k1_pay5 x1) (k1_pay6 x0 x1) (k1_pay7 x0 x1) (k1_pay8 x0 x1) x2 x3 (ValueIdx.ix2 k q)
      = Cert.Proof.Sph.aC (fun t => x0 (ValueIdx.ix2 t q)) (fun t => x1 (ValueIdx.ix2 t q))
          (x2 (ValueIdx.ix2 (0 : Fin 1) q)) (x3 (ValueIdx.ix2 (0 : Fin 1) q)) k := by
  unfold k1_pay1
  simp only [mulf_apply, addf_apply, subf_apply, divf_apply, broadcast_apply, broadcastTo_1b_ab_apply, shapeCast_self,
    pay4_apply, pay5_apply, pay6_apply, pay7_apply, pay8_apply]
  rfl

end Cert.KernelIdeal.AccelValue

end
-- ==== Proof.AccelValue.lean ====
/-
  The acceleration kernel's output array after the run, over the extended reals.

  The region runs its body at 100 points; point t reads columns [64000·t, 64000·(t+1)) of the two arrays of endpoint
  columns and of the two arrays of endpoint densities and writes the same columns of the output. What point t writes
  back is therefore the block-t restriction of ONE function of the four input arrays, the specification's
  `Sph.accArr`: entry (k, e) is component k of the acceleration of edge e. Every column lies in the block of point
  (column / 64000), so after the run the output array IS that function.
-/
import proofs.«429571_j62895501083203_3_alg».proof.Proof.AccelPayload
import proofs.«429571_j62895501083203_3_alg».proof.Proof.AccelBody
import proofs.«429571_j62895501083203_3_alg».proof.Proof.Gen.KernelIdeal.Launch
import proofs.«429571_j62895501083203_3_alg».proof.Proof.Gen.KernelIdeal.Points
import Idealize.ShloMosaic.Lib.Pipeline.Value

noncomputable section

namespace Cert.KernelIdeal.AccelValue

open Idealize.ShloMosaic Idealize.ShloMosaic.TcCoe Idealize.ShloMosaic.ValueIdx Idealize.SL.Sem
open Idealize.ShloMosaic.Pipeline (Dat)
open Cert.KernelIdeal Cert.KernelIdeal.Gen
open Cert.Proof

variable (V : (c : Dev nD) → (b : Ref sig .tc) → Buf (Elt Ideal) ((c : Thread nD τ).loc b))

/-! ## The block indices over the grid -/

/-- At every point the five windows sit in block row 0, and in the block column of the point's own number. -/
theorem idx_facts : ∀ t : Fin cfg1.N,
      win1_0.index t (0 : Fin 2) = 0 ∧ win1_0.index t (1 : Fin 2) = win1_4.index t (1 : Fin 2)
    ∧ win1_1.index t (0 : Fin 2) = 0 ∧ win1_1.index t (1 : Fin 2) = win1_4.index t (1 : Fin 2)
    ∧ win1_2.index t (0 : Fin 2) = 0 ∧ win1_2.index t (1 : Fin 2) = win1_4.index t (1 : Fin 2)
    ∧ win1_3.index t (0 : Fin 2) = 0 ∧ win1_3.index t (1 : Fin 2) = win1_4.index t (1 : Fin 2)
    ∧ win1_4.index t (0 : Fin 2) = 0 ∧ win1_4.index t (1 : Fin 2) = t.val :=
  (by decide +kernel : ∀ t : Fin grid1.N, _)

/-- There are 100 points. -/
theorem point_lt (t : Fin cfg1.N) : t.val < 100 := Nat.lt_of_lt_of_eq t.isLt N_1

/-! ## Each input block, read off its array -/

/-- Entry (r, q) of the first endpoint columns' block at point t is entry (r, 64000·t + q) of the array. -/
theorem iblk0_apply (c : Dev nD) (t : Fin cfg1.N) (r : Fin 6) (q : Fin 64000) (e : Fin 6400000)
    (he : e.val = t.val * 64000 + q.val) :
    Accel.iblk (F := Ideal) V c 0 t (ix2 r q) = V c main_v5 (ix2 r e) := by
  obtain ⟨e00, e01, -, -, -, -, -, -, -, e41⟩ := idx_facts t
  show V c main_v5 (((cfg1.win 0).blk t).view.emb (ix2 r q)) = V c main_v5 (ix2 r e)
  refine congrArg (V c main_v5) ?_
  funext a
  apply Fin.ext
  match a with
  | ⟨0, _⟩ => show win1_0.index t (0 : Fin 2) * 6 + 1 * r.val = r.val; rw [e00]; omega
  | ⟨1, _⟩ => show win1_0.index t (1 : Fin 2) * 64000 + 1 * q.val = e.val; rw [e01, e41, he]; omega

/-- Entry (r, q) of the second endpoint columns' block at point t is entry (r, 64000·t + q) of the array. -/
theorem iblk1_apply (c : Dev nD) (t : Fin cfg1.N) (r : Fin 6) (q : Fin 64000) (e : Fin 6400000)
    (he : e.val = t.val * 64000 + q.val) :
    Accel.iblk (F := Ideal) V c 1 t (ix2 r q) = V c main_v6 (ix2 r e) := by
  obtain ⟨-, -, e10, e11, -, -, -, -, -, e41⟩ := idx_facts t
  show V c main_v6 (((cfg1.win 1).blk t).view.emb (ix2 r q)) = V c main_v6 (ix2 r e)
  refine congrArg (V c main_v6) ?_
  funext a
  apply Fin.ext
  match a with
  | ⟨0, _⟩ => show win1_1.index t (0 : Fin 2) * 6 + 1 * r.val = r.val; rw [e10]; omega
  | ⟨1, _⟩ => show win1_1.index t (1 : Fin 2) * 64000 + 1 * q.val = e.val; rw [e11, e41, he]; omega

/-- Entry (0, q) of the first endpoint densities' block at point t is entry (0, 64000·t + q) of the array. -/
theorem iblk2_apply (c : Dev nD) (t : Fin cfg1.N) (u : Fin 1) (q : Fin 64000) (e : Fin 6400000)
    (he : e.val = t.val * 64000 + q.val) :
    Accel.iblk (F := Ideal) V c 2 t (ix2 u q) = V c main_v19 (ix2 u e) := by
  obtain ⟨-, -, -, -, e20, e21, -, -, -, e41⟩ := idx_facts t
  show V c main_v19 (((cfg1.win 2).blk t).view.emb (ix2 u q)) = V c main_v19 (ix2 u e)
  refine congrArg (V c main_v19) ?_
  funext a
  apply Fin.ext
  match a with
  | ⟨0, _⟩ => show win1_2.index t (0 : Fin 2) * 1 + 1 * u.val = u.val; rw [e20]; omega
  | ⟨1, _⟩ => show win1_2.index t (1 : Fin 2) * 64000 + 1 * q.val = e.val; rw [e21, e41, he]; omega

/-- Entry (0, q) of the second endpoint densities' block at point t is entry (0, 64000·t + q) of the array. -/
theorem iblk3_apply (c : Dev nD) (t : Fin cfg1.N) (u : Fin 1) (q : Fin 64000) (e : Fin 6400000)
    (he : e.val = t.val * 64000 + q.val) :
    Accel.iblk (F := Ideal) V c 3 t (ix2 u q) = V c main_v21 (ix2 u e) := by
  obtain ⟨-, -, -, -, -, -, e30, e31, -, e41⟩ := idx_facts t
  show V c main_v21 (((cfg1.win 3).blk t).view.emb (ix2 u q)) = V c main_v21 (ix2 u e)
  refine congrArg (V c main_v21) ?_
  funext a
  apply Fin.ext
  match a with
  | ⟨0, _⟩ => show win1_3.index t (0 : Fin 2) * 1 + 1 * u.val = u.val; rw [e30]; omega
  | ⟨1, _⟩ => show win1_3.index t (1 : Fin 2) * 64000 + 1 * q.val = e.val; rw [e31, e41, he]; omega

/-! ## The whole-array function at an index given by coordinates -/

/-- `Sph.accArr` at an index whose row is k and whose column is e. -/
theorem accArr_at (a0 a1 : (⟨2, ![6, 6400000]⟩ : Shape).Idx → EReal) (a2 a3 : (⟨2, ![1, 6400000]⟩ : Shape).Idx → EReal)
    (y : (⟨2, ![3, 6400000]⟩ : Shape).Idx) (k : Fin 3) (e : Fin 6400000) (hk : (y 0).val = k.val) (he : (y 1).val = e.val) :
    Sph.accArr a0 a1 a2 a3 y
      = Sph.aC (fun t => a0 (ix2 t e)) (fun t => a1 (ix2 t e)) (a2 (ix2 (0 : Fin 1) e)) (a3 (ix2 (0 : Fin 1) e)) k := by
  have h1 : (⟨(y 1).val, (y 1).isLt⟩ : Fin 6400000) = e := Fin.ext he
  have h0 : (⟨(y 0).val, (y 0).isLt⟩ : Fin 3) = k := Fin.ext hk
  unfold Sph.accArr
  rw [h1, h0]

/-! ## What each point writes back -/

/-- WHAT POINT t WRITES BACK is block t of `Sph.accArr` of the four input arrays as the region finds them. -/
theorem flushed_eq (c : Dev nD) (t : Fin cfg1.N) :
    (Accel.dat (F := Ideal) V c).flushed 4 t
      = ((cfg1.win 4).blk t).view.read (Elt Ideal)
          (Sph.accArr (V c main_v5) (V c main_v6) (V c main_v19) (V c main_v21)) := by
  show (cfg1.win 4).cut (cfg1.grid.coords t) ((Accel.dat (F := Ideal) V c).after 4 t) = _
  rw [Accel.after_4, Accel.out4_eq]
  obtain ⟨-, -, -, -, -, -, -, -, e40, e41⟩ := idx_facts t
  have ht : t.val < 100 := point_lt t
  funext j
  obtain ⟨k, q, rfl⟩ : ∃ (k : Fin 3) (q : Fin 64000), j = ix2 k q := ⟨j 0, j 1, eq_ix2 j⟩
  have hk : k.val < 3 := k.isLt
  have hq : q.val < 64000 := q.isLt
  show k1_pay1 (F := Ideal) (k1_pay4 (Accel.iblk V c 0 t)) (k1_pay5 (Accel.iblk V c 1 t))
        (k1_pay6 (Accel.iblk V c 0 t) (Accel.iblk V c 1 t)) (k1_pay7 (Accel.iblk V c 0 t) (Accel.iblk V c 1 t))
        (k1_pay8 (Accel.iblk V c 0 t) (Accel.iblk V c 1 t)) (Accel.iblk V c 2 t) (Accel.iblk V c 3 t) (ix2 k q)
      = Sph.accArr (V c main_v5) (V c main_v6) (V c main_v19) (V c main_v21) (((cfg1.win 4).blk t).view.emb (ix2 k q))
  have hE0 : (((((cfg1.win 4).blk t).view.emb (ix2 k q)) : (⟨2, ![3, 6400000]⟩ : Shape).Idx) 0).val = k.val := by
    show win1_4.index t (0 : Fin 2) * 3 + 1 * k.val = k.val
    rw [e40]; omega
  have hE1 : (((((cfg1.win 4).blk t).view.emb (ix2 k q)) : (⟨2, ![3, 6400000]⟩ : Shape).Idx) 1).val
      = (⟨t.val * 64000 + q.val, by omega⟩ : Fin 6400000).val := by
    show win1_4.index t (1 : Fin 2) * 64000 + 1 * q.val = t.val * 64000 + q.val
    rw [e41]; omega
  refine (pay_apply _ _ _ _ k q).trans ?_
  refine Eq.trans ?_ (accArr_at _ _ _ _ _ k ⟨t.val * 64000 + q.val, by omega⟩ hE0 hE1).symm
  have h0 : (fun r : Fin 6 => Accel.iblk (F := Ideal) V c 0 t (ix2 r q))
      = fun r => V c main_v5 (ix2 r (⟨t.val * 64000 + q.val, by omega⟩ : Fin 6400000)) :=
    funext fun r => iblk0_apply V c t r q _ rfl
  have h1 : (fun r : Fin 6 => Accel.iblk (F := Ideal) V c 1 t (ix2 r q))
      = fun r => V c main_v6 (ix2 r (⟨t.val * 64000 + q.val, by omega⟩ : Fin 6400000)) :=
    funext fun r => iblk1_apply V c t r q _ rfl
  have h2 := iblk2_apply V c t (0 : Fin 1) q (⟨t.val * 64000 + q.val, by omega⟩ : Fin 6400000) rfl
  have h3 := iblk3_apply V c t (0 : Fin 1) q (⟨t.val * 64000 + q.val, by omega⟩ : Fin 6400000) rfl
  rw [h0, h1, h2, h3]

/-! ## The cover -/

/-- An index of the array is in point t's block iff each coordinate is in the block's range on its axis. -/
theorem mem_blk (t : Fin cfg1.N) (i : S3x6400000.Idx) :
    i ∈ ((cfg1.win 4).blk t).view.set
      ↔ ∀ a : Fin 2, win1_4.index t a * S3x64000.size a ≤ (i a).val
          ∧ (i a).val < win1_4.index t a * S3x64000.size a + S3x64000.size a := by
  show i ∈ ((View.whole main_v22).slice (win1_4.rect t)).set ↔ _
  rw [View.set_slice_whole, Rect.mem_set_unit]
  exact Iff.rfl

/-- EVERY INDEX IS COVERED: column e lies in the block of point e / 64000, which writes back. -/
theorem cover (i : S3x6400000.Idx) :
    ∃ t : Fin cfg1.N, (cfg1.win 4).flush t = true ∧ i ∈ ((cfg1.win 4).blk t).view.set := by
  have hi0 : (i 0).val < 3 := (i 0).isLt
  have hi1 : (i 1).val < 6400000 := (i 1).isLt
  have hN : cfg1.N = 100 := N_1
  obtain ⟨t, ht⟩ : ∃ t : Fin cfg1.N, t.val = (i 1).val / 64000 :=
    ⟨⟨(i 1).val / 64000, by rw [hN]; omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 3 ≤ (i 0).val ∧ (i 0).val < win1_4.index t (0 : Fin 2) * 3 + 3
    rw [e40]; omega
  | ⟨1, _⟩ =>
    show win1_4.index t (1 : Fin 2) * 64000 ≤ (i 1).val ∧ (i 1).val < win1_4.index t (1 : Fin 2) * 64000 + 64000
    rw [e41, ht]; omega

/-! ## The array after the run -/

/-- THE OUTPUT ARRAY after the run is `Sph.accArr` of the four input arrays as the region finds them. -/
theorem arrAt_out (c : Dev nD) :
    (Accel.dat (F := Ideal) V c).arrAt 4 cfg1.N
      = Cert.Proof.Sph.accArr (V c main_v5) (V c main_v6) (V c main_v19) (V c main_v21) :=
  (Accel.dat (F := Ideal) V c).arrAt_eq_of_cover 4
    (Sph.accArr (V c main_v5) (V c main_v6) (V c main_v19) (V c main_v21))
    (fun t _ => flushed_eq V c t) cover

end Cert.KernelIdeal.AccelValue

end
-- ==== Proof.LibIndexed.lean ====
/-
  Gathers and accumulating scatters read at an index, for the dimension numbers a row gather, a column gather, an
  entry gather and a segment sum print with. Each lemma takes the dimension record as a variable with its printed
  fields as hypotheses, so it serves any program that prints the same numbers.

  A gather reads its operand at the start index taken signed off the index column and clamped into the operand; where
  the word is already a position n of the gathered axis, it reads position n. An accumulating scatter at the extended
  reals is each operand entry plus the sum of the updates whose start index, read signed and NOT clamped, is that
  entry; an update whose index falls outside contributes nothing.
-/
import Idealize.ShloMosaic.PureOps.Ideal
import Idealize.ShloMosaic.PureOps.Contract
import Idealize.ShloMosaic.Lib.ValueIdx
import Idealize.ShloMosaic.Lib.StableHlo.Predicate

noncomputable section

namespace Cert.Proof.LibIndexed

open Idealize.ShloMosaic Idealize.ShloMosaic.ValueIdx

/-- The row gather's dimension numbers as a literal record over its well-formedness. -/
private abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at the literal record: the gathered axis reads the clamped start, the other axis the offset. -/
private theorem gather_rows_lit {α : Type} {N C E w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (n : Fin N)
    (h : (idx (ix2 e 0)).toInt = (n : ℤ)) :
    Host.gather (rowsDims N C E wf) x idx (ix2 e k) = x (ix2 n k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ)).toNat (N - 1) = n.val
    have := n.isLt
    omega
  | ⟨1, _⟩ =>
    show (rowsDims N C E wf).start (ix2 e k) idx 1 + (rowsDims N C E wf).batchCoord (ix2 e k) 1
      + (rowsDims N C E wf).offCoord (ix2 e k) 1 = k.val
    have hs : (rowsDims N C E wf).start (ix2 e k) idx 1 = 0 := by
      unfold GatherDims.start
      rw [dif_neg (show (1 : Fin 2) ∉ (rowsDims N C E wf).startIndexMap by
        show (1 : Fin 2) ∉ [(0 : Fin 2)]; decide)]
    have ho : (rowsDims N C E wf).offCoord (ix2 e k) 1 = k.val := rfl
    rw [GatherDims.batchCoord_eq_zero _ _ _ List.not_mem_nil, hs, ho]
    omega

/-- A row gather `x[idx]` of an [N × C] table by an [E × 1] column of start words: row `e`, column `k` of the result
    is row `n` of the table when edge `e`'s word, read signed, is `n`. -/
theorem gather_rows_apply {α : Type} {N C E w : Nat}
    (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![E, 1]⟩ w) (e : Fin E) (k : Fin C) (n : Fin N)
    (h : (idx (ix2 e 0)).toInt = (n : ℤ)) :
    Host.gather d x idx (ix2 e k) = x (ix2 n k) := by
  obtain ⟨od, cd, ob, sb, sm, iv, ss, wf⟩ := d
  dsimp only at hoff hcoll hob hsb hsim hivd hss
  subst hoff hcoll hob hsb hsim hivd hss
  exact gather_rows_lit wf x idx e k n h

/-- The column gather's dimension numbers as a literal record over its well-formedness. -/
private abbrev colsDims (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- The column gather at the literal record: the first axis reads the offset, the gathered axis the clamped start. -/
private theorem gather_cols_lit {α : Type} {R N E w : Nat}
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (r : Fin R) (e : Fin E) (n : Fin N)
    (h : (idx (ix2 e 0)).toInt = (n : ℤ)) :
    Host.gather (colsDims R N E wf) x idx (ix2 r e) = x (ix2 r n) := by
  unfold Host.gather
  congr 1
  funext a
  refine Fin.ext ?_
  match a with
  | ⟨0, _⟩ =>
    show (colsDims R N E wf).start (ix2 r e) idx 0 + (colsDims R N E wf).batchCoord (ix2 r e) 0
      + (colsDims R N E wf).offCoord (ix2 r e) 0 = r.val
    have hs : (colsDims R N E wf).start (ix2 r e) idx 0 = 0 := by
      unfold GatherDims.start
      rw [dif_neg (show (0 : Fin 2) ∉ (colsDims R N E wf).startIndexMap by
        show (0 : Fin 2) ∉ [(1 : Fin 2)]; decide)]
    have ho : (colsDims R N E wf).offCoord (ix2 r e) 0 = r.val := rfl
    rw [GatherDims.batchCoord_eq_zero _ _ _ List.not_mem_nil, hs, ho]
    omega
  | ⟨1, _⟩ =>
    show (colsDims R N E wf).start (ix2 r e) idx 1 + (colsDims R N E wf).batchCoord (ix2 r e) 1
      + (colsDims R N E wf).offCoord (ix2 r e) 1 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R N E wf).startIndexMap from List.mem_singleton.mpr rfl)]
    have hsi : (colsDims R N E wf).siIdx (ix2 r e) ⟨List.idxOf (1 : Fin 2) (colsDims R N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ)).toNat (N - 1) = n.val
    have := n.isLt
    omega

/-- A column gather (`jnp.take(x, idx, axis=1)`) of an [R × N] table: row `r`, column `e` of the result is column `n`
    of the table when edge `e`'s word, read signed, is `n`. -/
theorem gather_cols_apply {α : Type} {R N E w : Nat}
    (d : GatherDims ⟨2, ![R, N]⟩ ⟨2, ![E, 1]⟩ ⟨2, ![R, E]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![R, 1])
    (x : (⟨2, ![R, N]⟩ : Shape).Idx → α) (idx : IVec ⟨2, ![E, 1]⟩ w) (r : Fin R) (e : Fin E) (n : Fin N)
    (h : (idx (ix2 e 0)).toInt = (n : ℤ)) :
    Host.gather d x idx (ix2 r e) = x (ix2 r n) := by
  obtain ⟨od, cd, ob, sb, sm, iv, ss, wf⟩ := d
  dsimp only at hoff hcoll hob hsb hsim hivd hss
  subst hoff hcoll hob hsb hsim hivd hss
  exact gather_cols_lit wf x idx r e n h

/-- An entry gather `x[idx]` of a length-N vector: entry `e` of the result is entry `n` of the vector when edge
    `e`'s word, read signed, is `n`. -/
theorem gather_vec_apply {α : Type} {N E w : Nat}
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (n : Fin N)
    (h : (idx (ix2 e 0)).toInt = (n : ℤ)) :
    Host.gather d x idx (ix1 e) = x (ix1 n) := by
  have hN : 0 < N := Nat.lt_of_le_of_lt (Nat.zero_le _) n.isLt
  have h1 : (ix1 e : (⟨1, ![E]⟩ : Shape).Idx) = Shape.Idx.ofFin e := by
    funext a; match a with | ⟨0, _⟩ => rfl
  have h2 : (StableHlo.Predicate.ixP e : (⟨2, ![E, 1]⟩ : Shape).Idx) = ix2 e 0 := by
    funext b; match b with | ⟨0, _⟩ => rfl | ⟨1, _⟩ => rfl
  rw [h1, StableHlo.Predicate.gather_take d hcoll hob hsim hivd x idx e hN]
  congr 1
  funext a
  refine Fin.ext ?_
  match a with
  | ⟨0, _⟩ =>
    show min (idx (StableHlo.Predicate.ixP e)).toInt.toNat (N - 1) = n.val
    rw [h2, h]
    have := n.isLt
    omega

/-- An update lands at entry `i` exactly when, on every axis, its start read signed plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · next hin =>
    constructor
    · intro hs a
      have hf := congrFun (Option.some.inj hs) a
      have hv : (d.start j idx a + (d.window j a : ℤ)).toNat = (i a).val := congrArg Fin.val hf
      have := hin a
      omega
    · intro hall
      congr 1
      funext a
      refine Fin.ext ?_
      show (d.start j idx a + (d.window j a : ℤ)).toNat = (i a).val
      rw [hall a]
      exact Int.toNat_natCast _
  · next hout =>
    constructor
    · intro hs
      cases hs
    · intro hall
      exfalso
      apply hout
      intro a
      rw [hall a]
      exact ⟨Int.natCast_nonneg _, Int.ofNat_lt.mpr (i a).isLt⟩

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector segment sum's dimension numbers as a literal record over its well-formedness. -/
private abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s update starts, on the one operand axis, at the edge's word read signed. -/
private theorem vecScat_start {N E w : Nat} (wf : ScatterDims.WF ⟨1, ![N]⟩ ⟨2, ![E, 1]⟩ ⟨1, ![E]⟩ [] [0] [0] 1)
    (idx : IVec ⟨2, ![E, 1]⟩ w) (e : Fin E) :
    (vecScat N E wf).start (ix1 e) idx 0 = (idx (ix2 e 0)).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate on it. -/
private theorem vecScat_window {N E : Nat} (wf : ScatterDims.WF ⟨1, ![N]⟩ ⟨2, ![E, 1]⟩ ⟨1, ![E]⟩ [] [0] [0] 1)
    (e : Fin E) : (vecScat N E wf).window (ix1 e) 0 = 0 := rfl

/-- Edge `e`'s update lands at entry `n` exactly when the edge's word read signed is `n`. -/
private theorem vecScat_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScat N E wf).resultIdx? (ix1 e) idx = some (ix1 n) ↔ (idx (ix2 e 0)).toInt = (n : ℤ) := by
  rw [resultIdx?_eq_some_iff]
  have hs := vecScat_start wf idx e
  have hw := vecScat_window wf e
  constructor
  · intro hall
    have h0 : (vecScat N E wf).start (ix1 e) idx 0 + ((vecScat N E wf).window (ix1 e) 0 : ℤ) = (n.val : ℤ) := hall 0
    omega
  · intro hW a
    match a with
    | ⟨0, _⟩ =>
      show (vecScat N E wf).start (ix1 e) idx 0 + ((vecScat N E wf).window (ix1 e) 0 : ℤ) = (n.val : ℤ)
      omega

/-- The vector segment sum at the literal record. -/
private theorem scatterAdd_vec_lit {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScat N E wf) x idx upd (ix1 n)
      = (x (ix1 n) : EReal) + ∑ e : Fin E, if (idx (ix2 e 0)).toInt = (n : ℤ) then (upd (ix1 e) : EReal) else 0 := by
  unfold Host.scatterAdd
  rw [Ideal.hostScatterAdd_def]
  unfold Ideal.hostScatterAdd
  congr 1
  rw [Finset.sum_filter, sum_idx1]
  refine Finset.sum_congr rfl (fun e _ => ?_)
  by_cases hW : (idx (ix2 e 0)).toInt = (n : ℤ)
  · rw [if_pos hW, if_pos ((vecScat_lands wf idx e n).2 hW)]
  · rw [if_neg hW, if_neg (fun hc => hW ((vecScat_lands wf idx e n).1 hc))]

/-- A segment sum into a length-N vector, at the extended reals: entry `n` is the operand's entry plus the sum, over
    the edges whose word read signed is `n`, of the edge's update. -/
theorem scatterAdd_vec_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = (x (ix1 n) : EReal) + ∑ e : Fin E, if (idx (ix2 e 0)).toInt = (n : ℤ) then (upd (ix1 e) : EReal) else 0 := by
  obtain ⟨uw, iw, sd, iv, wf⟩ := d
  dsimp only at huw hiw hsd hivd
  subst huw hiw hsd hivd
  exact scatterAdd_vec_lit wf x idx upd n

/-- The row segment sum's dimension numbers as a literal record over its well-formedness. -/
private abbrev rowsScat (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e`'s update row starts, on the row axis, at the edge's word read signed … -/
private theorem rowsScat_start0 {N C E w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScat N C E wf).start (ix2 e k) idx 0 = (idx (ix2 e 0)).toInt := by
  unfold ScatterDims.start
  rw [dif_pos (show (0 : Fin 2) ∈ (rowsScat N C E wf).scatterDimsToOperandDims from List.mem_singleton.mpr rfl)]
  have hsi : (rowsScat N C E wf).siIdx (ix2 e k) ⟨List.idxOf (0 : Fin 2) (rowsScat N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at zero. -/
private theorem rowsScat_start1 {N C E w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowsScat N C E wf).start (ix2 e k) idx 1 = 0 := by
  unfold ScatterDims.start
  rw [dif_neg (show (1 : Fin 2) ∉ (rowsScat N C E wf).scatterDimsToOperandDims by
    show (1 : Fin 2) ∉ [(0 : Fin 2)]; decide)]

/-- The row axis is inserted: no window coordinate on it … -/
private theorem rowsScat_window0 {N C E : Nat}
    (wf : ScatterDims.WF ⟨2, ![N, C]⟩ ⟨2, ![E, 1]⟩ ⟨2, ![E, C]⟩ [1] [0] [0] 1) (e : Fin E) (k : Fin C) :
    (rowsScat N C E wf).window (ix2 e k) 0 = 0 := rfl

/-- … and the column axis carries the update's column. -/
private theorem rowsScat_window1 {N C E : Nat}
    (wf : ScatterDims.WF ⟨2, ![N, C]⟩ ⟨2, ![E, 1]⟩ ⟨2, ![E, C]⟩ [1] [0] [0] 1) (e : Fin E) (k : Fin C) :
    (rowsScat N C E wf).window (ix2 e k) 1 = k.val := rfl

/-- Column `k'` of edge `e`'s update row lands at row `n`, column `k` exactly when the edge's word read signed is
    `n` and `k'` is `k`. -/
private theorem rowsScat_lands {N C E w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) (n : Fin N) (k : Fin C) :
    (rowsScat N C E wf).resultIdx? (ix2 e k') idx = some (ix2 n k)
      ↔ (idx (ix2 e 0)).toInt = (n : ℤ) ∧ k' = k := by
  rw [resultIdx?_eq_some_iff]
  have hs0 := rowsScat_start0 wf idx e k'
  have hs1 := rowsScat_start1 wf idx e k'
  have hw0 := rowsScat_window0 wf e k'
  have hw1 := rowsScat_window1 wf e k'
  constructor
  · intro hall
    have h0 : (rowsScat N C E wf).start (ix2 e k') idx 0 + ((rowsScat N C E wf).window (ix2 e k') 0 : ℤ)
        = (n.val : ℤ) := hall 0
    have h1 : (rowsScat N C E wf).start (ix2 e k') idx 1 + ((rowsScat N C E wf).window (ix2 e k') 1 : ℤ)
        = (k.val : ℤ) := hall 1
    refine ⟨by omega, Fin.ext (by omega)⟩
  · rintro ⟨hW, rfl⟩ a
    match a with
    | ⟨0, _⟩ =>
      show (rowsScat N C E wf).start (ix2 e k') idx 0 + ((rowsScat N C E wf).window (ix2 e k') 0 : ℤ) = (n.val : ℤ)
      omega
    | ⟨1, _⟩ =>
      show (rowsScat N C E wf).start (ix2 e k') idx 1 + ((rowsScat N C E wf).window (ix2 e k') 1 : ℤ) = (k'.val : ℤ)
      omega

/-- The row segment sum at the literal record: of an edge's update row only column `k` can land in column `k`. -/
private theorem scatterAdd_rows_lit {N C E w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) (rowsScat N C E wf) x idx upd (ix2 n k)
      = (x (ix2 n k) : EReal) + ∑ e : Fin E, if (idx (ix2 e 0)).toInt = (n : ℤ) then (upd (ix2 e k) : EReal) else 0 := by
  unfold Host.scatterAdd
  rw [Ideal.hostScatterAdd_def]
  unfold Ideal.hostScatterAdd
  congr 1
  rw [Finset.sum_filter, sum_idx2]
  refine Finset.sum_congr rfl (fun e _ => ?_)
  by_cases hW : (idx (ix2 e 0)).toInt = (n : ℤ)
  · rw [if_pos hW, Finset.sum_eq_single k]
    · rw [if_pos ((rowsScat_lands wf idx e k n k).2 ⟨hW, rfl⟩)]
    · intro k' _ hk'
      rw [if_neg (fun hc => hk' ((rowsScat_lands wf idx e k' n k).1 hc).2)]
    · intro hk
      exact absurd (Finset.mem_univ k) hk
  · rw [if_neg hW]
    refine Finset.sum_eq_zero (fun k' _ => ?_)
    rw [if_neg (fun hc => hW ((rowsScat_lands wf idx e k' n k).1 hc).1)]

/-- A segment sum of rows into an [N × C] table, at the extended reals: row `n`, column `k` is the operand's entry plus
    the sum, over the edges whose word read signed is `n`, of column `k` of the edge's update row. -/
theorem scatterAdd_rows_apply {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![E, 1]⟩ w) (upd : FVec Ideal ⟨2, ![E, C]⟩ .f32)
    (n : Fin N) (k : Fin C) :
    Host.scatterAdd (F := Ideal) d x idx upd (ix2 n k)
      = (x (ix2 n k) : EReal) + ∑ e : Fin E, if (idx (ix2 e 0)).toInt = (n : ℤ) then (upd (ix2 e k) : EReal) else 0 := by
  obtain ⟨uw, iw, sd, iv, wf⟩ := d
  dsimp only at huw hiw hsd hivd
  subst huw hiw hsd hivd
  exact scatterAdd_rows_lit wf x idx upd n k

end Cert.Proof.LibIndexed

end
-- ==== Proof.KernelGatherHost.lean ====
/-
  The kernel program's first three host stretches, read at an index over the extended reals.

  The first stretch stacks, per particle, the last of its five stored positions over its velocity: a [6 × N] table
  whose column n is the particle's 6-vector (rows 0-2 the position, rows 3-5 the velocity). The second and third
  stretches take that table's columns at the two endpoint arrays of the edges: each normalises an endpoint word
  (a negative word gets N added), keeps a mask "the word is in 0 … N − 1", gathers the columns and fills a masked-out
  column with a not-a-number word. Where every endpoint word is below N the normalised word is the word, the mask is
  all ones, and entry (t, e) of the taken array is row t of the column of edge e's endpoint.
-/
import proofs.«429571_j62895501083203_3_alg».proof.Proof.Gen.KernelIdeal.Launch
import proofs.«429571_j62895501083203_3_alg».proof.Proof.Gen.KernelIdeal.Regions
import proofs.«429571_j62895501083203_3_alg».proof.Proof.Sph
import proofs.«429571_j62895501083203_3_alg».proof.Proof.LibIndexed
import Idealize.ShloMosaic.Lib.ValueLayout
import Idealize.ShloMosaic.Lib.StableHlo.Predicate
import Idealize.ShloMosaic.Lib.StableHlo.Run

noncomputable section

namespace Cert.KernelIdeal.HostValue

open Idealize.ShloMosaic Idealize.ShloMosaic.ValueIdx
open Cert.KernelIdeal Cert.KernelIdeal.Gen
open Cert.Proof

set_option quotPrecheck false in
local notation "α" => Proc.devRef (τ := τ) Proc.tc

/- The reduction and the gather over the edges stay closed symbols here: only their index lemmas speak of them. -/
attribute [local irreducible] Host.reduce Host.gather

section AnyFloats

variable {F : FTy → Type} [FloatOps F]

/-! ## The three stretches as pure functions of their inputs -/

/-- The table of particle columns: the slice at the last stored position, its unit axis dropped, transposed, over the
    transposed velocities. -/
private def g_cols (a0 : FVec F S100000x3x5 .f32) (a1 : FVec F S100000x3 .f32) : FVec F S6x100000 .f32 :=
  concatenate S6x100000 0
    [⟨S3x100000, transpose S3x100000 [1, 0]
        (shapeCast S100000x3 (extractStridedSlice S100000x3x1 ![0, 0, 4] a0 slices_S100000x3x5_S100000x3x1_0_0_4)
          shapeCasts_S100000x3x1_S100000x3) transposes_S100000x3_S3x100000_1_0⟩,
     ⟨S3x100000, transpose S3x100000 [1, 0] a1 transposes_S100000x3_S3x100000_1_0⟩]
    concatenates_S3x100000_S3x100000_S6x100000_d0

/-- An endpoint array normalised (a negative word gets 100000 added) and laid as a column. -/
private def g_norm (idx : IVec S6400000 32) : IVec S6400000x1 32 :=
  broadcastInDim S6400000x1 ![0] bcast_S6400000_S6400000x1_0
    (select (cmpi .slt idx (broadcastInDim S6400000 ![] bcast_S_S6400000 (constantI S_ 32 0#32)))
      (addi idx (broadcastInDim S6400000 ![] bcast_S_S6400000 (constantI S_ 32 100000#32))) idx)

/-- The mask of a column of words: 0 ≤ word ≤ 99999, reduced over the unit axis. -/
private def g_mask (col : IVec S6400000x1 32) : IVec S6400000 1 :=
  Host.reduce IntOp.andi
    (andi (cmpi .sge col (broadcastInDim S6400000x1 ![] bcast_S_S6400000x1 (constantI S_ 32 0#32)))
      (cmpi .sle col (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- The table's columns taken at an endpoint array. -/
private def g_take (x : FVec F S6x100000 .f32) (idx : IVec S6400000 32) : FVec F S6x6400000 .f32 :=
  select (broadcastInDim S6x6400000 ![1] bcast_S6400000_S6x6400000_1 (g_mask (g_norm idx)))
    (Host.gather gather_S6x100000_S6400000x1_S6x6400000_0_1_n_n_1_1_61 x (g_norm idx))
    (broadcastInDim S6x6400000 ![] bcast_S_S6x6400000 (constant (F := F) S_ .f32 0x7FC00000#32))

/-! ## What each stretch leaves, as those functions of what it starts from -/

set_option maxRecDepth 16384 in
set_option maxHeartbeats 2000000 in
/-- The first stretch leaves the table of particle columns. -/
private theorem g_stretch0 (X : Valuation τ sig (Elt F)) :
    (StableHlo.after (hostOps0 (F := F)) X (α main_v4) : FVec F S6x100000 .f32)
      = g_cols (X (α main_arg0)) (X (α main_arg1)) := by
  show StableHlo.after (hostOps0 (F := F)) X (Proc.devRef .tc main_v4) = _
  simp only [hostOps0]
  after_results
  rfl

set_option maxRecDepth 16384 in
set_option maxHeartbeats 2000000 in
/-- After the first nineteen operations of the second stretch: the mask of the normalised first endpoints … -/
private theorem g_head_i_mask (Y : Valuation τ sig (Elt F)) :
    (StableHlo.after ((hostOps0_1 (F := F)).take 19) Y (α main_call0_v12) : IVec S6400000 1)
      = g_mask (g_norm (Y (α main_arg2))) := by
  show StableHlo.after ((hostOps0_1 (F := F)).take 19) Y (Proc.devRef .tc main_call0_v12) = _
  simp only [hostOps0_1, List.take_succ_cons, List.take_zero]
  after_results
  rfl

set_option maxRecDepth 16384 in
set_option maxHeartbeats 2000000 in
/-- … and the table's columns gathered at them. -/
private theorem g_head_i_gather (Y : Valuation τ sig (Elt F)) :
    (StableHlo.after ((hostOps0_1 (F := F)).take 19) Y (α main_call0_v13) : FVec F S6x6400000 .f32)
      = Host.gather gather_S6x100000_S6400000x1_S6x6400000_0_1_n_n_1_1_61 (Y (α main_v4)) (g_norm (Y (α main_arg2))) := by
  show StableHlo.after ((hostOps0_1 (F := F)).take 19) Y (Proc.devRef .tc main_call0_v13) = _
  simp only [hostOps0_1, List.take_succ_cons, List.take_zero]
  after_results
  rfl

set_option maxRecDepth 16384 in
set_option maxHeartbeats 2000000 in
/-- The last four operations of the second stretch select, under the mask laid over the six rows, the gathered columns,
    else the not-a-number word. -/
private theorem g_tail_i (W : Valuation τ sig (Elt F)) :
    (StableHlo.after ((hostOps0_1 (F := F)).drop 19) W (α main_v5) : FVec F S6x6400000 .f32)
      = select (broadcastInDim S6x6400000 ![1] bcast_S6400000_S6x6400000_1 (W (α main_call0_v12)))
          (W (α main_call0_v13))
          (broadcastInDim S6x6400000 ![] bcast_S_S6x6400000 (constant (F := F) S_ .f32 0x7FC00000#32)) := by
  show StableHlo.after ((hostOps0_1 (F := F)).drop 19) W (Proc.devRef .tc main_v5) = _
  simp only [hostOps0_1, List.drop_succ_cons, List.drop_zero]
  after_results
  rfl

/-- The second stretch leaves the table's columns taken at the first endpoint array. -/
private theorem g_take_i (Y : Valuation τ sig (Elt F)) :
    (StableHlo.after (hostOps0_1 (F := F)) Y (α main_v5) : FVec F S6x6400000 .f32)
      = g_take (Y (α main_v4)) (Y (α main_arg2)) := by
  have hsplit : StableHlo.after (hostOps0_1 (F := F)) Y
      = StableHlo.after ((hostOps0_1 (F := F)).drop 19) (StableHlo.after ((hostOps0_1 (F := F)).take 19) Y) := by
    rw [← StableHlo.after_append, List.take_append_drop]
  refine (congrFun hsplit (α main_v5)).trans ?_
  refine (g_tail_i _).trans ?_
  rw [g_head_i_mask, g_head_i_gather]
  rfl

set_option maxRecDepth 16384 in
set_option maxHeartbeats 2000000 in
/-- After the first nineteen operations of the third stretch: the mask of the normalised second endpoints … -/
private theorem g_head_j_mask (Y : Valuation τ sig (Elt F)) :
    (StableHlo.after ((hostOps0_2 (F := F)).take 19) Y (α main_call1_v12) : IVec S6400000 1)
      = g_mask (g_norm (Y (α main_arg3))) := by
  show StableHlo.after ((hostOps0_2 (F := F)).take 19) Y (Proc.devRef .tc main_call1_v12) = _
  simp only [hostOps0_2, List.take_succ_cons, List.take_zero]
  after_results
  rfl

set_option maxRecDepth 16384 in
set_option maxHeartbeats 2000000 in
/-- … and the table's columns gathered at them. -/
private theorem g_head_j_gather (Y : Valuation τ sig (Elt F)) :
    (StableHlo.after ((hostOps0_2 (F := F)).take 19) Y (α main_call1_v13) : FVec F S6x6400000 .f32)
      = Host.gather gather_S6x100000_S6400000x1_S6x6400000_0_1_n_n_1_1_61 (Y (α main_v4)) (g_norm (Y (α main_arg3))) := by
  show StableHlo.after ((hostOps0_2 (F := F)).take 19) Y (Proc.devRef .tc main_call1_v13) = _
  simp only [hostOps0_2, List.take_succ_cons, List.take_zero]
  after_results
  rfl

set_option maxRecDepth 16384 in
set_option maxHeartbeats 2000000 in
/-- The last four operations of the third stretch select, under the mask laid over the six rows, the gathered columns,
    else the not-a-number word. -/
private theorem g_tail_j (W : Valuation τ sig (Elt F)) :
    (StableHlo.after ((hostOps0_2 (F := F)).drop 19) W (α main_v6) : FVec F S6x6400000 .f32)
      = select (broadcastInDim S6x6400000 ![1] bcast_S6400000_S6x6400000_1 (W (α main_call1_v12)))
          (W (α main_call1_v13))
          (broadcastInDim S6x6400000 ![] bcast_S_S6x6400000 (constant (F := F) S_ .f32 0x7FC00000#32)) := by
  show StableHlo.after ((hostOps0_2 (F := F)).drop 19) W (Proc.devRef .tc main_v6) = _
  simp only [hostOps0_2, List.drop_succ_cons, List.drop_zero]
  after_results
  rfl

/-- The third stretch leaves the table's columns taken at the second endpoint array. -/
private theorem g_take_j (Y : Valuation τ sig (Elt F)) :
    (StableHlo.after (hostOps0_2 (F := F)) Y (α main_v6) : FVec F S6x6400000 .f32)
      = g_take (Y (α main_v4)) (Y (α main_arg3)) := by
  have hsplit : StableHlo.after (hostOps0_2 (F := F)) Y
      = StableHlo.after ((hostOps0_2 (F := F)).drop 19) (StableHlo.after ((hostOps0_2 (F := F)).take 19) Y) := by
    rw [← StableHlo.after_append, List.take_append_drop]
  refine (congrFun hsplit (α main_v6)).trans ?_
  refine (g_tail_j _).trans ?_
  rw [g_head_j_mask, g_head_j_gather]
  rfl

/-! ## The take at an index -/

/-- A reduction of an [n × 1] column over its unit axis is, at row p, the body applied to the column's entry and the
    initial value. -/
private theorem g_reduce_unit_col {β : Type} {n : Nat} (f : β → β → β) [Std.Commutative f] [Std.Associative f]
    (x : (⟨2, ![n, 1]⟩ : Shape).Idx → β) {u : Shape} (init : u.Idx → β)
    (h : (⟨2, ![n, 1]⟩ : Shape).ReducesTo [1] ⟨1, ![n]⟩) (hu : 0 < u.numel) (p : Fin n) :
    Host.reduce f x init h hu (ix1 p) = f (x (ix2 p (0 : Fin 1))) (init (Shape.Idx.first hu)) := by
  classical
  rw [Host.reduce_eq_fold]
  have hset : (Finset.univ.filter fun i : (⟨2, ![n, 1]⟩ : Shape).Idx => h.drop i = ix1 p) = {ix2 p (0 : Fin 1)} := by
    ext i
    simp only [Finset.mem_filter, Finset.mem_univ, true_and, Finset.mem_singleton]
    have hv : (h.drop i 0 : Nat) = i 0 := Shape.ReducesTo.drop_apply_val h i 0
    constructor
    · intro e
      rw [e] at hv
      have h0 : i 0 = p := Fin.ext hv.symm
      have h1 : i 1 = (0 : Fin 1) := Fin.ext (by have hlt := idx2_lt1 i; show (i 1).val = 0; omega)
      funext b
      match b with
      | ⟨0, _⟩ => exact h0
      | ⟨1, _⟩ => exact h1
    · intro e
      subst e
      funext b
      have hb : b = 0 := Subsingleton.elim _ _
      subst hb
      exact Fin.ext hv
  rw [hset, Finset.fold_singleton]

/-- The normalised column at an edge whose word is in range is the word. -/
private theorem g_norm_apply (idx : IVec S6400000 32) (e : Fin 6400000) (h : (idx (ix1 e)).toNat < 100000) :
    g_norm idx (ix2 e (0 : Fin 1)) = idx (ix1 e) := by
  unfold g_norm
  refine (broadcastInDim_apply _ _ _ (ix2 e (0 : Fin 1)) (ix1 e) (fun a => ?_)).trans ?_
  · match a with
    | ⟨0, _⟩ => exact (if_neg (show ¬ ((6400000 : ℕ) = 1) by decide)).symm
  show Scalar.select (IntOp.cmpi .slt (idx (ix1 e)) 0#32) (IntOp.addi (idx (ix1 e)) 100000#32) (idx (ix1 e))
    = idx (ix1 e)
  have hc : ¬ IntOp.cmpi .slt (idx (ix1 e)) 0#32 = 1#1 := fun hc1 =>
    Nat.not_lt_zero _ ((StableHlo.Predicate.slt_iff_toNat (a := idx (ix1 e)) (b := 0#32) (by omega) (by decide)).1 hc1)
  rw [eq_zero_of_ne_one hc, select_zero]

/-- The mask at an edge whose column word is in range is set. -/
private theorem g_mask_apply (col : IVec S6400000x1 32) (e : Fin 6400000)
    (h : (col (ix2 e (0 : Fin 1))).toNat < 100000) : g_mask col (ix1 e) = 1#1 := by
  unfold g_mask
  refine (g_reduce_unit_col IntOp.andi _ _ _ _ e).trans ?_
  show IntOp.andi (IntOp.andi (IntOp.cmpi .sge (col (ix2 e (0 : Fin 1))) 0#32)
    (IntOp.cmpi .sle (col (ix2 e (0 : Fin 1))) 99999#32)) 1#1 = 1#1
  have h1 : IntOp.cmpi .sge (col (ix2 e (0 : Fin 1))) 0#32 = 1#1 :=
    (StableHlo.Predicate.sge_iff_toNat (a := col (ix2 e (0 : Fin 1))) (b := 0#32) (by omega) (by decide)).2
      (Nat.zero_le _)
  have h2 : IntOp.cmpi .sle (col (ix2 e (0 : Fin 1))) 99999#32 = 1#1 :=
    (StableHlo.Predicate.sle_iff_toNat (a := col (ix2 e (0 : Fin 1))) (b := 99999#32) (by omega) (by decide)).2
      (by show (col (ix2 e (0 : Fin 1))).toNat ≤ 99999; omega)
  rw [h1, h2]
  rfl

/-- The take at (t, e), every word in range: row t of the table's column at edge e's endpoint. -/
private theorem g_take_apply (x : FVec F S6x100000 .f32) (idx : IVec S6400000 32)
    (hn : ∀ e, (idx e).toNat < 100000) (t : Fin 6) (e : Fin 6400000) :
    g_take x idx (ix2 t e) = x (ix2 t (Sph.nodeOf idx hn e)) := by
  have hcol : g_norm idx (ix2 e (0 : Fin 1)) = idx (ix1 e) := g_norm_apply idx e (hn (ix1 e))
  have hm : broadcastInDim S6x6400000 ![1] bcast_S6400000_S6x6400000_1 (g_mask (g_norm idx)) (ix2 t e) = 1#1 := by
    refine (broadcastInDim_apply _ _ _ (ix2 t e) (ix1 e) (fun a => ?_)).trans ?_
    · match a with
      | ⟨0, _⟩ => exact (if_neg (show ¬ ((6400000 : ℕ) = 1) by decide)).symm
    exact g_mask_apply _ e (by rw [hcol]; exact hn (ix1 e))
  unfold g_take
  rw [select_apply, hm, select_one]
  exact LibIndexed.gather_cols_apply gather_S6x100000_S6400000x1_S6x6400000_0_1_n_n_1_1_61 rfl rfl rfl rfl rfl rfl rfl x
    (g_norm idx) t e (Sph.nodeOf idx hn e) (by rw [hcol]; exact Sph.toInt_nodeOf idx hn e)

/-- The same, for a table and an endpoint array given up to equality. -/
private theorem g_take_read (x x' : FVec F S6x100000 .f32) (idx idx' : IVec S6400000 32) (hx : x = x')
    (hidx : idx = idx') (hn : ∀ e, (idx' e).toNat < 100000) (t : Fin 6) (e : Fin 6400000) :
    g_take x idx (ix2 t e) = x' (ix2 t (Sph.nodeOf idx' hn e)) := by
  subst hx hidx
  exact g_take_apply x idx hn t e

end AnyFloats

/-! ## The table at an index -/

/-- Row t of column n of the table is component t of particle n's column. -/
private theorem g_cols_apply (a0 : FVec Ideal S100000x3x5 .f32) (a1 : FVec Ideal S100000x3 .f32) (t : Fin 6)
    (n : Fin 100000) : g_cols (F := Ideal) a0 a1 (ix2 t n) = Sph.colOf a0 a1 n t := by
  unfold g_cols Sph.colOf
  by_cases h : t.val < 3
  · rw [dif_pos h]
    refine (concatenate_pair_apply_left (t := S6x100000) (s₁ := S3x100000) (s₂ := S3x100000) 0 _ _ _ (ix2 t n) rfl
      (ix2 (⟨t.val, h⟩ : Fin 3) n) (fun b => ?_)).trans ?_
    · match b with
      | ⟨0, _⟩ => rfl
      | ⟨1, _⟩ => rfl
    refine (transpose_ix2_apply _ _ (⟨t.val, h⟩ : Fin 3) n).trans ?_
    refine (shapeCast_apply _ _ (ix2 n (⟨t.val, h⟩ : Fin 3)) (ix3 n (⟨t.val, h⟩ : Fin 3) (0 : Fin 1)) ?_).trans ?_
    · rw [Shape.rowMajor_val_three, Shape.rowMajor_val_two]
      show (n.val * 3 + t.val) * 1 + 0 = n.val * 3 + t.val
      omega
    exact extractStridedSlice_apply _ _ _ _ (ix3 n (⟨t.val, h⟩ : Fin 3) (4 : Fin 5)) (fun a => match a with
      | ⟨0, _⟩ => by show n.val = 0 + n.val; omega
      | ⟨1, _⟩ => by show t.val = 0 + t.val; omega
      | ⟨2, _⟩ => by show (4 : ℕ) = 4 + 0; rfl)
  · rw [dif_neg h]
    refine (concatenate_pair_apply_right (t := S6x100000) (s₁ := S3x100000) (s₂ := S3x100000) 0 _ _ _ (ix2 t n) rfl rfl
      (ix2 (⟨t.val - 3, by omega⟩ : Fin 3) n) (fun b hb => ?_) ?_).trans ?_
    · match b, hb with
      | ⟨0, _⟩, hb => exact absurd (Fin.ext rfl) hb
      | ⟨1, _⟩, _ => rfl
    · show (t.val - 3) + 3 = t.val
      omega
    exact transpose_ix2_apply _ _ (⟨t.val - 3, by omega⟩ : Fin 3) n

/-! ## The three stretches in a row -/

/-- What the device holds after the three stretches, from contents X. -/
abbrev ent (X : Valuation τ sig (Elt Ideal)) : Valuation τ sig (Elt Ideal) :=
  StableHlo.after (hostOps0_2 (F := Ideal))
    (StableHlo.after (hostOps0_1 (F := Ideal)) (StableHlo.after (hostOps0 (F := Ideal)) X))

/-- The first endpoints' columns: entry (t, e) is component t of the column of edge e's first endpoint. -/
theorem rv_i_apply (X : Valuation τ sig (Elt Ideal))
    (hni : ∀ e, ((X (α main_arg2) : IVec S6400000 32) e).toNat < 100000) (t : Fin 6) (e : Fin 6400000) :
    ((ent X (α main_v5) : S6x6400000.Idx → EReal)) (ix2 t e)
      = Sph.colOf (X (α main_arg0)) (X (α main_arg1)) (Sph.nodeOf (X (α main_arg2)) hni e) t := by
  have k2 : (ent X (α main_v5) : S6x6400000.Idx → EReal)
      = (StableHlo.after (hostOps0_1 (F := Ideal)) (StableHlo.after (hostOps0 (F := Ideal)) X) (α main_v5) :
          S6x6400000.Idx → EReal) :=
    StableHlo.after_of_writes_sub (hostOps0_2 (F := Ideal)) _ hostOps0_2_writes (by decide)
  have ka : (StableHlo.after (hostOps0 (F := Ideal)) X (α main_arg2) : IVec S6400000 32) = X (α main_arg2) :=
    StableHlo.after_of_writes_sub (hostOps0 (F := Ideal)) X hostOps0_writes (by decide)
  refine (congrArg (fun f : S6x6400000.Idx → EReal => f (ix2 t e)) (k2.trans (g_take_i _))).trans ?_
  refine (g_take_read _ _ _ _ (g_stretch0 X) ka hni t e).trans ?_
  exact g_cols_apply _ _ t _

/-- The second endpoints' columns: entry (t, e) is component t of the column of edge e's second endpoint. -/
theorem rv_j_apply (X : Valuation τ sig (Elt Ideal))
    (hnj : ∀ e, ((X (α main_arg3) : IVec S6400000 32) e).toNat < 100000) (t : Fin 6) (e : Fin 6400000) :
    ((ent X (α main_v6) : S6x6400000.Idx → EReal)) (ix2 t e)
      = Sph.colOf (X (α main_arg0)) (X (α main_arg1)) (Sph.nodeOf (X (α main_arg3)) hnj e) t := by
  have kv : (StableHlo.after (hostOps0_1 (F := Ideal)) (StableHlo.after (hostOps0 (F := Ideal)) X) (α main_v4) :
        S6x100000.Idx → EReal)
      = (StableHlo.after (hostOps0 (F := Ideal)) X (α main_v4) : S6x100000.Idx → EReal) :=
    StableHlo.after_of_writes_sub (hostOps0_1 (F := Ideal)) _ hostOps0_1_writes (by decide)
  have ka1 : (StableHlo.after (hostOps0_1 (F := Ideal)) (StableHlo.after (hostOps0 (F := Ideal)) X) (α main_arg3) :
        IVec S6400000 32)
      = (StableHlo.after (hostOps0 (F := Ideal)) X (α main_arg3) : IVec S6400000 32) :=
    StableHlo.after_of_writes_sub (hostOps0_1 (F := Ideal)) _ hostOps0_1_writes (by decide)
  have ka0 : (StableHlo.after (hostOps0 (F := Ideal)) X (α main_arg3) : IVec S6400000 32) = X (α main_arg3) :=
    StableHlo.after_of_writes_sub (hostOps0 (F := Ideal)) X hostOps0_writes (by decide)
  refine (congrArg (fun f : S6x6400000.Idx → EReal => f (ix2 t e)) (g_take_j _)).trans ?_
  refine (g_take_read _ _ _ _ (kv.trans (g_stretch0 X)) (ka1.trans ka0) hnj t e).trans ?_
  exact g_cols_apply _ _ t _

/-- A reference none of the three stretches writes keeps its contents. -/
theorem ent_keep (X : Valuation τ sig (Elt Ideal)) (r : Ref sig .tc)
    (h : r ∉ hostOps0_W ++ hostOps0_1_W ++ hostOps0_2_W) : ent X (α r) = X (α r) := by
  have h2 : r ∉ hostOps0_2_W := fun hm => h (List.mem_append_right _ hm)
  have h1 : r ∉ hostOps0_1_W := fun hm => h (List.mem_append_left _ (List.mem_append_right _ hm))
  have h0 : r ∉ hostOps0_W := fun hm => h (List.mem_append_left _ (List.mem_append_left _ hm))
  exact (StableHlo.after_of_writes_sub (hostOps0_2 (F := Ideal)) _ hostOps0_2_writes h2).trans
    ((StableHlo.after_of_writes_sub (hostOps0_1 (F := Ideal)) _ hostOps0_1_writes h1).trans
      (StableHlo.after_of_writes_sub (hostOps0 (F := Ideal)) X hostOps0_writes h0))

end Cert.KernelIdeal.HostValue

end
-- ==== Proof.LibHostIdx.lean ====
/-
  Host operations read at an index, for the shapes a neighbour pass prints: a vector laid as a one-column table, a
  splat, an index word brought into range, the in-range mask of a take, a take of a vector, a segment sum from zero, a
  row cut out of a table, and tables glued from columns. Everything is stated over variable extents and dimension
  records, so it serves any program that prints these operations.

  A take of a vector x by index words w prints as: the word plus the extent where it reads negative, else the word; the
  words as a column; the mask "0 ≤ word ≤ extent − 1" folded by "and" along the unit axis; the gather at the column;
  and the select of the gathered entry under the mask, else a not-a-number word. Where every word, unsigned, is at most
  the upper literal, the word is kept, the mask is 1 everywhere, and the take reads x at the word.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.ValueLayout
import Idealize.ShloMosaic.Lib.Pipeline.Value
import Idealize.ShloMosaic.Lib.StableHlo.Predicate
import proofs.«429571_j62895501083203_3_alg».proof.Proof.LibIndexed

noncomputable section

namespace Cert.Proof.LibHostIdx

open Idealize.ShloMosaic Idealize.ShloMosaic.ValueIdx

/-! ## Broadcasts -/

/-- A vector laid as an [n × 1] column reads, at (p, q), the vector at p. -/
theorem bcast_col_apply {α : Type} {n : Nat} (h : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] h v (ix2 p q) = v (ix1 p) :=
  broadcastInDim_apply _ h v _ _ fun a => match a with
    | ⟨0, _⟩ => by
      show p.val = if n = 1 then 0 else p.val
      have := p.isLt
      split <;> omega

/-! ## Words -/

/-- A word that reads non-negative is kept by "the word plus c where it reads negative, else the word". -/
theorem norm_word (w c : BitVec 32) (h : w.toNat < 2 ^ 31) :
    Scalar.select (IntOp.cmpi .slt w 0#32) (IntOp.addi w c) w = w := by
  have h0 : IntOp.cmpi .slt w 0#32 = 0#1 := by
    apply eq_zero_of_ne_one
    intro h1
    have h2 := (StableHlo.Predicate.slt_iff_toNat h (by decide)).1 h1
    simp at h2
  rw [h0, select_zero]

/-- A word between 0 and a small upper word passes the test "0 ≤ w and w ≤ hi", read signed. -/
theorem mask_word (w hi : BitVec 32) (hw : w.toNat ≤ hi.toNat) (hhi : hi.toNat < 2 ^ 31) :
    IntOp.andi (IntOp.cmpi .sge w 0#32) (IntOp.cmpi .sle w hi) = 1#1 := by
  have hw' : w.toNat < 2 ^ 31 := by omega
  have h1 : IntOp.cmpi .sge w 0#32 = 1#1 := (StableHlo.Predicate.sge_iff_toNat hw' (by decide)).2 (by simp)
  have h2 : IntOp.cmpi .sle w hi = 1#1 := (StableHlo.Predicate.sle_iff_toNat hw' hhi).2 hw
  rw [h1, h2]
  decide

/-! ## A fold by "and" over ones -/

/-- A fold by "and" from 1 over bits that are all 1 is 1. -/
theorem fold_andi_ones {ι : Type} (S : Finset ι) (x : ι → BitVec 1) (h : ∀ i ∈ S, x i = 1#1) :
    S.fold IntOp.andi 1#1 x = 1#1 := by
  induction S using Finset.cons_induction with
  | empty => exact Finset.fold_empty
  | cons a S ha ih =>
    rw [Finset.fold_cons, h a (Finset.mem_cons_self a S), ih fun i hi => h i (Finset.mem_cons.2 (Or.inr hi))]
    decide

/-- A reduction by "and" from 1 of a table of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_fold, hinit]
  exact fold_andi_ones _ x fun i _ => hx i

/-! ## A take of a vector -/

/-- The index words brought into range and laid as a column. -/
abbrev normCol {E : Nat} (hbE : (⟨0, ![]⟩ : Shape).BroadcastsInDim ⟨1, ![E]⟩ ![])
    (hcol : (⟨1, ![E]⟩ : Shape).BroadcastsInDim ⟨2, ![E, 1]⟩ ![0]) (w : IVec ⟨1, ![E]⟩ 32) (cN : BitVec 32) :
    IVec ⟨2, ![E, 1]⟩ 32 :=
  broadcastInDim ⟨2, ![E, 1]⟩ ![0] hcol
    (select (cmpi .slt w (broadcastInDim ⟨1, ![E]⟩ ![] hbE (constantI ⟨0, ![]⟩ 32 0#32)))
      (addi w (broadcastInDim ⟨1, ![E]⟩ ![] hbE (constantI ⟨0, ![]⟩ 32 cN))) w)

/-- Where every word reads non-negative, the column holds the words themselves. -/
theorem normCol_apply {E : Nat} (hbE : (⟨0, ![]⟩ : Shape).BroadcastsInDim ⟨1, ![E]⟩ ![])
    (hcol : (⟨1, ![E]⟩ : Shape).BroadcastsInDim ⟨2, ![E, 1]⟩ ![0]) (w : IVec ⟨1, ![E]⟩ 32) (cN : BitVec 32)
    (hw : ∀ i, (w i).toNat < 2 ^ 31) (p : Fin E) (q : Fin 1) :
    normCol hbE hcol w cN (ix2 p q) = w (ix1 p) := by
  unfold normCol
  rw [bcast_col_apply]
  show Scalar.select (IntOp.cmpi .slt (w (ix1 p)) 0#32) (IntOp.addi (w (ix1 p)) cN) (w (ix1 p)) = w (ix1 p)
  exact norm_word _ _ (hw _)

/-- THE TAKE OF A VECTOR, read at e: where every index word, unsigned, is at most the upper literal, and node e is
    the particle the word of e names, the take reads x at node e. -/
theorem take_apply {N E : Nat} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (hbE : (⟨0, ![]⟩ : Shape).BroadcastsInDim ⟨1, ![E]⟩ ![])
    (hcol : (⟨1, ![E]⟩ : Shape).BroadcastsInDim ⟨2, ![E, 1]⟩ ![0])
    (hbE1 : (⟨0, ![]⟩ : Shape).BroadcastsInDim ⟨2, ![E, 1]⟩ ![])
    (h11 : (⟨1, ![1]⟩ : Shape).BroadcastsInDim ⟨2, ![1, 1]⟩ ![1])
    (h1E : (⟨2, ![1, 1]⟩ : Shape).BroadcastsInDim ⟨2, ![E, 1]⟩ ![0, 1])
    (hred : (⟨2, ![E, 1]⟩ : Shape).ReducesTo [1] ⟨1, ![E]⟩) (hS : 0 < (⟨0, ![]⟩ : Shape).numel)
    (x : FVec Ideal ⟨1, ![N]⟩ .f32) (w : IVec ⟨1, ![E]⟩ 32) (cN cHi nanw : BitVec 32)
    (hhi : cHi.toNat < 2 ^ 31) (hw : ∀ i, (w i).toNat ≤ cHi.toNat)
    (node : Fin E → Fin N) (hnode : ∀ e, (w (ix1 e)).toInt = ((node e : Fin N) : ℤ)) (e : Fin E) :
    select
        (Host.reduce IntOp.andi
          (andi
            (cmpi .sge (normCol hbE hcol w cN) (broadcastInDim ⟨2, ![E, 1]⟩ ![] hbE1 (constantI ⟨0, ![]⟩ 32 0#32)))
            (cmpi .sle (normCol hbE hcol w cN)
              (broadcastInDim ⟨2, ![E, 1]⟩ ![0, 1] h1E
                (broadcastInDim ⟨2, ![1, 1]⟩ ![1] h11 (constantI ⟨1, ![1]⟩ 32 cHi)))))
          (constantI ⟨0, ![]⟩ 1 1#1) hred hS)
        (Host.gather d x (normCol hbE hcol w cN))
        (broadcastInDim ⟨1, ![E]⟩ ![] hbE (constant (F := Ideal) ⟨0, ![]⟩ .f32 nanw))
        (ix1 e)
      = x (ix1 (node e)) := by
  have hw31 : ∀ i, (w i).toNat < 2 ^ 31 := fun i => by have := hw i; omega
  have hmask : ∀ i, (andi
      (cmpi .sge (normCol hbE hcol w cN) (broadcastInDim ⟨2, ![E, 1]⟩ ![] hbE1 (constantI ⟨0, ![]⟩ 32 0#32)))
      (cmpi .sle (normCol hbE hcol w cN)
        (broadcastInDim ⟨2, ![E, 1]⟩ ![0, 1] h1E
          (broadcastInDim ⟨2, ![1, 1]⟩ ![1] h11 (constantI ⟨1, ![1]⟩ 32 cHi))))) i = 1#1 := by
    intro i
    obtain ⟨p, q, rfl⟩ : ∃ (p : Fin E) (q : Fin 1), i = ix2 p q := ⟨i 0, i 1, eq_ix2 i⟩
    show IntOp.andi (IntOp.cmpi .sge (normCol hbE hcol w cN (ix2 p q)) 0#32)
      (IntOp.cmpi .sle (normCol hbE hcol w cN (ix2 p q)) cHi) = 1#1
    rw [normCol_apply hbE hcol w cN hw31 p q]
    exact mask_word _ _ (hw _) hhi
  rw [select_apply, reduce_andi_ones _ (constantI ⟨0, ![]⟩ 1 1#1) hred hS hmask (fun _ => rfl), select_one]
  exact LibIndexed.gather_vec_apply d hcoll hob hsim hivd x _ e (node e)
    (by rw [normCol_apply hbE hcol w cN hw31 e 0]; exact hnode e)

/-! ## A segment sum from zero -/

/-- A segment sum into a zero vector, its index words laid as a column: entry n is the sum of the updates of the edges
    whose word names n. -/
theorem segsum_apply {N E : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (hz : (⟨0, ![]⟩ : Shape).BroadcastsInDim ⟨1, ![N]⟩ ![])
    (hcol : (⟨1, ![E]⟩ : Shape).BroadcastsInDim ⟨2, ![E, 1]⟩ ![0])
    (idx : IVec ⟨1, ![E]⟩ 32) (node : Fin E → Fin N) (hnode : ∀ e, (idx (ix1 e)).toInt = ((node e : Fin N) : ℤ))
    (upd : FVec Ideal ⟨1, ![E]⟩ .f32) (n : Fin N) :
    Host.scatterAdd (F := Ideal) d
        (broadcastInDim ⟨1, ![N]⟩ ![] hz (constant (F := Ideal) ⟨0, ![]⟩ .f32 0x00000000#32))
        (broadcastInDim ⟨2, ![E, 1]⟩ ![0] hcol idx) upd (ix1 n)
      = ∑ e : Fin E, if node e = n then (upd (ix1 e) : EReal) else 0 := by
  rw [LibIndexed.scatterAdd_vec_apply d huw hiw hsd hivd]
  have hzero : (broadcastInDim ⟨1, ![N]⟩ ![] hz (constant (F := Ideal) ⟨0, ![]⟩ .f32 0x00000000#32) (ix1 n) : EReal) = 0 :=
    Ideal.ofBits_zero_f32
  rw [hzero, zero_add]
  refine Finset.sum_congr rfl fun e _ => ?_
  rw [bcast_col_apply, hnode e]
  by_cases hcn : node e = n
  · rw [if_pos hcn, if_pos (by rw [hcn])]
  · rw [if_neg hcn, if_neg fun h => hcn (Fin.ext (by omega))]

/-! ## A row cut out of a table -/

/-- Row o of an [R × E] table, cut out as a [1 × E] table, reads at (0, e) the table at (o, e). -/
theorem slice_row_apply {α : Type} {R E : Nat} (o : Nat) (ho : o < R) (x : (⟨2, ![R, E]⟩ : Shape).Idx → α)
    (h : (⟨2, ![R, E]⟩ : Shape).Slices ![o, 0] ⟨2, ![1, E]⟩) (u : Fin 1) (e : Fin E) :
    extractStridedSlice ⟨2, ![1, E]⟩ ![o, 0] x h (ix2 u e) = x (ix2 (⟨o, ho⟩ : Fin R) e) :=
  extractStridedSlice_apply _ x h _ _ fun a => match a with
    | ⟨0, _⟩ => by
      show o = o + u.val
      omega
    | ⟨1, _⟩ => by
      show e.val = 0 + e.val
      omega

/-! ## Tables glued from columns -/

section Glue
variable {α : Type} {N : Nat}

variable (h3 : Shape.Concatenates [(⟨2, ![N, 1]⟩ : Shape), ⟨2, ![N, 1]⟩, ⟨2, ![N, 1]⟩] ⟨2, ![N, 3]⟩ 1)
  (a b c : (⟨2, ![N, 1]⟩ : Shape).Idx → α) (n : Fin N)

/-- Three [N × 1] columns glued along axis 1: column 0 of the result is the first piece's one column. -/
theorem concat3_col0 :
    concatenate ⟨2, ![N, 3]⟩ 1 [⟨⟨2, ![N, 1]⟩, a⟩, ⟨⟨2, ![N, 1]⟩, b⟩, ⟨⟨2, ![N, 1]⟩, c⟩] h3 (ix2 n (⟨0, by omega⟩ : Fin 3))
      = a (ix2 n (0 : Fin 1)) :=
  concatenate_apply_piece 1 [⟨⟨2, ![N, 1]⟩, a⟩, ⟨⟨2, ![N, 1]⟩, b⟩, ⟨⟨2, ![N, 1]⟩, c⟩] h3 (ix2 n (⟨0, by omega⟩ : Fin 3)) 0 (by simp) ⟨2, ![N, 1]⟩ a rfl rfl 0 rfl (ix2 n (0 : Fin 1))
    (fun b' => match b' with
      | ⟨0, _⟩ => fun _ => rfl
      | ⟨1, _⟩ => fun hb => absurd rfl hb)
    rfl

/-- Column 1 is the second piece's. -/
theorem concat3_col1 :
    concatenate ⟨2, ![N, 3]⟩ 1 [⟨⟨2, ![N, 1]⟩, a⟩, ⟨⟨2, ![N, 1]⟩, b⟩, ⟨⟨2, ![N, 1]⟩, c⟩] h3 (ix2 n (⟨1, by omega⟩ : Fin 3))
      = b (ix2 n (0 : Fin 1)) :=
  concatenate_apply_piece 1 [⟨⟨2, ![N, 1]⟩, a⟩, ⟨⟨2, ![N, 1]⟩, b⟩, ⟨⟨2, ![N, 1]⟩, c⟩] h3 (ix2 n (⟨1, by omega⟩ : Fin 3)) 1 (by simp) ⟨2, ![N, 1]⟩ b rfl rfl 1 rfl (ix2 n (0 : Fin 1))
    (fun b' => match b' with
      | ⟨0, _⟩ => fun _ => rfl
      | ⟨1, _⟩ => fun hb => absurd rfl hb)
    rfl

/-- Column 2 is the third piece's. -/
theorem concat3_col2 :
    concatenate ⟨2, ![N, 3]⟩ 1 [⟨⟨2, ![N, 1]⟩, a⟩, ⟨⟨2, ![N, 1]⟩, b⟩, ⟨⟨2, ![N, 1]⟩, c⟩] h3 (ix2 n (⟨2, by omega⟩ : Fin 3))
      = c (ix2 n (0 : Fin 1)) :=
  concatenate_apply_piece 1 [⟨⟨2, ![N, 1]⟩, a⟩, ⟨⟨2, ![N, 1]⟩, b⟩, ⟨⟨2, ![N, 1]⟩, c⟩] h3 (ix2 n (⟨2, by omega⟩ : Fin 3)) 2 (by simp) ⟨2, ![N, 1]⟩ c rfl rfl 2 rfl (ix2 n (0 : Fin 1))
    (fun b' => match b' with
      | ⟨0, _⟩ => fun _ => rfl
      | ⟨1, _⟩ => fun hb => absurd rfl hb)
    rfl

variable (h8 : Shape.Concatenates [(⟨2, ![N, 3]⟩ : Shape), ⟨2, ![N, 3]⟩, ⟨2, ![N, 1]⟩, ⟨2, ![N, 1]⟩] ⟨2, ![N, 8]⟩ 1)
  (A B : (⟨2, ![N, 3]⟩ : Shape).Idx → α) (C D : (⟨2, ![N, 1]⟩ : Shape).Idx → α)

/-- Two [N × 3] tables and two [N × 1] columns glued along axis 1: columns 0, 1, 2 are the first table's. -/
theorem concat8_lo (k : Fin 3) :
    concatenate ⟨2, ![N, 8]⟩ 1 [⟨⟨2, ![N, 3]⟩, A⟩, ⟨⟨2, ![N, 3]⟩, B⟩, ⟨⟨2, ![N, 1]⟩, C⟩, ⟨⟨2, ![N, 1]⟩, D⟩] h8
      (ix2 n (⟨k.val, by omega⟩ : Fin 8)) = A (ix2 n k) :=
  concatenate_apply_piece 1 [⟨⟨2, ![N, 3]⟩, A⟩, ⟨⟨2, ![N, 3]⟩, B⟩, ⟨⟨2, ![N, 1]⟩, C⟩, ⟨⟨2, ![N, 1]⟩, D⟩] h8 (ix2 n (⟨k.val, by omega⟩ : Fin 8)) 0 (by simp) ⟨2, ![N, 3]⟩ A rfl rfl 0 rfl (ix2 n k)
    (fun b' => match b' with
      | ⟨0, _⟩ => fun _ => rfl
      | ⟨1, _⟩ => fun hb => absurd rfl hb)
    (by show 0 + k.val = k.val; omega)

/-- Columns 3, 4, 5 are the second table's. -/
theorem concat8_mid (k : Fin 3) :
    concatenate ⟨2, ![N, 8]⟩ 1 [⟨⟨2, ![N, 3]⟩, A⟩, ⟨⟨2, ![N, 3]⟩, B⟩, ⟨⟨2, ![N, 1]⟩, C⟩, ⟨⟨2, ![N, 1]⟩, D⟩] h8
      (ix2 n (⟨k.val + 3, by omega⟩ : Fin 8)) = B (ix2 n k) :=
  concatenate_apply_piece 1 [⟨⟨2, ![N, 3]⟩, A⟩, ⟨⟨2, ![N, 3]⟩, B⟩, ⟨⟨2, ![N, 1]⟩, C⟩, ⟨⟨2, ![N, 1]⟩, D⟩] h8 (ix2 n (⟨k.val + 3, by omega⟩ : Fin 8)) 1 (by simp) ⟨2, ![N, 3]⟩ B rfl rfl 3 rfl (ix2 n k)
    (fun b' => match b' with
      | ⟨0, _⟩ => fun _ => rfl
      | ⟨1, _⟩ => fun hb => absurd rfl hb)
    (by show 3 + k.val = k.val + 3; omega)

/-- Column 6 is the first column piece. -/
theorem concat8_six :
    concatenate ⟨2, ![N, 8]⟩ 1 [⟨⟨2, ![N, 3]⟩, A⟩, ⟨⟨2, ![N, 3]⟩, B⟩, ⟨⟨2, ![N, 1]⟩, C⟩, ⟨⟨2, ![N, 1]⟩, D⟩] h8
      (ix2 n (⟨6, by omega⟩ : Fin 8)) = C (ix2 n (0 : Fin 1)) :=
  concatenate_apply_piece 1 [⟨⟨2, ![N, 3]⟩, A⟩, ⟨⟨2, ![N, 3]⟩, B⟩, ⟨⟨2, ![N, 1]⟩, C⟩, ⟨⟨2, ![N, 1]⟩, D⟩] h8 (ix2 n (⟨6, by omega⟩ : Fin 8)) 2 (by simp) ⟨2, ![N, 1]⟩ C rfl rfl 6 rfl (ix2 n (0 : Fin 1))
    (fun b' => match b' with
      | ⟨0, _⟩ => fun _ => rfl
      | ⟨1, _⟩ => fun hb => absurd rfl hb)
    rfl

/-- Column 7 is the second column piece. -/
theorem concat8_seven :
    concatenate ⟨2, ![N, 8]⟩ 1 [⟨⟨2, ![N, 3]⟩, A⟩, ⟨⟨2, ![N, 3]⟩, B⟩, ⟨⟨2, ![N, 1]⟩, C⟩, ⟨⟨2, ![N, 1]⟩, D⟩] h8
      (ix2 n (⟨7, by omega⟩ : Fin 8)) = D (ix2 n (0 : Fin 1)) :=
  concatenate_apply_piece 1 [⟨⟨2, ![N, 3]⟩, A⟩, ⟨⟨2, ![N, 3]⟩, B⟩, ⟨⟨2, ![N, 1]⟩, C⟩, ⟨⟨2, ![N, 1]⟩, D⟩] h8 (ix2 n (⟨7, by omega⟩ : Fin 8)) 3 (by simp) ⟨2, ![N, 1]⟩ D rfl rfl 7 rfl (ix2 n (0 : Fin 1))
    (fun b' => match b' with
      | ⟨0, _⟩ => fun _ => rfl
      | ⟨1, _⟩ => fun hb => absurd rfl hb)
    rfl

end Glue

end Cert.Proof.LibHostIdx

end
-- ==== Proof.LibTypedRead.lean ====
/-
  Reading a straight line of typed-reference operations (an outlined function's, inlined at its call) without its
  transports. A typed reference carries the type of the tensor value its buffer holds, and its operations move
  contents to and from the buffer's own type along that equation. The TYPED READ of a reference in a valuation is the
  buffer's contents moved to the carried type. Through an operation the typed read of its result is the operation's
  function of the typed reads of its operands, and the typed read of any other reference is unchanged: no transport
  is left in the composed term.
-/
import Idealize.ShloMosaic.Lib.StableHlo.Run

noncomputable section

namespace Cert.Proof.LibTypedRead

open Idealize.ShloMosaic Idealize.ShloMosaic.StableHlo Idealize.SL.Sem

variable {τ : Topo} {sig : RefSig} {Val : EltTy → Type} {T Tx Ta Tb Tc Ty : BufTy}

/-- The typed read: the buffer's contents at the type the reference carries. -/
def rd (x : TRef sig T) (W : Valuation τ sig Val) : T.Contents Val := x.ofBuf (W (Proc.devRef .tc x.ref))

/-- Moving contents to the buffer's type and back is the identity. -/
theorem ofBuf_toBuf (x : TRef sig T) (v : T.Contents Val) : x.ofBuf (x.toBuf v) = v := by
  obtain ⟨r, h, h2, h3⟩ := x
  subst h
  rfl

/-- A constant's typed read is the constant. -/
theorem rd_nullary (y : TRef sig Ty) (v : Ty.Contents Val) (W : Valuation τ sig Val) :
    rd y ((TRef.nullary (τ := τ) y v).result W) = v := by
  unfold rd
  rw [show (TRef.nullary (τ := τ) y v).result W (Proc.devRef .tc y.ref) = y.toBuf v from
    nullary_result y.ref (y.toBuf v) y.dev W]
  exact ofBuf_toBuf y v

/-- A one-operand operation's typed read is its function of the operand's typed read. -/
theorem rd_unary (x : TRef sig Tx) (y : TRef sig Ty) (f : Tx.Contents Val → Ty.Contents Val) (W : Valuation τ sig Val) :
    rd y ((TRef.unary (τ := τ) x y f).result W) = f (rd x W) := by
  unfold rd
  rw [show (TRef.unary (τ := τ) x y f).result W (Proc.devRef .tc y.ref)
      = y.toBuf (f (x.ofBuf (W (Proc.devRef .tc x.ref)))) from
    unary_result x.ref y.ref (fun u => y.toBuf (f (x.ofBuf u))) x.dev y.dev W]
  exact ofBuf_toBuf y _

/-- A two-operand operation's. -/
theorem rd_binary (a : TRef sig Ta) (b : TRef sig Tb) (y : TRef sig Ty)
    (f : Ta.Contents Val → Tb.Contents Val → Ty.Contents Val) (W : Valuation τ sig Val) :
    rd y ((TRef.binary (τ := τ) a b y f).result W) = f (rd a W) (rd b W) := by
  unfold rd
  rw [show (TRef.binary (τ := τ) a b y f).result W (Proc.devRef .tc y.ref)
      = y.toBuf (f (a.ofBuf (W (Proc.devRef .tc a.ref))) (b.ofBuf (W (Proc.devRef .tc b.ref)))) from
    binary_result a.ref b.ref y.ref (fun u v => y.toBuf (f (a.ofBuf u) (b.ofBuf v))) a.dev b.dev y.dev W]
  exact ofBuf_toBuf y _

/-- A three-operand operation's. -/
theorem rd_ternary (c : TRef sig Tc) (a : TRef sig Ta) (b : TRef sig Tb) (y : TRef sig Ty)
    (f : Tc.Contents Val → Ta.Contents Val → Tb.Contents Val → Ty.Contents Val) (W : Valuation τ sig Val) :
    rd y ((TRef.ternary (τ := τ) c a b y f).result W) = f (rd c W) (rd a W) (rd b W) := by
  unfold rd
  rw [show (TRef.ternary (τ := τ) c a b y f).result W (Proc.devRef .tc y.ref)
      = y.toBuf (f (c.ofBuf (W (Proc.devRef .tc c.ref))) (a.ofBuf (W (Proc.devRef .tc a.ref)))
          (b.ofBuf (W (Proc.devRef .tc b.ref)))) from
    ternary_result c.ref a.ref b.ref y.ref (fun w u v => y.toBuf (f (c.ofBuf w) (a.ofBuf u) (b.ofBuf v)))
      c.dev a.dev b.dev y.dev W]
  exact ofBuf_toBuf y _

/-- The typed read of a reference a constant does not write is unchanged. -/
theorem rd_nullary_ne (z : TRef sig T) (y : TRef sig Ty) (v : Ty.Contents Val) (W : Valuation τ sig Val)
    (h : z.ref ≠ y.ref) : rd z ((TRef.nullary (τ := τ) y v).result W) = rd z W :=
  congrArg z.ofBuf (nullary_result_ne y.ref (y.toBuf v) y.dev W h)

/-- … a one-operand operation does not write … -/
theorem rd_unary_ne (z : TRef sig T) (x : TRef sig Tx) (y : TRef sig Ty) (f : Tx.Contents Val → Ty.Contents Val)
    (W : Valuation τ sig Val) (h : z.ref ≠ y.ref) : rd z ((TRef.unary (τ := τ) x y f).result W) = rd z W :=
  congrArg z.ofBuf (unary_result_ne x.ref y.ref (fun u => y.toBuf (f (x.ofBuf u))) x.dev y.dev W h)

/-- … a two-operand operation does not write … -/
theorem rd_binary_ne (z : TRef sig T) (a : TRef sig Ta) (b : TRef sig Tb) (y : TRef sig Ty)
    (f : Ta.Contents Val → Tb.Contents Val → Ty.Contents Val) (W : Valuation τ sig Val) (h : z.ref ≠ y.ref) :
    rd z ((TRef.binary (τ := τ) a b y f).result W) = rd z W :=
  congrArg z.ofBuf (binary_result_ne a.ref b.ref y.ref (fun u v => y.toBuf (f (a.ofBuf u) (b.ofBuf v))) a.dev b.dev y.dev W h)

/-- … a three-operand operation does not write is unchanged. -/
theorem rd_ternary_ne (z : TRef sig T) (c : TRef sig Tc) (a : TRef sig Ta) (b : TRef sig Tb) (y : TRef sig Ty)
    (f : Tc.Contents Val → Ta.Contents Val → Tb.Contents Val → Ty.Contents Val) (W : Valuation τ sig Val)
    (h : z.ref ≠ y.ref) : rd z ((TRef.ternary (τ := τ) c a b y f).result W) = rd z W :=
  congrArg z.ofBuf
    (ternary_result_ne (c := c.ref) (a := a.ref) (b := b.ref) (y := y.ref) (fun w u v => y.toBuf (f (c.ofBuf w) (a.ofBuf u) (b.ofBuf v))) c.dev a.dev b.dev y.dev W h)

end Cert.Proof.LibTypedRead

end
-- ==== Proof.KernelDensityHost.lean ====
/-
  The host stretches between the two kernels, read at an index over the extended reals, from ANY contents X at their
  start.

  The first stretch lays the density kernel's [1 × E] row of edge weights as a vector and sums it, per edge's first
  endpoint, into a zero vector of the particles: the density rho. From it, entry by entry, 100 · (rho − 1) + 0: the
  pressure. The next four stretches take the density at each edge's first and at its second endpoint and lay each take
  as a [1 × E] row. Where every endpoint word is a particle number, each take reads the density at that particle.

  Each stretch is first read whole, for any float values: the buffer it writes holds the stretch's operations composed,
  applied to what the buffers it reads held. Then the composed terms are read at an index at the extended reals.
-/
import proofs.«429571_j62895501083203_3_alg».proof.Proof.Gen.KernelIdeal.Launch
import proofs.«429571_j62895501083203_3_alg».proof.Proof.Gen.KernelIdeal.Regions
import proofs.«429571_j62895501083203_3_alg».proof.Proof.Sph
import proofs.«429571_j62895501083203_3_alg».proof.Proof.LibIndexed
import proofs.«429571_j62895501083203_3_alg».proof.Proof.LibHostIdx
import proofs.«429571_j62895501083203_3_alg».proof.Proof.LibTypedRead
import Idealize.ShloMosaic.Lib.StableHlo.Run
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.Proof

/-! ## The stretches' operations composed, for any float values -/

section Composed
variable {F : FTy → Type} [FloatOps F]

/-- The density: the row of edge weights as a vector, summed per first endpoint into zeros. -/
def rhoOf (idx : IVec S6400000 32) (v7 : FVec F S1x6400000 .f32) : FVec F S100000 .f32 :=
  Host.scatterAdd scatter_S100000_S6400000x1_S6400000_n_0_0_1
    (broadcastInDim S100000 ![] bcast_S_S100000 (constant (F := F) S_ .f32 0x00000000#32))
    (broadcastInDim S6400000x1 ![0] bcast_S6400000_S6400000x1_0 idx)
    (shapeCast S6400000 v7 shapeCasts_S1x6400000_S6400000)

/-- The pressure of a density vector: 100 · (rho − 1) + 0, entry by entry. -/
def presOf (rho : FVec F S100000 .f32) : FVec F S100000 .f32 :=
  addf
    (mulf (broadcastInDim S100000 ![] bcast_S_S100000 (constant (F := F) S_ .f32 0x42C80000#32))
      (subf rho (broadcastInDim S100000 ![] bcast_S_S100000 (constant (F := F) S_ .f32 0x3F800000#32))))
    (broadcastInDim S100000 ![] bcast_S_S100000 (constant (F := F) S_ .f32 0x00000000#32))

/-- The take of a particle vector at the edges' endpoint words. -/
def takeOf (x : FVec F S100000 .f32) (w : IVec S6400000 32) : FVec F S6400000 .f32 :=
  select
    (Host.reduce IntOp.andi
      (andi
        (cmpi .sge
          (broadcastInDim S6400000x1 ![0] bcast_S6400000_S6400000x1_0
            (select (cmpi .slt w (broadcastInDim S6400000 ![] bcast_S_S6400000 (constantI S_ 32 0#32)))
              (addi w (broadcastInDim S6400000 ![] bcast_S_S6400000 (constantI S_ 32 100000#32))) w))
          (broadcastInDim S6400000x1 ![] bcast_S_S6400000x1 (constantI S_ 32 0#32)))
        (cmpi .sle
          (broadcastInDim S6400000x1 ![0] bcast_S6400000_S6400000x1_0
            (select (cmpi .slt w (broadcastInDim S6400000 ![] bcast_S_S6400000 (constantI S_ 32 0#32)))
              (addi w (broadcastInDim S6400000 ![] bcast_S_S6400000 (constantI S_ 32 100000#32))) w))
          (broadcastInDim S6400000x1 ![0, 1] bcast_S1x1_S6400000x1_0_1
            (broadcastInDim S1x1 ![1] bcast_S1_S1x1_1 (constantI S1 32 99999#32)))))
      (constantI S_ 1 1#1) reducesTo_S6400000x1_S6400000_d1 h_S_)
    (Host.gather gather_S100000_S6400000x1_S6400000_n_0_n_n_0_1_1 x
      (broadcastInDim S6400000x1 ![0] bcast_S6400000_S6400000x1_0
        (select (cmpi .slt w (broadcastInDim S6400000 ![] bcast_S_S6400000 (constantI S_ 32 0#32)))
          (addi w (broadcastInDim S6400000 ![] bcast_S_S6400000 (constantI S_ 32 100000#32))) w)))
    (broadcastInDim S6400000 ![] bcast_S_S6400000 (constant (F := F) S_ .f32 0x7FC00000#32))

attribute [local irreducible] Host.reduce Host.gather Host.scatterAdd in
/-- The first stretch leaves the density in its buffer … -/
theorem after1_v11 (V : Valuation τ sig (Elt F)) :
    after (hostOps1 (F := F)) V (Proc.devRef .tc main_v11)
      = rhoOf (V (Proc.devRef .tc main_arg2)) (V (Proc.devRef .tc main_v7)) := by
  simp only [hostOps1]
  after_results
  all_goals rfl

attribute [local irreducible] Host.reduce Host.gather Host.scatterAdd in
/-- … and the pressure of that density in its own. -/
theorem after1_v17 (V : Valuation τ sig (Elt F)) :
    after (hostOps1 (F := F)) V (Proc.devRef .tc main_v17)
      = presOf (rhoOf (V (Proc.devRef .tc main_arg2)) (V (Proc.devRef .tc main_v7))) := by
  simp only [hostOps1]
  after_results
  all_goals rfl

attribute [local irreducible] Host.reduce Host.gather Host.scatterAdd in
set_option maxHeartbeats 1000000 in
/-- The second stretch, an outlined take inlined at its call, read through the typed reads of its buffers: the typed
    read of its result is the take of the typed reads of the density buffer and of the first endpoints' buffer. -/
theorem rd11_v18 (V : Valuation τ sig (Elt F)) :
    LibTypedRead.rd (.of main_v18 : TRef sig ⟨S6400000, .f32⟩) (after (hostOps1_1 (F := F)) V)
      = takeOf (LibTypedRead.rd (.of main_v11 : TRef sig ⟨S100000, .f32⟩) V)
          (LibTypedRead.rd (.of main_arg2 : TRef sig ⟨S6400000, .i32⟩) V) := by
  simp (disch := decide) only [hostOps1_1, after_cons, after_nil, LibTypedRead.rd_nullary, LibTypedRead.rd_unary,
    LibTypedRead.rd_binary, LibTypedRead.rd_ternary, LibTypedRead.rd_nullary_ne, LibTypedRead.rd_unary_ne,
    LibTypedRead.rd_binary_ne, LibTypedRead.rd_ternary_ne]
  rfl

attribute [local irreducible] Host.reduce Host.gather Host.scatterAdd in
/-- The second stretch leaves the take of the density at the first endpoints: at these literal references a typed read
    is the buffer's contents. -/
theorem after11_v18 (V : Valuation τ sig (Elt F)) :
    after (hostOps1_1 (F := F)) V (Proc.devRef .tc main_v18)
      = takeOf (V (Proc.devRef .tc main_v11)) (V (Proc.devRef .tc main_arg2)) :=
  rd11_v18 V

/-- The third lays it as a row. -/
theorem after12_v19 (V : Valuation τ sig (Elt F)) :
    after (hostOps1_2 (F := F)) V (Proc.devRef .tc main_v19)
      = shapeCast S1x6400000 (V (Proc.devRef .tc main_v18)) shapeCasts_S6400000_S1x6400000 := by
  simp only [hostOps1_2]
  after_results
  all_goals rfl

attribute [local irreducible] Host.reduce Host.gather Host.scatterAdd in
set_option maxHeartbeats 1000000 in
/-- The fourth stretch, the same take at the second endpoints, read through the typed reads of its buffers. -/
theorem rd13_v20 (V : Valuation τ sig (Elt F)) :
    LibTypedRead.rd (.of main_v20 : TRef sig ⟨S6400000, .f32⟩) (after (hostOps1_3 (F := F)) V)
      = takeOf (LibTypedRead.rd (.of main_v11 : TRef sig ⟨S100000, .f32⟩) V)
          (LibTypedRead.rd (.of main_arg3 : TRef sig ⟨S6400000, .i32⟩) V) := by
  simp (disch := decide) only [hostOps1_3, after_cons, after_nil, LibTypedRead.rd_nullary, LibTypedRead.rd_unary,
    LibTypedRead.rd_binary, LibTypedRead.rd_ternary, LibTypedRead.rd_nullary_ne, LibTypedRead.rd_unary_ne,
    LibTypedRead.rd_binary_ne, LibTypedRead.rd_ternary_ne]
  rfl

attribute [local irreducible] Host.reduce Host.gather Host.scatterAdd in
/-- The fourth stretch leaves the take of the density at the second endpoints. -/
theorem after13_v20 (V : Valuation τ sig (Elt F)) :
    after (hostOps1_3 (F := F)) V (Proc.devRef .tc main_v20)
      = takeOf (V (Proc.devRef .tc main_v11)) (V (Proc.devRef .tc main_arg3)) :=
  rd13_v20 V

/-- The fifth lays it as a row. -/
theorem after14_v21 (V : Valuation τ sig (Elt F)) :
    after (hostOps1_4 (F := F)) V (Proc.devRef .tc main_v21)
      = shapeCast S1x6400000 (V (Proc.devRef .tc main_v20)) shapeCasts_S6400000_S1x6400000 := by
  simp only [hostOps1_4]
  after_results
  all_goals rfl

end Composed

/-! ## The composed terms at an index, over the extended reals -/

/-- Particle n's density is the sum of the weights of the edges that start at n. -/
theorem rhoOf_apply (idx : IVec S6400000 32) (hni : ∀ e, (idx e).toNat < 100000) (v7 : FVec Ideal S1x6400000 .f32)
    (n : Fin 100000) :
    rhoOf (F := Ideal) idx v7 (ix1 n)
      = ∑ e : Fin 6400000, if Sph.nodeOf idx hni e = n then (v7 (ix2 (0 : Fin 1) e) : EReal) else 0 := by
  unfold rhoOf
  rw [LibHostIdx.segsum_apply scatter_S100000_S6400000x1_S6400000_n_0_0_1 rfl rfl rfl rfl bcast_S_S100000
    bcast_S6400000_S6400000x1_0 idx (Sph.nodeOf idx hni) (Sph.toInt_nodeOf idx hni)]
  refine Finset.sum_congr rfl fun e _ => ?_
  rw [shapeCast_1a_a_apply]

/-- The pressure at a particle is the specification's, of the density there. -/
theorem presOf_apply (rho : FVec Ideal S100000 .f32) (n : Fin 100000) :
    presOf (F := Ideal) rho (ix1 n) = Sph.presC (rho (ix1 n)) + Sph.w0 := rfl

/-- Where every endpoint word is a particle number, the take reads the vector at that particle. -/
theorem takeOf_apply (x : FVec Ideal S100000 .f32) (w : IVec S6400000 32) (hw : ∀ e, (w e).toNat < 100000)
    (e : Fin 6400000) : takeOf (F := Ideal) x w (ix1 e) = x (ix1 (Sph.nodeOf w hw e)) := by
  unfold takeOf
  exact LibHostIdx.take_apply gather_S100000_S6400000x1_S6400000_n_0_n_n_0_1_1 rfl rfl rfl rfl
    bcast_S_S6400000 bcast_S6400000_S6400000x1_0 bcast_S_S6400000x1 bcast_S1_S1x1_1 bcast_S1x1_S6400000x1_0_1
    reducesTo_S6400000x1_S6400000_d1 h_S_ x w 100000#32 99999#32 0x7FC00000#32 (by decide)
    (fun i => by
      have := hw i
      show (w i).toNat ≤ 99999
      omega)
    (Sph.nodeOf w hw) (Sph.toInt_nodeOf w hw) e

/-! ## The five stretches in a row -/

/-- The contents after the five stretches, from contents X. -/
abbrev mid (X : Valuation τ sig (Elt Ideal)) : Valuation τ sig (Elt Ideal) :=
  after hostOps1_4 (after hostOps1_3 (after hostOps1_2 (after hostOps1_1 (after hostOps1 X))))

/-- A buffer none of the five stretches writes keeps its contents. -/
theorem mid_keep (X : Valuation τ sig (Elt Ideal)) (r : Ref sig .tc)
    (h : r ∉ hostOps1_W ++ hostOps1_1_W ++ hostOps1_2_W ++ hostOps1_3_W ++ hostOps1_4_W) :
    mid X (Proc.devRef .tc r) = X (Proc.devRef .tc r) := by
  simp only [List.mem_append, not_or] at h
  obtain ⟨⟨⟨⟨h1, h2⟩, h3⟩, h4⟩, h5⟩ := h
  exact (after_of_writes_sub hostOps1_4 _ hostOps1_4_writes h5).trans
    ((after_of_writes_sub hostOps1_3 _ hostOps1_3_writes h4).trans
      ((after_of_writes_sub hostOps1_2 _ hostOps1_2_writes h3).trans
        ((after_of_writes_sub hostOps1_1 _ hostOps1_1_writes h2).trans
          (after_of_writes_sub hostOps1 _ hostOps1_writes h1))))

/-- After the five stretches the density buffer holds the density of X's index words and weight row. -/
theorem mid_v11 (X : Valuation τ sig (Elt Ideal)) :
    mid X (Proc.devRef .tc main_v11)
      = rhoOf (F := Ideal) (X (Proc.devRef .tc main_arg2)) (X (Proc.devRef .tc main_v7)) :=
  (after_of_writes_sub hostOps1_4 _ hostOps1_4_writes (by decide)).trans
    ((after_of_writes_sub hostOps1_3 _ hostOps1_3_writes (by decide)).trans
      ((after_of_writes_sub hostOps1_2 _ hostOps1_2_writes (by decide)).trans
        ((after_of_writes_sub hostOps1_1 _ hostOps1_1_writes (by decide)).trans (after1_v11 X))))

/-- The pressure buffer holds the pressure of that density. -/
theorem mid_v17 (X : Valuation τ sig (Elt Ideal)) :
    mid X (Proc.devRef .tc main_v17)
      = presOf (F := Ideal) (rhoOf (F := Ideal) (X (Proc.devRef .tc main_arg2)) (X (Proc.devRef .tc main_v7))) :=
  (after_of_writes_sub hostOps1_4 _ hostOps1_4_writes (by decide)).trans
    ((after_of_writes_sub hostOps1_3 _ hostOps1_3_writes (by decide)).trans
      ((after_of_writes_sub hostOps1_2 _ hostOps1_2_writes (by decide)).trans
        ((after_of_writes_sub hostOps1_1 _ hostOps1_1_writes (by decide)).trans (after1_v17 X))))

/-- The first row of takes holds the density taken at the first endpoints. -/
theorem mid_v19 (X : Valuation τ sig (Elt Ideal)) :
    mid X (Proc.devRef .tc main_v19)
      = shapeCast S1x6400000
          (takeOf (F := Ideal) (rhoOf (F := Ideal) (X (Proc.devRef .tc main_arg2)) (X (Proc.devRef .tc main_v7)))
            (X (Proc.devRef .tc main_arg2)))
          shapeCasts_S6400000_S1x6400000 := by
  unfold mid
  rw [after_of_writes_sub hostOps1_4 _ hostOps1_4_writes (show main_v19 ∉ hostOps1_4_W by decide),
    after_of_writes_sub hostOps1_3 _ hostOps1_3_writes (show main_v19 ∉ hostOps1_3_W by decide),
    after12_v19, after11_v18, after1_v11,
    after_of_writes_sub hostOps1 _ hostOps1_writes (show main_arg2 ∉ hostOps1_W by decide)]

/-- The second row of takes holds the density taken at the second endpoints. -/
theorem mid_v21 (X : Valuation τ sig (Elt Ideal)) :
    mid X (Proc.devRef .tc main_v21)
      = shapeCast S1x6400000
          (takeOf (F := Ideal) (rhoOf (F := Ideal) (X (Proc.devRef .tc main_arg2)) (X (Proc.devRef .tc main_v7)))
            (X (Proc.devRef .tc main_arg3)))
          shapeCasts_S6400000_S1x6400000 := by
  unfold mid
  rw [after14_v21, after13_v20,
    after_of_writes_sub hostOps1_2 _ hostOps1_2_writes (show main_v11 ∉ hostOps1_2_W by decide),
    after_of_writes_sub hostOps1_1 _ hostOps1_1_writes (show main_v11 ∉ hostOps1_1_W by decide),
    after1_v11,
    after_of_writes_sub hostOps1_2 _ hostOps1_2_writes (show main_arg3 ∉ hostOps1_2_W by decide),
    after_of_writes_sub hostOps1_1 _ hostOps1_1_writes (show main_arg3 ∉ hostOps1_1_W by decide),
    after_of_writes_sub hostOps1 _ hostOps1_writes (show main_arg3 ∉ hostOps1_W by decide)]

/-! ## The five stretches read at an index -/

/-- Particle n's density after the five stretches: the sum of the weights of the edges that start at n. -/
theorem rho_apply (X : Valuation τ sig (Elt Ideal))
    (hni : ∀ e, ((X (Proc.devRef .tc main_arg2) : IVec S6400000 32) e).toNat < 100000) (n : Fin 100000) :
    ((mid X (Proc.devRef .tc main_v11) : S100000.Idx → EReal)) (ix1 n)
      = (∑ e : Fin 6400000, (if Sph.nodeOf (X (Proc.devRef .tc main_arg2)) hni e = n
          then ((X (Proc.devRef .tc main_v7) : S1x6400000.Idx → EReal)) (ix2 (0 : Fin 1) e) else 0 : EReal) : EReal) := by
  rw [mid_v11]
  exact rhoOf_apply _ hni _ n

/-- Particle n's pressure after the five stretches: the specification's pressure of its density, plus the zero word. -/
theorem pres_apply (X : Valuation τ sig (Elt Ideal)) (n : Fin 100000) :
    ((mid X (Proc.devRef .tc main_v17) : S100000.Idx → EReal)) (ix1 n)
      = Sph.presC ((mid X (Proc.devRef .tc main_v11) : S100000.Idx → EReal) (ix1 n)) + Sph.w0 := by
  rw [mid_v17, mid_v11]
  exact presOf_apply _ n

/-- The first row of takes at edge e: the density at the edge's first endpoint. -/
theorem rho_i_apply (X : Valuation τ sig (Elt Ideal))
    (hni : ∀ e, ((X (Proc.devRef .tc main_arg2) : IVec S6400000 32) e).toNat < 100000) (e : Fin 6400000) :
    ((mid X (Proc.devRef .tc main_v19) : S1x6400000.Idx → EReal)) (ix2 (0 : Fin 1) e)
      = (mid X (Proc.devRef .tc main_v11) : S100000.Idx → EReal)
          (ix1 (Sph.nodeOf (X (Proc.devRef .tc main_arg2)) hni e)) := by
  rw [mid_v19, mid_v11, shapeCast_a_1a_apply, takeOf_apply _ _ hni]

/-- The second row of takes at edge e: the density at the edge's second endpoint. -/
theorem rho_j_apply (X : Valuation τ sig (Elt Ideal))
    (hnj : ∀ e, ((X (Proc.devRef .tc main_arg3) : IVec S6400000 32) e).toNat < 100000) (e : Fin 6400000) :
    ((mid X (Proc.devRef .tc main_v21) : S1x6400000.Idx → EReal)) (ix2 (0 : Fin 1) e)
      = (mid X (Proc.devRef .tc main_v11) : S100000.Idx → EReal)
          (ix1 (Sph.nodeOf (X (Proc.devRef .tc main_arg3)) hnj e)) := by
  rw [mid_v21, mid_v11, shapeCast_a_1a_apply, takeOf_apply _ _ hnj]

end Cert.KernelIdeal.HostValue

end
-- ==== Proof.KernelOutputHost.lean ====
/-
  The last host stretch, read at an index over the extended reals, from ANY contents X at its start.

  For k = 0, 1, 2 the stretch cuts row k out of the acceleration kernel's [3 × E] table, lays it as a vector and sums
  it, per edge's first endpoint, into a zero vector of the particles; the three sums stand as columns 0, 1, 2 of the
  result, columns 3, 4, 5 are zeros, column 6 is the density vector and column 7 the pressure vector, both as they
  stand in X.

  The stretch is first read whole, for any float values: the result buffer holds the stretch's operations composed,
  applied to what the four buffers it reads held. Then the composed term is read at an index at the extended reals.
-/
import proofs.«429571_j62895501083203_3_alg».proof.Proof.Gen.KernelIdeal.Launch
import proofs.«429571_j62895501083203_3_alg».proof.Proof.Gen.KernelIdeal.Regions
import proofs.«429571_j62895501083203_3_alg».proof.Proof.Sph
import proofs.«429571_j62895501083203_3_alg».proof.Proof.LibIndexed
import proofs.«429571_j62895501083203_3_alg».proof.Proof.LibHostIdx
import Idealize.ShloMosaic.Lib.StableHlo.Run
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.Proof

/-! ## The stretch's operations composed, for any float values -/

section Composed
variable {F : FTy → Type} [FloatOps F]

/-- A [1 × E] row of per-edge values as a vector, summed per first endpoint into zeros. -/
def segOf (idx : IVec S6400000 32) (row : FVec F S1x6400000 .f32) : FVec F S100000 .f32 :=
  Host.scatterAdd scatter_S100000_S6400000x1_S6400000_n_0_0_1
    (broadcastInDim S100000 ![] bcast_S_S100000 (constant (F := F) S_ .f32 0x00000000#32))
    (broadcastInDim S6400000x1 ![0] bcast_S6400000_S6400000x1_0 idx)
    (shapeCast S6400000 row shapeCasts_S1x6400000_S6400000)

/-- The result table: the three per-row sums, three zero columns, the density and the pressure. -/
def outOf (idx : IVec S6400000 32) (v22 : FVec F S3x6400000 .f32) (v11 v17 : FVec F S100000 .f32) :
    FVec F S100000x8 .f32 :=
  concatenate S100000x8 1
    [⟨S100000x3, concatenate S100000x3 1
        [⟨S100000x1, broadcastInDim S100000x1 ![0] bcast_S100000_S100000x1_0
            (segOf idx (extractStridedSlice S1x6400000 ![0, 0] v22 slices_S3x6400000_S1x6400000_0_0))⟩,
         ⟨S100000x1, broadcastInDim S100000x1 ![0] bcast_S100000_S100000x1_0
            (segOf idx (extractStridedSlice S1x6400000 ![1, 0] v22 slices_S3x6400000_S1x6400000_1_0))⟩,
         ⟨S100000x1, broadcastInDim S100000x1 ![0] bcast_S100000_S100000x1_0
            (segOf idx (extractStridedSlice S1x6400000 ![2, 0] v22 slices_S3x6400000_S1x6400000_2_0))⟩]
        concatenates_S100000x1_S100000x1_S100000x1_S100000x3_d1⟩,
     ⟨S100000x3, broadcastInDim S100000x3 ![] bcast_S_S100000x3 (constant (F := F) S_ .f32 0x00000000#32)⟩,
     ⟨S100000x1, broadcastInDim S100000x1 ![0] bcast_S100000_S100000x1_0 v11⟩,
     ⟨S100000x1, broadcastInDim S100000x1 ![0] bcast_S100000_S100000x1_0 v17⟩]
    concatenates_S100000x3_S100000x3_S100000x1_S100000x1_S100000x8_d1

attribute [local irreducible] Host.scatterAdd concatenate extractStridedSlice in
set_option maxHeartbeats 1000000 in
/-- The stretch leaves, in the result buffer, the result table of the four buffers it reads. -/
theorem after2_v45 (V : Valuation τ sig (Elt F)) :
    after (hostOps2 (F := F)) V (Proc.devRef .tc main_v45)
      = outOf (V (Proc.devRef .tc main_arg2)) (V (Proc.devRef .tc main_v22)) (V (Proc.devRef .tc main_v11))
          (V (Proc.devRef .tc main_v17)) := by
  simp only [after_cons, after_nil]
  rfl

end Composed

/-! ## The composed term at an index, over the extended reals -/

/-- Row o of the table summed per first endpoint: particle n's entry is the sum, over the edges that start at n, of
    the edge's entry in row o. -/
theorem segOf_row_apply (idx : IVec S6400000 32) (hni : ∀ e, (idx e).toNat < 100000)
    (v22 : FVec Ideal S3x6400000 .f32) (n : Fin 100000) (o : Nat) (ho : o < 3)
    (hs : S3x6400000.Slices ![o, 0] S1x6400000) :
    segOf (F := Ideal) idx (extractStridedSlice S1x6400000 ![o, 0] v22 hs) (ix1 n)
      = ∑ e : Fin 6400000, if Sph.nodeOf idx hni e = n then (v22 (ix2 (⟨o, ho⟩ : Fin 3) e) : EReal) else 0 := by
  unfold segOf
  rw [LibHostIdx.segsum_apply scatter_S100000_S6400000x1_S6400000_n_0_0_1 rfl rfl rfl rfl bcast_S_S100000
    bcast_S6400000_S6400000x1_0 idx (Sph.nodeOf idx hni) (Sph.toInt_nodeOf idx hni)]
  refine Finset.sum_congr rfl fun e _ => ?_
  rw [shapeCast_1a_a_apply, LibHostIdx.slice_row_apply o ho]

/-- The result table at (n, k) for k = 0, 1, 2: the sum, over the edges that start at n, of the edge's entry in row k. -/
theorem outOf_lo (idx : IVec S6400000 32) (hni : ∀ e, (idx e).toNat < 100000) (v22 : FVec Ideal S3x6400000 .f32)
    (v11 v17 : FVec Ideal S100000 .f32) (n : Fin 100000) (k : Fin 3) :
    outOf (F := Ideal) idx v22 v11 v17 (ix2 n (⟨k.val, by omega⟩ : Fin 8))
      = ∑ e : Fin 6400000, if Sph.nodeOf idx hni e = n then (v22 (ix2 k e) : EReal) else 0 := by
  unfold outOf
  rw [LibHostIdx.concat8_lo]
  match k with
  | ⟨0, _⟩ =>
    rw [LibHostIdx.concat3_col0, LibHostIdx.bcast_col_apply]
    exact segOf_row_apply idx hni v22 n 0 (by omega) _
  | ⟨1, _⟩ =>
    rw [LibHostIdx.concat3_col1, LibHostIdx.bcast_col_apply]
    exact segOf_row_apply idx hni v22 n 1 (by omega) _
  | ⟨2, _⟩ =>
    rw [LibHostIdx.concat3_col2, LibHostIdx.bcast_col_apply]
    exact segOf_row_apply idx hni v22 n 2 (by omega) _

/-- The result table at (n, col). -/
theorem outOf_apply (idx : IVec S6400000 32) (hni : ∀ e, (idx e).toNat < 100000) (v22 : FVec Ideal S3x6400000 .f32)
    (v11 v17 : FVec Ideal S100000 .f32) (n : Fin 100000) (col : Fin 8) :
    outOf (F := Ideal) idx v22 v11 v17 (ix2 n col)
      = if h : col.val < 3 then
          ∑ e : Fin 6400000, if Sph.nodeOf idx hni e = n then (v22 (ix2 (⟨col.val, h⟩ : Fin 3) e) : EReal) else 0
        else if col.val < 6 then 0
        else if col.val = 6 then (v11 (ix1 n) : EReal)
        else (v17 (ix1 n) : EReal) := by
  by_cases h3 : col.val < 3
  · rw [dif_pos h3]
    exact outOf_lo idx hni v22 v11 v17 n ⟨col.val, h3⟩
  · rw [dif_neg h3]
    by_cases h6 : col.val < 6
    · rw [if_pos h6]
      obtain ⟨k, rfl⟩ : ∃ k : Fin 3,
          col = (⟨k.val + 3, Nat.lt_of_lt_of_le (Nat.add_lt_add_right k.isLt 3) (by decide)⟩ : Fin 8) :=
        ⟨⟨col.val - 3, by omega⟩, Fin.ext (by show col.val = col.val - 3 + 3; omega)⟩
      unfold outOf
      rw [LibHostIdx.concat8_mid]
      exact Ideal.ofBits_zero_f32
    · rw [if_neg h6]
      by_cases h66 : col.val = 6
      · rw [if_pos h66]
        obtain rfl : col = (⟨6, by decide⟩ : Fin 8) := Fin.ext h66
        unfold outOf
        rw [LibHostIdx.concat8_six, LibHostIdx.bcast_col_apply]
      · rw [if_neg h66]
        obtain rfl : col = (⟨7, by decide⟩ : Fin 8) := Fin.ext (by have := col.isLt; show col.val = 7; omega)
        unfold outOf
        rw [LibHostIdx.concat8_seven, LibHostIdx.bcast_col_apply]

/-! ## The last stretch read at an index -/

/-- The contents after the last stretch, from contents X. -/
abbrev fin (X : Valuation τ sig (Elt Ideal)) : Valuation τ sig (Elt Ideal) := after hostOps2 X

/-- The result buffer after the last stretch, at (n, col). -/
theorem out_apply (X : Valuation τ sig (Elt Ideal))
    (hni : ∀ e, ((X (Proc.devRef .tc main_arg2) : IVec S6400000 32) e).toNat < 100000) (n : Fin 100000) (col : Fin 8) :
    ((fin X (Proc.devRef .tc main_v45) : S100000x8.Idx → EReal)) (ix2 n col)
      = (if h : col.val < 3 then
          ∑ e : Fin 6400000, (if Sph.nodeOf (X (Proc.devRef .tc main_arg2)) hni e = n
            then ((X (Proc.devRef .tc main_v22) : S3x6400000.Idx → EReal)) (ix2 (⟨col.val, h⟩ : Fin 3) e) else 0 : EReal)
        else if col.val < 6 then 0
        else if col.val = 6 then (X (Proc.devRef .tc main_v11) : S100000.Idx → EReal) (ix1 n)
        else (X (Proc.devRef .tc main_v17) : S100000.Idx → EReal) (ix1 n) : EReal) := by
  rw [show fin X (Proc.devRef .tc main_v45)
      = outOf (F := Ideal) (X (Proc.devRef .tc main_arg2)) (X (Proc.devRef .tc main_v22))
          (X (Proc.devRef .tc main_v11)) (X (Proc.devRef .tc main_v17)) from after2_v45 X]
  exact outOf_apply _ hni _ _ _ n col

end Cert.KernelIdeal.HostValue

end
-- ==== Proof.KernelValue.lean ====
/-
  THE CHAIN: the kernel program's result, read off the run's named buffer contents stage by stage.

  The run names the TensorCore's buffer contents at every boundary between two items of the program. Going
  forward through them: when the density kernel is entered, the two gathered arrays hold at (t, e) row t of the column
  of edge e's first and second endpoint; the density kernel leaves at e the spline weight of those two columns; the
  stretch between the kernels sums the weights per first endpoint into the density of every particle, takes its
  pressure, and gathers the densities at both endpoints of every edge; the acceleration kernel leaves at (k, e)
  component k of edge e's acceleration, of the two endpoint columns and the two endpoint densities; the last stretch
  sums those per first endpoint and lays the three sums, three zeros, the density and the pressure side by side. At
  every index this is the specification's row. Buffers an item does not write are carried across it unchanged, the
  two index arrays among them, so that every stage reads the same endpoint maps.
-/
import proofs.«429571_j62895501083203_3_alg».proof.Proof.KernelRun
import proofs.«429571_j62895501083203_3_alg».proof.Proof.DensityValue
import proofs.«429571_j62895501083203_3_alg».proof.Proof.AccelValue
import proofs.«429571_j62895501083203_3_alg».proof.Proof.KernelGatherHost
import proofs.«429571_j62895501083203_3_alg».proof.Proof.KernelDensityHost
import proofs.«429571_j62895501083203_3_alg».proof.Proof.KernelOutputHost
import proofs.«429571_j62895501083203_3_alg».proof.Proof.Sph
import Idealize.ShloMosaic.Lib.ValueIdx

noncomputable section

namespace Cert.KernelIdeal.Value'

open Idealize.ShloMosaic Idealize.ShloMosaic.TcCoe Idealize.ShloMosaic.ValueIdx
open Cert.Proof

set_option quotPrecheck false in
/-- A TensorCore reference read as a device buffer. -/
local notation "⟪" r "⟫" => Proc.devRef (τ := τ) Proc.tc r

/-! ## The two kernels' output arrays read at an edge, and an endpoint map under an equality of index arrays -/

/-- The density array at edge e is the spline weight of the two gathered columns of e. -/
theorem densArr_apply (x0 x1 : (⟨2, ![6, 6400000]⟩ : Shape).Idx → EReal) (e : Fin 6400000) :
    Sph.densArr x0 x1 (ix2 (0 : Fin 1) e) = Sph.wC (fun t => x0 (ix2 t e)) (fun t => x1 (ix2 t e)) := rfl

/-- The acceleration array at component k of edge e is that component of the edge's acceleration, of the two gathered
    columns and the two gathered densities of e. -/
theorem accArr_apply (x0 x1 : (⟨2, ![6, 6400000]⟩ : Shape).Idx → EReal)
    (x2 x3 : (⟨2, ![1, 6400000]⟩ : Shape).Idx → EReal) (k : Fin 3) (e : Fin 6400000) :
    Sph.accArr x0 x1 x2 x3 (ix2 k e)
      = Sph.aC (fun t => x0 (ix2 t e)) (fun t => x1 (ix2 t e)) (x2 (ix2 (0 : Fin 1) e)) (x3 (ix2 (0 : Fin 1) e)) k := rfl

/-- Equal index arrays have the same endpoint map, whatever the two range facts. -/
theorem nodeOf_congr {i i' : IVec (⟨1, ![6400000]⟩ : Shape) 32} (h : i = i')
    (hi : ∀ e, (i e).toNat < 100000) (hi' : ∀ e, (i' e).toNat < 100000) : Sph.nodeOf i hi = Sph.nodeOf i' hi' := by
  subst h; rfl

/-- The result array at row n, column k is the specification's row n at k. -/
theorem result_apply (a0 : (⟨3, ![100000, 3, 5]⟩ : Shape).Idx → EReal) (a1 : (⟨2, ![100000, 3]⟩ : Shape).Idx → EReal)
    (i j : IVec (⟨1, ![6400000]⟩ : Shape) 32) (hi : ∀ e, (i e).toNat < 100000) (hj : ∀ e, (j e).toNat < 100000)
    (n : Fin 100000) (k : Fin 8) :
    Sph.result a0 a1 i j hi hj (ix2 n k) = Sph.row (Sph.colOf a0 a1) (Sph.nodeOf i hi) (Sph.nodeOf j hj) n k := rfl

section Chain

variable (m : (ℓ : Loc nD τ sig) → Buf (Elt Ideal) ℓ) (c : Dev nD)
  (hni : ∀ e, ((m ((c : Thread nD τ).loc main_arg2) : IVec S6400000 32) e).toNat < 100000)
  (hnj : ∀ e, ((m ((c : Thread nD τ).loc main_arg3) : IVec S6400000 32) e).toNat < 100000)

set_option quotPrecheck false in
/-- The particles' columns, of the two float inputs. -/
local notation "Col" => Sph.colOf (m ((c : Thread nD τ).loc main_arg0)) (m ((c : Thread nD τ).loc main_arg1))
set_option quotPrecheck false in
/-- Each edge's first endpoint. -/
local notation "Ni" => Sph.nodeOf (m ((c : Thread nD τ).loc main_arg2)) hni
set_option quotPrecheck false in
/-- Each edge's second endpoint. -/
local notation "Nj" => Sph.nodeOf (m ((c : Thread nD τ).loc main_arg3)) hnj

/-! ## The buffers the chain reads, each at the boundary where it is read, as arrays of extended reals and of words -/

/-- The first gathered array, where the density kernel is entered. -/
abbrev G5 : S6x6400000.Idx → EReal := Run.W3 (F := Ideal) m c ⟪main_v5⟫
/-- The second gathered array, where the density kernel is entered. -/
abbrev G6 : S6x6400000.Idx → EReal := Run.W3 (F := Ideal) m c ⟪main_v6⟫
/-- The density kernel's output array, where it returns. -/
abbrev D7 : S1x6400000.Idx → EReal := Run.W4 (F := Ideal) m c ⟪main_v7⟫
/-- The first index array, where the density kernel returns. -/
abbrev I4 : IVec S6400000 32 := Run.W4 (F := Ideal) m c ⟪main_arg2⟫
/-- The second index array, where the density kernel returns. -/
abbrev J4 : IVec S6400000 32 := Run.W4 (F := Ideal) m c ⟪main_arg3⟫
/-- The two gathered arrays, where the acceleration kernel is entered. -/
abbrev H5 : S6x6400000.Idx → EReal := Run.W9 (F := Ideal) m c ⟪main_v5⟫
abbrev H6 : S6x6400000.Idx → EReal := Run.W9 (F := Ideal) m c ⟪main_v6⟫
/-- The density vector, where the acceleration kernel is entered. -/
abbrev R11 : S100000.Idx → EReal := Run.W9 (F := Ideal) m c ⟪main_v11⟫
/-- The pressure vector, where the acceleration kernel is entered. -/
abbrev P17 : S100000.Idx → EReal := Run.W9 (F := Ideal) m c ⟪main_v17⟫
/-- The two gathered density arrays, where the acceleration kernel is entered. -/
abbrev R19 : S1x6400000.Idx → EReal := Run.W9 (F := Ideal) m c ⟪main_v19⟫
abbrev R21 : S1x6400000.Idx → EReal := Run.W9 (F := Ideal) m c ⟪main_v21⟫
/-- The acceleration kernel's output array, where it returns. -/
abbrev A22 : S3x6400000.Idx → EReal := Run.W10 (F := Ideal) m c ⟪main_v22⟫
/-- The first index array, the density vector and the pressure vector, where the acceleration kernel returns. -/
abbrev I10 : IVec S6400000 32 := Run.W10 (F := Ideal) m c ⟪main_arg2⟫
abbrev R11' : S100000.Idx → EReal := Run.W10 (F := Ideal) m c ⟪main_v11⟫
abbrev P17' : S100000.Idx → EReal := Run.W10 (F := Ideal) m c ⟪main_v17⟫
/-- The result array, at the return. -/
abbrev Out : S100000x8.Idx → EReal := Run.W11 (F := Ideal) m c ⟪main_v45⟫

/-! ## Stage 1: the gathered columns, when the density kernel is entered -/

/-- Row t of edge e in the first gathered array is row t of the column of e's first endpoint. -/
theorem G5_apply (t : Fin 6) (e : Fin 6400000) : G5 m c (ix2 t e) = Col (Ni e) t :=
  HostValue.rv_i_apply (Run.W0 (F := Ideal) m c) hni t e

/-- Row t of edge e in the second gathered array is row t of the column of e's second endpoint. -/
theorem G6_apply (t : Fin 6) (e : Fin 6400000) : G6 m c (ix2 t e) = Col (Nj e) t :=
  HostValue.rv_j_apply (Run.W0 (F := Ideal) m c) hnj t e

/-- No operation before the density kernel writes the first index array. -/
theorem W3_arg2 : Run.W3 (F := Ideal) m c ⟪main_arg2⟫ = m ((c : Thread nD τ).loc main_arg2) :=
  (Run.W3_of (F := Ideal) m c main_arg2 (by decide)).trans
    ((Run.W2_of (F := Ideal) m c main_arg2 (by decide)).trans (Run.W1_of (F := Ideal) m c main_arg2 (by decide)))

/-- No operation before the density kernel writes the second index array. -/
theorem W3_arg3 : Run.W3 (F := Ideal) m c ⟪main_arg3⟫ = m ((c : Thread nD τ).loc main_arg3) :=
  (Run.W3_of (F := Ideal) m c main_arg3 (by decide)).trans
    ((Run.W2_of (F := Ideal) m c main_arg3 (by decide)).trans (Run.W1_of (F := Ideal) m c main_arg3 (by decide)))

/-! ## Stage 2: when the density kernel returns -/

/-- The density kernel reads its first input array and leaves it. -/
theorem W4_v5 : Run.W4 (F := Ideal) m c ⟪main_v5⟫ = Run.W3 (F := Ideal) m c ⟪main_v5⟫ :=
  (Run.W4_arr (F := Ideal) m c 0).trans
    (((Density.dat (F := Ideal) (Run.E3 (F := Ideal) m) c).arrAt_in 0 rfl _).trans
      (Density.A_eq (F := Ideal) (Run.E3 (F := Ideal) m) c 0))

/-- The density kernel reads its second input array and leaves it. -/
theorem W4_v6 : Run.W4 (F := Ideal) m c ⟪main_v6⟫ = Run.W3 (F := Ideal) m c ⟪main_v6⟫ :=
  (Run.W4_arr (F := Ideal) m c 1).trans
    (((Density.dat (F := Ideal) (Run.E3 (F := Ideal) m) c).arrAt_in 1 rfl _).trans
      (Density.A_eq (F := Ideal) (Run.E3 (F := Ideal) m) c 1))

/-- The density kernel's output array, of the two gathered arrays. -/
theorem D7_eq : D7 m c = Sph.densArr (G5 m c) (G6 m c) :=
  (Run.W4_arr (F := Ideal) m c 2).trans (DensityValue.arrAt_out (Run.E3 (F := Ideal) m) c)

/-- The density kernel does not touch the first index array. -/
theorem I4_eq : I4 m c = m ((c : Thread nD τ).loc main_arg2) :=
  (Run.W4_of_ne (F := Ideal) m c main_arg2 (by decide)).trans (W3_arg2 m c)

/-- The density kernel does not touch the second index array. -/
theorem J4_eq : J4 m c = m ((c : Thread nD τ).loc main_arg3) :=
  (Run.W4_of_ne (F := Ideal) m c main_arg3 (by decide)).trans (W3_arg3 m c)

include hni in
/-- The first index array's range fact, where the density kernel returns. -/
theorem hni4 : ∀ e, (I4 m c e).toNat < 100000 := by
  intro e; rw [I4_eq m c]; exact hni e

include hnj in
/-- The second index array's range fact, where the density kernel returns. -/
theorem hnj4 : ∀ e, (J4 m c e).toNat < 100000 := by
  intro e; rw [J4_eq m c]; exact hnj e

/-- The density kernel's output at edge e is the spline weight of e's two endpoint columns. -/
theorem D7_apply (e : Fin 6400000) : D7 m c (ix2 (0 : Fin 1) e) = Sph.wC (Col (Ni e)) (Col (Nj e)) := by
  have h5 : (fun t : Fin 6 => G5 m c (ix2 t e)) = Col (Ni e) := funext fun t => G5_apply m c hni t e
  have h6 : (fun t : Fin 6 => G6 m c (ix2 t e)) = Col (Nj e) := funext fun t => G6_apply m c hnj t e
  rw [D7_eq m c, densArr_apply, h5, h6]

/-! ## Stage 3: the densities, when the acceleration kernel is entered -/

/-- Particle n's entry of the density vector is the specification's density of n. -/
theorem R11_apply (n : Fin 100000) : R11 m c (ix1 n) = Sph.rho Col Ni Nj n := by
  have h : R11 m c (ix1 n)
      = ∑ e : Fin 6400000, if Sph.nodeOf (I4 m c) (hni4 m c hni) e = n then D7 m c (ix2 (0 : Fin 1) e) else 0 :=
    HostValue.rho_apply (Run.W4 (F := Ideal) m c) (hni4 m c hni) n
  rw [h, nodeOf_congr (I4_eq m c) (hni4 m c hni) hni]
  unfold Sph.rho
  exact Finset.sum_congr rfl fun e _ => by rw [D7_apply m c hni hnj e]

/-- Particle n's entry of the pressure vector is the pressure of n's density, plus the literal 0.0. -/
theorem P17_apply (n : Fin 100000) : P17 m c (ix1 n) = Sph.presC (Sph.rho Col Ni Nj n) + Sph.w0 := by
  have h : P17 m c (ix1 n) = Sph.presC (R11 m c (ix1 n)) + Sph.w0 :=
    HostValue.pres_apply (Run.W4 (F := Ideal) m c) n
  rw [h, R11_apply m c hni hnj n]

/-- Edge e's entry of the first gathered density array is the density of e's first endpoint. -/
theorem R19_apply (e : Fin 6400000) : R19 m c (ix2 (0 : Fin 1) e) = Sph.rho Col Ni Nj (Ni e) := by
  have h : R19 m c (ix2 (0 : Fin 1) e) = R11 m c (ix1 (Sph.nodeOf (I4 m c) (hni4 m c hni) e)) :=
    HostValue.rho_i_apply (Run.W4 (F := Ideal) m c) (hni4 m c hni) e
  rw [h, nodeOf_congr (I4_eq m c) (hni4 m c hni) hni, R11_apply m c hni hnj]

/-- Edge e's entry of the second gathered density array is the density of e's second endpoint. -/
theorem R21_apply (e : Fin 6400000) : R21 m c (ix2 (0 : Fin 1) e) = Sph.rho Col Ni Nj (Nj e) := by
  have h : R21 m c (ix2 (0 : Fin 1) e) = R11 m c (ix1 (Sph.nodeOf (J4 m c) (hnj4 m c hnj) e)) :=
    HostValue.rho_j_apply (Run.W4 (F := Ideal) m c) (hnj4 m c hnj) e
  rw [h, nodeOf_congr (J4_eq m c) (hnj4 m c hnj) hnj, R11_apply m c hni hnj]

/-- A buffer none of the five stretches between the two kernels writes is carried across them. -/
theorem W9_of_W4 (r : Ref sig .tc) (h5 : r ∉ Gen.hostOps1_W) (h6 : r ∉ Gen.hostOps1_1_W) (h7 : r ∉ Gen.hostOps1_2_W)
    (h8 : r ∉ Gen.hostOps1_3_W) (h9 : r ∉ Gen.hostOps1_4_W) :
    Run.W9 (F := Ideal) m c ⟪r⟫ = Run.W4 (F := Ideal) m c ⟪r⟫ :=
  (Run.W9_of (F := Ideal) m c r h9).trans ((Run.W8_of (F := Ideal) m c r h8).trans ((Run.W7_of (F := Ideal) m c r h7).trans
    ((Run.W6_of (F := Ideal) m c r h6).trans (Run.W5_of (F := Ideal) m c r h5))))

/-- No operation between the two kernels writes the first gathered array. -/
theorem H5_eq : H5 m c = G5 m c :=
  (W9_of_W4 m c main_v5 (by decide) (by decide) (by decide) (by decide) (by decide)).trans (W4_v5 m c)

/-- No operation between the two kernels writes the second gathered array. -/
theorem H6_eq : H6 m c = G6 m c :=
  (W9_of_W4 m c main_v6 (by decide) (by decide) (by decide) (by decide) (by decide)).trans (W4_v6 m c)

/-- No operation between the two kernels writes the first index array. -/
theorem W9_arg2 : Run.W9 (F := Ideal) m c ⟪main_arg2⟫ = m ((c : Thread nD τ).loc main_arg2) :=
  (W9_of_W4 m c main_arg2 (by decide) (by decide) (by decide) (by decide) (by decide)).trans (I4_eq m c)

/-! ## Stage 4: when the acceleration kernel returns -/

/-- The acceleration kernel's output array, of the two gathered arrays and the two gathered density arrays. -/
theorem A22_eq : A22 m c = Sph.accArr (H5 m c) (H6 m c) (R19 m c) (R21 m c) :=
  (Run.W10_arr (F := Ideal) m c 4).trans (AccelValue.arrAt_out (Run.E9 (F := Ideal) m) c)

/-- The acceleration kernel's output at component k of edge e is the specification's acceleration of e at k. -/
theorem A22_apply (k : Fin 3) (e : Fin 6400000) : A22 m c (ix2 k e) = Sph.aE Col Ni Nj e k := by
  have h5 : (fun t : Fin 6 => G5 m c (ix2 t e)) = Col (Ni e) := funext fun t => G5_apply m c hni t e
  have h6 : (fun t : Fin 6 => G6 m c (ix2 t e)) = Col (Nj e) := funext fun t => G6_apply m c hnj t e
  rw [A22_eq m c, accArr_apply, H5_eq m c, H6_eq m c, h5, h6, R19_apply m c hni hnj e, R21_apply m c hni hnj e]
  rfl

/-- The acceleration kernel does not touch the density vector. -/
theorem R11'_eq : R11' m c = R11 m c :=
  Run.W10_of_ne (F := Ideal) m c main_v11 (by decide)

/-- The acceleration kernel does not touch the pressure vector. -/
theorem P17'_eq : P17' m c = P17 m c :=
  Run.W10_of_ne (F := Ideal) m c main_v17 (by decide)

/-- The acceleration kernel does not touch the first index array. -/
theorem I10_eq : I10 m c = m ((c : Thread nD τ).loc main_arg2) :=
  (Run.W10_of_ne (F := Ideal) m c main_arg2 (by decide)).trans (W9_arg2 m c)

include hni in
/-- The first index array's range fact, where the acceleration kernel returns. -/
theorem hni10 : ∀ e, (I10 m c e).toNat < 100000 := by
  intro e; rw [I10_eq m c]; exact hni e

/-! ## Stage 5: the result rows -/

/-- Row n, column k of the kernel program's result is the specification's row n at k. -/
theorem Out_apply (n : Fin 100000) (k : Fin 8) : Out m c (ix2 n k) = Sph.row Col Ni Nj n k := by
  have h : Out m c (ix2 n k)
      = if h3 : k.val < 3 then
          ∑ e : Fin 6400000, if Sph.nodeOf (I10 m c) (hni10 m c hni) e = n
            then A22 m c (ix2 (⟨k.val, h3⟩ : Fin 3) e) else 0
        else if k.val < 6 then 0
        else if k.val = 6 then R11' m c (ix1 n)
        else P17' m c (ix1 n) :=
    HostValue.out_apply (Run.W10 (F := Ideal) m c) (hni10 m c hni) n k
  rw [h, nodeOf_congr (I10_eq m c) (hni10 m c hni) hni, R11'_eq m c, P17'_eq m c, R11_apply m c hni hnj n,
    P17_apply m c hni hnj n]
  unfold Sph.row
  by_cases h3 : k.val < 3
  · rw [dif_pos h3, dif_pos h3]
    unfold Sph.dudt
    exact Finset.sum_congr rfl fun e _ => by rw [A22_apply m c hni hnj ⟨k.val, h3⟩ e]
  · rw [dif_neg h3, dif_neg h3]

end Chain

/-! ## The chain's end -/

/-- The kernel program's result buffer at the return is the specification's result of the four inputs. -/
theorem result_eq (m : (ℓ : Loc nD τ sig) → Buf (Elt Ideal) ℓ) (c : Dev nD)
    (hni : ∀ e, ((m ((c : Thread nD τ).loc main_arg2) : IVec S6400000 32) e).toNat < 100000)
    (hnj : ∀ e, ((m ((c : Thread nD τ).loc main_arg3) : IVec S6400000 32) e).toNat < 100000) :
    (Run.W11 (F := Ideal) m c (Proc.devRef .tc main_v45) : S100000x8.Idx → EReal)
      = Cert.Proof.Sph.result (m ((c : Thread nD τ).loc main_arg0)) (m ((c : Thread nD τ).loc main_arg1))
          (m ((c : Thread nD τ).loc main_arg2)) (m ((c : Thread nD τ).loc main_arg3)) hni hnj := by
  funext y
  obtain ⟨n, k, rfl⟩ : ∃ (n : Fin 100000) (k : Fin 8), y = ix2 n k := ⟨y 0, y 1, eq_ix2 y⟩
  exact (Out_apply m c hni hnj n k).trans (result_apply _ _ _ _ hni hnj n k).symm

end Cert.KernelIdeal.Value'

end
-- ==== Proof.RefDensity.lean ====
/-
  The reference program's density stretch read entry by entry, at the extended reals.

  The current positions are the last of the five stored ones. Per edge the two endpoint rows are gathered by the
  edge's endpoint words (a word below 100000 is not negative, so the wrap-around select returns it, and read signed
  it is the particle's number), their difference is the displacement, the square root of the sum of its squares the
  distance, and the clipped arms of the quintic spline give the edge's weight. A particle's density is the sum of
  the weights of the edges that start at it; its pressure is 100 · (density − 1), the divisions by 1.0 and the power
  1.0 changing nothing. The two gathered density arrays read the endpoint particles' densities.
-/
import proofs.«429571_j62895501083203_3_alg».proof.Proof.Gen.ReferenceIdeal.Run
import proofs.«429571_j62895501083203_3_alg».proof.Proof.Sph
import proofs.«429571_j62895501083203_3_alg».proof.Proof.LibIndexed
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.ValueIdx Idealize.SL.Sem
open Cert.Proof

/-! ## Reading the layout operations at an index -/

/-- A scalar float constant broadcast to any shape reads the constant's extended real everywhere. -/
private theorem d_bc (t : Shape) (h : S_.BroadcastsInDim t ![]) (b : BitVec 32) (j : t.Idx) :
    (broadcastInDim t ![] h (constant (F := Ideal) S_ .f32 b) : t.Idx → EReal) j = Ideal.ofBits .f32 b := rfl

/-- A vector over the edges laid out as a one-column table reads, at row e, the vector at e. -/
private theorem d_col {α : Type} (v : S6400000.Idx → α) (e : Fin 6400000) :
    broadcastInDim S6400000x1 ![0] bcast_S6400000_S6400000x1_0 v (ix2 e (0 : Fin 1)) = v (ix1 e) :=
  broadcastInDim_apply _ _ v (ix2 e (0 : Fin 1)) (ix1 e) (fun a => match a with | ⟨0, _⟩ => rfl)

/-- An endpoint array with the wrap-around of negative words applied, as the one-column table a gather reads. -/
private abbrev d_nrm (idx : IVec S6400000 32) : IVec S6400000x1 32 :=
  broadcastInDim S6400000x1 ![0] bcast_S6400000_S6400000x1_0
    (select (cmpi .slt idx (broadcastInDim S6400000 ![] bcast_S_S6400000 (constantI S_ 32 0#32)))
      (addi idx (broadcastInDim S6400000 ![] bcast_S_S6400000 (constantI S_ 32 100000#32))) idx)

/-- A word below 100000 is not negative: the wrap-around returns it. -/
private theorem d_norm (idx : IVec S6400000 32) (h : ∀ e, (idx e).toNat < 100000) (e : Fin 6400000) :
    d_nrm idx (ix2 e (0 : Fin 1)) = idx (ix1 e) := by
  refine (d_col _ e).trans ?_
  show Scalar.select (IntOp.cmpi .slt (idx (ix1 e)) 0#32) (IntOp.addi (idx (ix1 e)) 100000#32) (idx (ix1 e)) = idx (ix1 e)
  have hlt := h (ix1 e)
  have hc : IntOp.cmpi .slt (idx (ix1 e)) 0#32 = 0#1 := by
    apply eq_zero_of_ne_one
    intro h1
    have h2 := (StableHlo.Predicate.slt_iff_toNat (a := idx (ix1 e)) (b := 0#32) (by omega) (by decide)).1 h1
    rw [show (0#32 : BitVec 32).toNat = 0 from rfl] at h2
    exact Nat.not_lt_zero _ h2
  rw [hc, select_zero]

/-- Its signed reading is the particle's number. -/
private theorem d_norm_toInt (idx : IVec S6400000 32) (h : ∀ e, (idx e).toNat < 100000) (e : Fin 6400000) :
    (d_nrm idx (ix2 e (0 : Fin 1))).toInt = ((Sph.nodeOf idx h e : Fin 100000) : ℤ) := by
  rw [d_norm idx h e]
  exact Sph.toInt_nodeOf idx h e

/-- A row gather of a particle table by an endpoint array reads the endpoint particle's row. -/
private theorem d_gatherRows (x : S100000x3.Idx → EReal) (idx : IVec S6400000 32) (h : ∀ e, (idx e).toNat < 100000)
    (e : Fin 6400000) (k : Fin 3) :
    Host.gather gather_S100000x3_S6400000x1_S6400000x3_1_0_n_n_0_1_13 x (d_nrm idx) (ix2 e k) = x (ix2 (Sph.nodeOf idx h e) k) :=
  LibIndexed.gather_rows_apply gather_S100000x3_S6400000x1_S6400000x3_1_0_n_n_0_1_13 rfl rfl rfl rfl rfl rfl rfl x (d_nrm idx) e k (Sph.nodeOf idx h e)
    (d_norm_toInt idx h e)

/-- An entry gather of a particle vector by an endpoint array reads the endpoint particle's entry. -/
private theorem d_gatherVec (x : S100000.Idx → EReal) (idx : IVec S6400000 32) (h : ∀ e, (idx e).toNat < 100000)
    (e : Fin 6400000) :
    Host.gather gather_S100000_S6400000x1_S6400000_n_0_n_n_0_1_1 x (d_nrm idx) (ix1 e) = x (ix1 (Sph.nodeOf idx h e)) :=
  LibIndexed.gather_vec_apply gather_S100000_S6400000x1_S6400000_n_0_n_n_0_1_1 rfl rfl rfl rfl x (d_nrm idx) e (Sph.nodeOf idx h e) (d_norm_toInt idx h e)

/-- The edge-table shape with its second axis dropped is the edge-vector shape. -/
private theorem d_red : S6400000x3.Reduces [1] S6400000 := by decide

/-- A sum over the three columns of an edge table, from an initial value, entry by entry. -/
private theorem d_sum3 (x : S6400000x3.Idx → EReal) (init : EReal) (e : Fin 6400000) :
    Ideal.hostReduceAdd reducesTo_S6400000x3_S6400000_d1 x init (ix1 e) = init + ∑ k : Fin 3, x (ix2 e k) := by
  rw [Ideal.hostReduceAdd_single reducesTo_S6400000x3_S6400000_d1 d_red x init (ix1 e)]
  refine congrArg (init + ·) (Finset.sum_congr rfl (fun k _ => congrArg x ?_))
  funext c
  refine Fin.ext ?_
  match c with
  | ⟨0, _⟩ => rfl
  | ⟨1, _⟩ => rfl

/-- The host's square root reads entry by entry as the extended reals' square root. -/
private theorem d_sqrt_apply (x : FVec Ideal S6400000 .f32) (j : S6400000.Idx) :
    Host.sqrt x j = Ideal.sqrt (x j) := rfl

/-- The host's sum over the columns of an edge table from a constant is the exact sum from the constant's value. -/
private theorem d_reduce_apply (x : FVec Ideal S6400000x3 .f32) (b : BitVec 32) (j : S6400000.Idx) :
    Host.reduceAdd x (constant (F := Ideal) S_ .f32 b) reducesTo_S6400000x3_S6400000_d1 h_S_ j
      = Ideal.hostReduceAdd reducesTo_S6400000x3_S6400000_d1 x (Ideal.ofBits .f32 b) j := rfl

/-- A segment sum from zeros by an endpoint array: entry n is the sum of the updates of the edges that start at n. -/
private theorem d_scatter (idx : IVec S6400000 32) (h : ∀ e, (idx e).toNat < 100000) (upd : S6400000.Idx → EReal)
    (n : Fin 100000) :
    Host.scatterAdd (F := Ideal) scatter_S100000_S6400000x1_S6400000_n_0_0_1
        (broadcastInDim S100000 ![] bcast_S_S100000 (constant (F := Ideal) S_ .f32 0x00000000#32))
        (broadcastInDim S6400000x1 ![0] bcast_S6400000_S6400000x1_0 idx) upd (ix1 n)
      = ∑ e : Fin 6400000, if Sph.nodeOf idx h e = n then upd (ix1 e) else 0 := by
  rw [LibIndexed.scatterAdd_vec_apply scatter_S100000_S6400000x1_S6400000_n_0_0_1 rfl rfl rfl rfl, d_bc, Sph.w0_add]
  refine Finset.sum_congr rfl (fun e _ => ?_)
  have hiff : ((broadcastInDim S6400000x1 ![0] bcast_S6400000_S6400000x1_0 idx : IVec S6400000x1 32)
      (ix2 e (0 : Fin 1))).toInt = (n : ℤ) ↔ Sph.nodeOf idx h e = n := by
    rw [d_col, Sph.toInt_nodeOf idx h e]
    constructor
    · intro hv
      exact Fin.ext (by omega)
    · intro hv
      rw [hv]
  by_cases hc : Sph.nodeOf idx h e = n
  · rw [if_pos hc, if_pos (hiff.2 hc)]
  · rw [if_neg hc, if_neg (fun hv => hc (hiff.1 hv))]

/-! ## Positions, displacements, distances -/

/-- The current position of particle n, component k, is the last of its five stored positions. -/
theorem v1_apply (V0 : Valuation τ sig (Elt Ideal)) (n : Fin 100000) (k : Fin 3) :
    (res_main_v1 (F := Ideal) V0 : S100000x3.Idx → EReal) (ix2 n k)
      = (V0 (Proc.devRef .tc main_arg0) : S100000x3x5.Idx → EReal) (ix3 n k (4 : Fin 5)) := by
  unfold res_main_v1
  refine (shapeCast_apply _ _ (ix2 n k) (ix3 n k (0 : Fin 1)) ?_).trans ?_
  · rw [Shape.rowMajor_val_three, Shape.rowMajor_val_two]
    show (n.val * 3 + k.val) * 1 + 0 = n.val * 3 + k.val
    omega
  · exact extractStridedSlice_apply _ _ _ (ix3 n k (0 : Fin 1)) (ix3 n k (4 : Fin 5)) (fun a => match a with
      | ⟨0, _⟩ => by show n.val = 0 + n.val; omega
      | ⟨1, _⟩ => by show k.val = 0 + k.val; omega
      | ⟨2, _⟩ => by show (4 : Nat) = 4 + 0; rfl)

/-- Edge e's displacement, component k. -/
theorem v16_apply (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) (k : Fin 3) :
    (res_main_v16 (F := Ideal) V0 : S6400000x3.Idx → EReal) (ix2 e k) = Sph.drC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e)) k := by
  unfold res_main_v16
  rw [subf_apply, d_gatherRows _ _ hni e k, d_gatherRows _ _ hnj e k, v1_apply, v1_apply]
  unfold Sph.drC
  rw [Sph.colOf_lo, Sph.colOf_lo]

/-- Edge e's length. -/
theorem v19_apply (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v19 (F := Ideal) V0 : S6400000.Idx → EReal) (ix1 e) = (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) := by
  unfold res_main_v19
  rw [d_sqrt_apply, d_reduce_apply, d_sum3, Sph.w0_add]
  unfold Sph.distC
  refine congrArg Ideal.sqrt (Finset.sum_congr rfl (fun k _ => ?_))
  rw [mulf_apply, v16_apply V0 hni hnj e k]

/-! ## The spline weight of an edge -/

/-- The length over the smoothing length 1.0. -/
private theorem d_v21 (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v21 (F := Ideal) V0 : S6400000.Idx → EReal) (ix1 e) = Ideal.div (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) Sph.w1 := by
  unfold res_main_v21
  show Ideal.div (res_main_v19 (F := Ideal) V0 (ix1 e)) Sph.w1 = _
  rw [v19_apply V0 hni hnj e]

/-- The first clipped arm. -/
private theorem d_v25 (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v25 (F := Ideal) V0 : S6400000.Idx → EReal) (ix1 e) = Sph.arm Sph.w1 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) := by
  unfold res_main_v25
  show max Sph.w0 (Sph.w1 - res_main_v21 (F := Ideal) V0 (ix1 e)) = _
  rw [d_v21 V0 hni hnj e]
  rfl

/-- The second clipped arm. -/
private theorem d_v29 (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v29 (F := Ideal) V0 : S6400000.Idx → EReal) (ix1 e) = Sph.arm Sph.w2 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) := by
  unfold res_main_v29
  show max Sph.w0 (Sph.w2 - res_main_v21 (F := Ideal) V0 (ix1 e)) = _
  rw [d_v21 V0 hni hnj e]
  rfl

/-- The third clipped arm. -/
private theorem d_v33 (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v33 (F := Ideal) V0 : S6400000.Idx → EReal) (ix1 e) = Sph.arm Sph.w3 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) := by
  unfold res_main_v33
  show max Sph.w0 (Sph.w3 - res_main_v21 (F := Ideal) V0 (ix1 e)) = _
  rw [d_v21 V0 hni hnj e]
  rfl

/-- The third arm squared. -/
private theorem d_v34 (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v34 (F := Ideal) V0 : S6400000.Idx → EReal) (ix1 e)
      = Sph.arm Sph.w3 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) * Sph.arm Sph.w3 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) := by
  unfold res_main_v34
  rw [mulf_apply, d_v33 V0 hni hnj e]

/-- The second arm squared. -/
private theorem d_v37 (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v37 (F := Ideal) V0 : S6400000.Idx → EReal) (ix1 e)
      = Sph.arm Sph.w2 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) * Sph.arm Sph.w2 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) := by
  unfold res_main_v37
  rw [mulf_apply, d_v29 V0 hni hnj e]

/-- The first arm squared. -/
private theorem d_v43 (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v43 (F := Ideal) V0 : S6400000.Idx → EReal) (ix1 e)
      = Sph.arm Sph.w1 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) * Sph.arm Sph.w1 (Sph.distC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e))) := by
  unfold res_main_v43
  rw [mulf_apply, d_v25 V0 hni hnj e]

/-- The spline's combination of three arms and their squares, read at an edge. -/
private theorem d_wker_apply (a3 q3 a2 q2 a1 q1 : S6400000.Idx → EReal) (e : Fin 6400000) :
    (mulf (F := Ideal) (φ := .f32) (broadcastInDim S6400000 ![] bcast_S_S6400000 (constant (F := Ideal) S_ .f32 0x3B2E52E9#32)) (addf (F := Ideal) (φ := .f32) (subf (F := Ideal) (φ := .f32) (mulf (F := Ideal) (φ := .f32) a3 (mulf (F := Ideal) (φ := .f32) q3 q3)) (mulf (F := Ideal) (φ := .f32) (broadcastInDim S6400000 ![] bcast_S_S6400000 (constant (F := Ideal) S_ .f32 0x40C00000#32)) (mulf (F := Ideal) (φ := .f32) a2 (mulf (F := Ideal) (φ := .f32) q2 q2)))) (mulf (F := Ideal) (φ := .f32) (broadcastInDim S6400000 ![] bcast_S_S6400000 (constant (F := Ideal) S_ .f32 0x41700000#32)) (mulf (F := Ideal) (φ := .f32) a1 (mulf (F := Ideal) (φ := .f32) q1 q1)))) : S6400000.Idx → EReal) (ix1 e)
      = Sph.wSig * (((a3 (ix1 e) * (q3 (ix1 e) * q3 (ix1 e))) - Sph.w6 * (a2 (ix1 e) * (q2 (ix1 e) * q2 (ix1 e))))
          + Sph.w15 * (a1 (ix1 e) * (q1 (ix1 e) * q1 (ix1 e)))) := rfl

/-- The array of spline weights the density sum adds up, at edge e. -/
private theorem d_upd (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (mulf (F := Ideal) (φ := .f32) (broadcastInDim S6400000 ![] bcast_S_S6400000 (constant (F := Ideal) S_ .f32 0x3B2E52E9#32)) (addf (F := Ideal) (φ := .f32) (subf (F := Ideal) (φ := .f32) (mulf (F := Ideal) (φ := .f32) (res_main_v33 (F := Ideal) V0) (mulf (F := Ideal) (φ := .f32) (res_main_v34 (F := Ideal) V0) (res_main_v34 (F := Ideal) V0))) (mulf (F := Ideal) (φ := .f32) (broadcastInDim S6400000 ![] bcast_S_S6400000 (constant (F := Ideal) S_ .f32 0x40C00000#32)) (mulf (F := Ideal) (φ := .f32) (res_main_v29 (F := Ideal) V0) (mulf (F := Ideal) (φ := .f32) (res_main_v37 (F := Ideal) V0) (res_main_v37 (F := Ideal) V0))))) (mulf (F := Ideal) (φ := .f32) (broadcastInDim S6400000 ![] bcast_S_S6400000 (constant (F := Ideal) S_ .f32 0x41700000#32)) (mulf (F := Ideal) (φ := .f32) (res_main_v25 (F := Ideal) V0) (mulf (F := Ideal) (φ := .f32) (res_main_v43 (F := Ideal) V0) (res_main_v43 (F := Ideal) V0))))) : S6400000.Idx → EReal) (ix1 e)
      = Sph.wC ((Sph.colOf (V0 (Proc.devRef .tc main_arg0) : S100000x3x5.Idx → EReal) (V0 (Proc.devRef .tc main_arg1) : S100000x3.Idx → EReal)) ((Sph.nodeOf (V0 (Proc.devRef .tc main_arg2) : IVec S6400000 32) hni) e)) ((Sph.colOf (V0 (Proc.devRef .tc main_arg0) : S100000x3x5.Idx → EReal) (V0 (Proc.devRef .tc main_arg1) : S100000x3.Idx → EReal)) ((Sph.nodeOf (V0 (Proc.devRef .tc main_arg3) : IVec S6400000 32) hnj) e)) := by
  refine (d_wker_apply (res_main_v33 (F := Ideal) V0) (res_main_v34 (F := Ideal) V0) (res_main_v29 (F := Ideal) V0) (res_main_v37 (F := Ideal) V0) (res_main_v25 (F := Ideal) V0) (res_main_v43 (F := Ideal) V0) e).trans ?_
  rw [d_v34 V0 hni hnj e, d_v37 V0 hni hnj e, d_v43 V0 hni hnj e, d_v33 V0 hni hnj e, d_v29 V0 hni hnj e,
    d_v25 V0 hni hnj e]
  rfl

/-! ## Densities and pressures -/

/-- Particle n's density. -/
theorem v53_apply (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (n : Fin 100000) :
    (res_main_v53 (F := Ideal) V0 : S100000.Idx → EReal) (ix1 n) = Sph.rho (Sph.colOf (V0 (Proc.devRef .tc main_arg0) : S100000x3x5.Idx → EReal) (V0 (Proc.devRef .tc main_arg1) : S100000x3.Idx → EReal)) (Sph.nodeOf (V0 (Proc.devRef .tc main_arg2) : IVec S6400000 32) hni) (Sph.nodeOf (V0 (Proc.devRef .tc main_arg3) : IVec S6400000 32) hnj) n := by
  unfold res_main_v53
  rw [d_scatter _ hni]
  unfold Sph.rho
  show @Eq EReal _ _
  refine Finset.sum_congr rfl (fun e _ => ?_)
  rw [d_upd V0 hni hnj e]

/-- Particle n's pressure, plus the background pressure 0.0. -/
theorem v63_apply (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (n : Fin 100000) :
    (res_main_v63 (F := Ideal) V0 : S100000.Idx → EReal) (ix1 n) = Sph.presC (Sph.rho (Sph.colOf (V0 (Proc.devRef .tc main_arg0) : S100000x3x5.Idx → EReal) (V0 (Proc.devRef .tc main_arg1) : S100000x3.Idx → EReal)) (Sph.nodeOf (V0 (Proc.devRef .tc main_arg2) : IVec S6400000 32) hni) (Sph.nodeOf (V0 (Proc.devRef .tc main_arg3) : IVec S6400000 32) hnj) n) + Sph.w0 := by
  unfold res_main_v63
  show Sph.w100 * (Ideal.pow (Ideal.div (res_main_v53 (F := Ideal) V0 (ix1 n)) Sph.w1) Sph.w1 - Sph.w1) + Sph.w0 = _
  rw [Sph.div_w1, Sph.pow_w1, v53_apply V0 hni hnj n]
  rfl

/-- The density of edge e's first endpoint. -/
theorem v70_apply (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v70 (F := Ideal) V0 : S6400000.Idx → EReal) (ix1 e) = Sph.rho (Sph.colOf (V0 (Proc.devRef .tc main_arg0) : S100000x3x5.Idx → EReal) (V0 (Proc.devRef .tc main_arg1) : S100000x3.Idx → EReal)) (Sph.nodeOf (V0 (Proc.devRef .tc main_arg2) : IVec S6400000 32) hni) (Sph.nodeOf (V0 (Proc.devRef .tc main_arg3) : IVec S6400000 32) hnj) ((Sph.nodeOf (V0 (Proc.devRef .tc main_arg2) : IVec S6400000 32) hni) e) := by
  unfold res_main_v70
  rw [d_gatherVec _ _ hni e]
  exact v53_apply V0 hni hnj _

/-- The density of edge e's second endpoint. -/
theorem v77_apply (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (e : Fin 6400000) :
    (res_main_v77 (F := Ideal) V0 : S6400000.Idx → EReal) (ix1 e) = Sph.rho (Sph.colOf (V0 (Proc.devRef .tc main_arg0) : S100000x3x5.Idx → EReal) (V0 (Proc.devRef .tc main_arg1) : S100000x3.Idx → EReal)) (Sph.nodeOf (V0 (Proc.devRef .tc main_arg2) : IVec S6400000 32) hni) (Sph.nodeOf (V0 (Proc.devRef .tc main_arg3) : IVec S6400000 32) hnj) ((Sph.nodeOf (V0 (Proc.devRef .tc main_arg3) : IVec S6400000 32) hnj) e) := by
  unfold res_main_v77
  rw [d_gatherVec _ _ hnj e]
  exact v53_apply V0 hni hnj _

end Cert.ReferenceIdeal.RefValue

end
-- ==== Proof.RefAccel.lean ====
/-
  The reference program's acceleration pass read at one edge. The velocities it gathers for an edge's two endpoints
  are the velocity parts of the endpoints' columns. The edge's scalar factor is the volume weight of the two endpoint
  densities, 1/rho_i² + 1/rho_j², times the spline's derivative at the edge's length, over the length plus ε: every
  operand is read at the edge and the printed association is the specification's.
-/
import proofs.«429571_j62895501083203_3_alg».proof.Proof.Gen.ReferenceIdeal.Run
import proofs.«429571_j62895501083203_3_alg».proof.Proof.Sph
import proofs.«429571_j62895501083203_3_alg».proof.Proof.LibIndexed
import proofs.«429571_j62895501083203_3_alg».proof.Proof.RefDensity
import Idealize.ShloMosaic.Lib.ValueIdx
import Idealize.ShloMosaic.Lib.StableHlo.Predicate

noncomputable section

namespace Cert.ReferenceIdeal.RefValue

open Idealize.ShloMosaic Idealize.ShloMosaic.ValueIdx Idealize.SL.Sem
open Cert.ReferenceIdeal Cert.ReferenceIdeal.Gen Cert.ReferenceIdeal.Value
open Cert.Proof

local notation "COL(" V ")" => Sph.colOf (V (Proc.devRef Proc.tc main_arg0)) (V (Proc.devRef Proc.tc main_arg1))
local notation "NI(" V ", " h ")" => Sph.nodeOf (V (Proc.devRef Proc.tc main_arg2)) h
local notation "NJ(" V ", " h ")" => Sph.nodeOf (V (Proc.devRef Proc.tc main_arg3)) h

variable (V0 : Valuation τ sig (Elt Ideal))
  (hni : ∀ e, ((V0 (Proc.devRef .tc main_arg2) : IVec S6400000 32) e).toNat < 100000)
  (hnj : ∀ e, ((V0 (Proc.devRef .tc main_arg3) : IVec S6400000 32) e).toNat < 100000)

/-! ## Reading the printed operations at an index -/

/-- A vector kept as an [E × 1] column reads, at row e, the vector at e. -/
private theorem a_col1 {β : Type} (v : S6400000.Idx → β) (e : Fin 6400000) :
    broadcastInDim S6400000x1 ![0] bcast_S6400000_S6400000x1_0 v (ix2 e (0 : Fin 1)) = v (ix1 e) := by
  have h2 : (StableHlo.Predicate.ixP e : (⟨2, ![6400000, 1]⟩ : Shape).Idx) = ix2 e (0 : Fin 1) := by
    funext b; match b with | ⟨0, _⟩ => rfl | ⟨1, _⟩ => rfl
  have h1 : (ix1 e : (⟨1, ![6400000]⟩ : Shape).Idx) = Shape.Idx.ofFin e := by
    funext a; match a with | ⟨0, _⟩ => rfl
  rw [← h2, h1]
  exact StableHlo.Predicate.bcast_col1 _ v e

/-- The index word the program gathers by. A word below 100000 is not negative, so the wrap-around select keeps it,
    and its signed reading is the particle number. -/
private theorem a_word (idx : IVec S6400000 32) (h : ∀ e, (idx e).toNat < 100000) (e : Fin 6400000) :
    ((broadcastInDim S6400000x1 ![0] bcast_S6400000_S6400000x1_0
        (select (cmpi .slt idx (broadcastInDim S6400000 ![] bcast_S_S6400000 (constantI S_ 32 0#32)))
          (addi idx (broadcastInDim S6400000 ![] bcast_S_S6400000 (constantI S_ 32 100000#32))) idx)
        : IVec S6400000x1 32) (ix2 e (0 : Fin 1))).toInt
      = ((Sph.nodeOf idx h e : Fin 100000) : ℤ) := by
  rw [a_col1]
  have hlt := h (ix1 e)
  have hc : IntOp.cmpi .slt (idx (ix1 e)) 0#32 = 0#1 := by
    refine eq_zero_of_ne_one (fun h1 => ?_)
    have h0 := (StableHlo.Predicate.slt_iff_toNat (by omega) (by decide)).1 h1
    simp at h0
  show (Scalar.select (IntOp.cmpi .slt (idx (ix1 e)) 0#32) (IntOp.addi (idx (ix1 e)) 100000#32)
    (idx (ix1 e))).toInt = _
  rw [hc, select_zero]
  exact Sph.toInt_nodeOf idx h e

/-- A broadcast literal reads its word everywhere. -/
private theorem a_lit (b : BitVec 32) (j : S6400000.Idx) :
    broadcastInDim S6400000 ![] bcast_S_S6400000 (constant (F := Ideal) S_ .f32 b) j = Ideal.ofBits .f32 b := rfl

/-- The host's quotient at an index is the quotient of the entries. -/
private theorem a_divf {s : Shape} (a b : FVec Ideal s .f32) (j : s.Idx) :
    Host.divf a b j = Ideal.div (a j) (b j) := rfl

/-! ## The gathered velocities -/

/-- The gathered velocity of an edge's first endpoint is the velocity part of that endpoint's column. -/
theorem v98_apply (e : Fin 6400000) (k : Fin 3) :
    (res_main_v98 (F := Ideal) V0 : S6400000x3.Idx → EReal) (ix2 e k)
      = (COL(V0)) ((NI(V0, hni)) e) (Sph.hi k) := by
  rw [Sph.colOf_hi]
  unfold res_main_v98
  exact LibIndexed.gather_rows_apply gather_S100000x3_S6400000x1_S6400000x3_1_0_n_n_0_1_13
    rfl rfl rfl rfl rfl rfl rfl _ _ e k _ (a_word (V0 (Proc.devRef .tc main_arg2)) hni e)

/-- The gathered velocity of an edge's second endpoint is the velocity part of that endpoint's column. -/
theorem v105_apply (e : Fin 6400000) (k : Fin 3) :
    (res_main_v105 (F := Ideal) V0 : S6400000x3.Idx → EReal) (ix2 e k)
      = (COL(V0)) ((NJ(V0, hnj)) e) (Sph.hi k) := by
  rw [Sph.colOf_hi]
  unfold res_main_v105
  exact LibIndexed.gather_rows_apply gather_S100000x3_S6400000x1_S6400000x3_1_0_n_n_0_1_13
    rfl rfl rfl rfl rfl rfl rfl _ _ e k _ (a_word (V0 (Proc.devRef .tc main_arg3)) hnj e)

/-! ## The edge's scalar factor -/

-- the edge's length and a particle's density, in the specification's words
local notation "DIST(" e ")" => Sph.distC ((COL(V0)) ((NI(V0, hni)) e)) ((COL(V0)) ((NJ(V0, hnj)) e))
local notation "RHO(" n ")" => Sph.rho (COL(V0)) (NI(V0, hni)) (NJ(V0, hnj)) n

/-- The reciprocal of the first endpoint's density. -/
private theorem a_v112 (e : Fin 6400000) :
    (res_main_v112 (F := Ideal) V0 : S6400000.Idx → EReal) (ix1 e)
      = Ideal.div Sph.w1 (RHO((NI(V0, hni)) e)) := by
  unfold res_main_v112
  rw [a_divf, a_lit, v70_apply V0 hni hnj e]

/-- The reciprocal of the second endpoint's density. -/
private theorem a_v115 (e : Fin 6400000) :
    (res_main_v115 (F := Ideal) V0 : S6400000.Idx → EReal) (ix1 e)
      = Ideal.div Sph.w1 (RHO((NJ(V0, hnj)) e)) := by
  unfold res_main_v115
  rw [a_divf, a_lit, v77_apply V0 hni hnj e]

/-- The edge's length over the smoothing length 1.0. -/
private theorem a_v119 (e : Fin 6400000) :
    (res_main_v119 (F := Ideal) V0 : S6400000.Idx → EReal) (ix1 e) = Ideal.div (DIST(e)) Sph.w1 := by
  unfold res_main_v119
  rw [a_divf, a_lit, v19_apply V0 hni hnj e]

/-- The spline's arm clipped at 1. -/
private theorem a_v123 (e : Fin 6400000) :
    (res_main_v123 (F := Ideal) V0 : S6400000.Idx → EReal) (ix1 e) = Sph.arm Sph.w1 (DIST(e)) := by
  unfold res_main_v123 Sph.arm
  rw [maximumf_apply, subf_apply, a_lit, a_lit, a_v119 V0 hni hnj e]

/-- The spline's arm clipped at 2. -/
private theorem a_v127 (e : Fin 6400000) :
    (res_main_v127 (F := Ideal) V0 : S6400000.Idx → EReal) (ix1 e) = Sph.arm Sph.w2 (DIST(e)) := by
  unfold res_main_v127 Sph.arm
  rw [maximumf_apply, subf_apply, a_lit, a_lit, a_v119 V0 hni hnj e]

/-- The spline's arm clipped at 3. -/
private theorem a_v131 (e : Fin 6400000) :
    (res_main_v131 (F := Ideal) V0 : S6400000.Idx → EReal) (ix1 e) = Sph.arm Sph.w3 (DIST(e)) := by
  unfold res_main_v131 Sph.arm
  rw [maximumf_apply, subf_apply, a_lit, a_lit, a_v119 V0 hni hnj e]

/-- The square of the arm clipped at 3. -/
private theorem a_v132 (e : Fin 6400000) :
    (res_main_v132 (F := Ideal) V0 : S6400000.Idx → EReal) (ix1 e)
      = Sph.arm Sph.w3 (DIST(e)) * Sph.arm Sph.w3 (DIST(e)) := by
  unfold res_main_v132
  rw [mulf_apply, a_v131 V0 hni hnj e]

/-- The square of the arm clipped at 2. -/
private theorem a_v134 (e : Fin 6400000) :
    (res_main_v134 (F := Ideal) V0 : S6400000.Idx → EReal) (ix1 e)
      = Sph.arm Sph.w2 (DIST(e)) * Sph.arm Sph.w2 (DIST(e)) := by
  unfold res_main_v134
  rw [mulf_apply, a_v127 V0 hni hnj e]

/-- The square of the arm clipped at 1. -/
private theorem a_v139 (e : Fin 6400000) :
    (res_main_v139 (F := Ideal) V0 : S6400000.Idx → EReal) (ix1 e)
      = Sph.arm Sph.w1 (DIST(e)) * Sph.arm Sph.w1 (DIST(e)) := by
  unfold res_main_v139
  rw [mulf_apply, a_v123 V0 hni hnj e]

/-- The printed term of the scalar factor read at an index, over any operands. -/
private theorem a_shape {s : Shape} (g c6 c15 eps x112 x115 x132 x134 x139 x19 : FVec Ideal s .f32) (j : s.Idx) :
    Host.divf (mulf (addf (mulf x112 x112) (mulf x115 x115))
        (mulf g (addf (subf (mulf x132 x132) (mulf c6 (mulf x134 x134))) (mulf c15 (mulf x139 x139)))))
      (addf x19 eps) j
      = Ideal.div ((x112 j * x112 j + x115 j * x115 j)
          * (g j * ((x132 j * x132 j - c6 j * (x134 j * x134 j)) + c15 j * (x139 j * x139 j))))
        (x19 j + eps j) := rfl

/-- The edge's scalar factor: the volume weight times the spline's derivative at the length, over the length plus ε. -/
theorem v149_apply (e : Fin 6400000) :
    (res_main_v149 (F := Ideal) V0 : S6400000.Idx → EReal) (ix1 e)
      = Sph.cC ((COL(V0)) ((NI(V0, hni)) e)) ((COL(V0)) ((NJ(V0, hnj)) e))
          (RHO((NI(V0, hni)) e)) (RHO((NJ(V0, hnj)) e)) := by
  unfold res_main_v149 Sph.cC Sph.wvC Sph.gker
  refine (a_shape _ _ _ _ _ _ _ _ _ _ _).trans ?_
  rw [a_v112 V0 hni hnj e, a_v115 V0 hni hnj e, a_v132 V0 hni hnj e, a_v134 V0 hni hnj e, a_v139 V0 hni hnj e,
    v19_apply V0 hni hnj e, a_lit, a_lit, a_lit, a_lit]

end Cert.ReferenceIdeal.RefValue

end
-- ==== Proof.RefOutput.lean ====
/-
  The reference program's whole result is the specification's.

  The result is four pieces laid side by side along the columns. Columns 0-2 are a segment sum over the edges' first
  endpoints of the per-edge update c · ((−p_ij) · dr + A + η · (u_i − u_j)), where A = 0.5 · (rho_i · u_i · Σ_k (u_i − u_i)_k · dr_k
  + rho_j · u_j · Σ_k (u_j − u_j)_k · dr_k) vanishes because every velocity entry is a real number (x − x = 0 fails only at ±∞);
  what is left is the specification's edge acceleration, and the segment sum is the particle's rate of change. Columns
  3-5 are a segment sum of (c · 0.0) · dr = 0. Column 6 is the density and column 7 the pressure plus 0.0.
-/
import proofs.«429571_j62895501083203_3_alg».proof.Proof.Gen.ReferenceIdeal.Run
import proofs.«429571_j62895501083203_3_alg».proof.Proof.Sph
import proofs.«429571_j62895501083203_3_alg».proof.Proof.LibIndexed
import proofs.«429571_j62895501083203_3_alg».proof.Proof.RefDensity
import proofs.«429571_j62895501083203_3_alg».proof.Proof.RefAccel
import Idealize.ShloMosaic.PureOps.Ideal
import Idealize.ShloMosaic.PureOps.Ideal.Laws
import Idealize.ShloMosaic.PureOps.Contract
import Idealize.ShloMosaic.Lib.ValueIdx
import Idealize.ShloMosaic.Lib.StableHlo.Predicate
import Idealize.ShloMosaic.Lib.Pipeline.Value

noncomputable section

namespace Cert.ReferenceIdeal.RefValue

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo
open Cert.Proof

/-! ## Indices by coordinates, in the two spellings the library uses -/

private theorem o_ij {n m : Nat} (p : Fin n) (q : Fin m) :
    (Predicate.ij p q : (⟨2, ![n, m]⟩ : Shape).Idx) = ix2 p q := by
  funext b; match b with | ⟨0, _⟩ => rfl | ⟨1, _⟩ => rfl

private theorem o_ixP {n : Nat} (p : Fin n) :
    (Predicate.ixP p : (⟨2, ![n, 1]⟩ : Shape).Idx) = ix2 p (0 : Fin 1) := by
  funext b; match b with | ⟨0, _⟩ => rfl | ⟨1, _⟩ => rfl

private theorem o_ofFin {n : Nat} (p : Fin n) :
    (Shape.Idx.ofFin p : (⟨1, ![n]⟩ : Shape).Idx) = ix1 p := by
  funext b; match b with | ⟨0, _⟩ => rfl

/-! ## Broadcasts read at an index -/

/-- A vector kept as a column reads, at row p, the vector at p. -/
private theorem o_bcast_col1 {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [← o_ixP, Predicate.bcast_col1, o_ofFin]

/-- A column laid across the rows of a rectangle reads, at (p, q), the column at row p. -/
private theorem o_bcast_of_col {α : Type} {n m : Nat}
    (h₂ : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h₂ v (ix2 p q) = v (ix2 p (0 : Fin 1)) := by
  rw [← o_ij, Predicate.bcast_of_col, o_ixP]

/-- A broadcast scalar constant reads its word's value everywhere. -/
private theorem o_bcast_const {t : Shape} {φ : FTy} (h : (⟨0, ![]⟩ : Shape).BroadcastsInDim t ![])
    (b : BitVec φ.bits) (j : t.Idx) :
    broadcastInDim t ![] h (constant (F := Ideal) ⟨0, ![]⟩ φ b) j = Ideal.ofBits φ b := rfl

/-- A broadcast integer constant reads its word everywhere. -/
private theorem o_bcast_constI {t : Shape} {w : Nat} (h : (⟨0, ![]⟩ : Shape).BroadcastsInDim t ![])
    (b : BitVec w) (j : t.Idx) :
    broadcastInDim t ![] h (constantI ⟨0, ![]⟩ w b) j = b := rfl

/-- The host's negation at an index, on the extended reals. -/
private theorem o_hostNegf_apply {s : Shape} (x : FVec Ideal s .f32) (i : s.Idx) :
    (Host.negf x i : EReal) = -(x i : EReal) := rfl

/-- The host's division at an index, on the extended reals. -/
private theorem o_hostDivf_apply {s : Shape} (x y : FVec Ideal s .f32) (i : s.Idx) :
    (Host.divf x y i : EReal) = Ideal.div (x i) (y i) := rfl

/-- A host sum of an array that is zero everywhere, from a zero initial value, is zero. -/
private theorem o_reduceAdd_zero {s t u : Shape} {axes : List (Fin s.rank)} (x : FVec Ideal s .f32)
    (init : u.Idx → EReal) (h : s.ReducesTo axes t) (hu : 0 < u.numel) (hx : ∀ i, (x i : EReal) = 0)
    (hi : init (Shape.Idx.first hu) = 0) (j : t.Idx) :
    (Host.reduceAdd (F := Ideal) x init h hu j : EReal) = 0 := by
  unfold Host.reduceAdd
  rw [Ideal.hostReduceAdd_def]
  unfold Ideal.hostReduceAdd
  rw [hi, zero_add]
  exact Finset.sum_eq_zero (fun i _ => hx i)

/-- The first segment sum's update read at row e, column k: the scalar factor times the pressure term, the
    term that vanishes, and the viscosity term. -/
private theorem o_upd0_read {E : Nat}
    (h₁ : (⟨1, ![E]⟩ : Shape).BroadcastsInDim ⟨2, ![E, 1]⟩ ![0])
    (h₂ : (⟨2, ![E, 1]⟩ : Shape).BroadcastsInDim ⟨2, ![E, 3]⟩ ![0, 1])
    (h₀ : (⟨0, ![]⟩ : Shape).BroadcastsInDim ⟨2, ![E, 3]⟩ ![])
    (c ri rj gi gj R1 R2 : FVec Ideal ⟨1, ![E]⟩ .f32) (dr ui uj : FVec Ideal ⟨2, ![E, 3]⟩ .f32)
    (bh be : BitVec 32) (e : Fin E) (k : Fin 3) :
    (mulf (broadcastInDim ⟨2, ![E, 3]⟩ ![0, 1] h₂ (broadcastInDim ⟨2, ![E, 1]⟩ ![0] h₁ c))
      (addf (addf
        (mulf (broadcastInDim ⟨2, ![E, 3]⟩ ![0, 1] h₂ (Host.negf (broadcastInDim ⟨2, ![E, 1]⟩ ![0] h₁
          (Host.divf (addf (mulf rj gi) (mulf ri gj)) (addf ri rj))))) dr)
        (mulf (broadcastInDim ⟨2, ![E, 3]⟩ ![] h₀ (constant (F := Ideal) ⟨0, ![]⟩ .f32 bh))
          (addf
            (mulf (mulf (broadcastInDim ⟨2, ![E, 3]⟩ ![0, 1] h₂ (broadcastInDim ⟨2, ![E, 1]⟩ ![0] h₁ ri)) ui)
              (broadcastInDim ⟨2, ![E, 3]⟩ ![0, 1] h₂ (broadcastInDim ⟨2, ![E, 1]⟩ ![0] h₁ R1)))
            (mulf (mulf (broadcastInDim ⟨2, ![E, 3]⟩ ![0, 1] h₂ (broadcastInDim ⟨2, ![E, 1]⟩ ![0] h₁ rj)) uj)
              (broadcastInDim ⟨2, ![E, 3]⟩ ![0, 1] h₂ (broadcastInDim ⟨2, ![E, 1]⟩ ![0] h₁ R2))))))
        (mulf (broadcastInDim ⟨2, ![E, 3]⟩ ![] h₀ (constant (F := Ideal) ⟨0, ![]⟩ .f32 be)) (subf ui uj)))
      : FVec Ideal ⟨2, ![E, 3]⟩ .f32) (ix2 e k)
    = (c (ix1 e) : EReal) * (((-(Ideal.div (rj (ix1 e) * gi (ix1 e) + ri (ix1 e) * gj (ix1 e)) (ri (ix1 e) + rj (ix1 e))))
          * dr (ix2 e k)
        + Ideal.ofBits .f32 bh * ((ri (ix1 e) * ui (ix2 e k)) * R1 (ix1 e) + (rj (ix1 e) * uj (ix2 e k)) * R2 (ix1 e)))
        + Ideal.ofBits .f32 be * (ui (ix2 e k) - uj (ix2 e k))) := by
  simp only [mulf_apply, addf_apply, subf_apply]
  repeat rw [o_bcast_of_col]
  rw [o_hostNegf_apply]
  repeat rw [o_bcast_col1]
  rw [o_hostDivf_apply]
  simp only [mulf_apply, addf_apply]
  repeat rw [o_bcast_const]

/-- The second segment sum's update read at row e, column k. -/
private theorem o_upd1_read {E : Nat}
    (h₁ : (⟨1, ![E]⟩ : Shape).BroadcastsInDim ⟨2, ![E, 1]⟩ ![0])
    (h₂ : (⟨2, ![E, 1]⟩ : Shape).BroadcastsInDim ⟨2, ![E, 3]⟩ ![0, 1])
    (h₀ : (⟨0, ![]⟩ : Shape).BroadcastsInDim ⟨1, ![E]⟩ ![])
    (c : FVec Ideal ⟨1, ![E]⟩ .f32) (dr : FVec Ideal ⟨2, ![E, 3]⟩ .f32) (bz : BitVec 32) (e : Fin E) (k : Fin 3) :
    (mulf (broadcastInDim ⟨2, ![E, 3]⟩ ![0, 1] h₂
        (mulf (broadcastInDim ⟨2, ![E, 1]⟩ ![0] h₁ c)
          (broadcastInDim ⟨2, ![E, 1]⟩ ![0] h₁ (broadcastInDim ⟨1, ![E]⟩ ![] h₀ (constant (F := Ideal) ⟨0, ![]⟩ .f32 bz)))))
      dr : FVec Ideal ⟨2, ![E, 3]⟩ .f32) (ix2 e k)
    = ((c (ix1 e) : EReal) * Ideal.ofBits .f32 bz) * dr (ix2 e k) := by
  rw [mulf_apply, o_bcast_of_col, mulf_apply, o_bcast_col1, o_bcast_col1, o_bcast_const]

/-! ## The four-piece concatenation along the columns, read at an index -/

/-- Columns 0-2 read the first piece, 3-5 the second, 6 the third, 7 the fourth. -/
private theorem o_concat4 {N : Nat} (A B : (⟨2, ![N, 3]⟩ : Shape).Idx → EReal) (C D : (⟨2, ![N, 1]⟩ : Shape).Idx → EReal)
    (h : Shape.Concatenates [(⟨2, ![N, 3]⟩ : Shape), ⟨2, ![N, 3]⟩, ⟨2, ![N, 1]⟩, ⟨2, ![N, 1]⟩] ⟨2, ![N, 8]⟩ 1)
    (n : Fin N) (c : Fin 8) :
    concatenate ⟨2, ![N, 8]⟩ 1 [⟨⟨2, ![N, 3]⟩, A⟩, ⟨⟨2, ![N, 3]⟩, B⟩, ⟨⟨2, ![N, 1]⟩, C⟩, ⟨⟨2, ![N, 1]⟩, D⟩] h (ix2 n c)
      = if h3 : c.val < 3 then A (ix2 n (⟨c.val, h3⟩ : Fin 3))
        else if h6 : c.val < 6 then B (ix2 n (⟨c.val - 3, by omega⟩ : Fin 3))
        else if c.val = 6 then C (ix2 n (0 : Fin 1)) else D (ix2 n (0 : Fin 1)) := by
  have hc := c.isLt
  have key := concatenate_apply_piece (α := EReal) (t := ⟨2, ![N, 8]⟩) 1
    ([⟨⟨2, ![N, 3]⟩, A⟩, ⟨⟨2, ![N, 3]⟩, B⟩, ⟨⟨2, ![N, 1]⟩, C⟩, ⟨⟨2, ![N, 1]⟩, D⟩] : List ((s : Shape) × (s.Idx → EReal)))
    h (ix2 n c)
  by_cases h3 : c.val < 3
  · rw [dif_pos h3]
    refine key 0 (by simp) ⟨2, ![N, 3]⟩ A rfl rfl 0 (by first | rfl | simp)
      (ix2 n (⟨c.val, h3⟩ : Fin 3)) (fun b => ?_) ?_
    · match b with
      | ⟨0, _⟩ => exact fun _ => rfl
      | ⟨1, _⟩ => exact fun hb => (hb (Fin.ext rfl)).elim
    · show 0 + c.val = c.val
      omega
  · rw [dif_neg h3]
    by_cases h6 : c.val < 6
    · rw [dif_pos h6]
      refine key 1 (by simp) ⟨2, ![N, 3]⟩ B rfl rfl 3 (by first | rfl | simp)
        (ix2 n (⟨c.val - 3, by omega⟩ : Fin 3)) (fun b => ?_) ?_
      · match b with
        | ⟨0, _⟩ => exact fun _ => rfl
        | ⟨1, _⟩ => exact fun hb => (hb (Fin.ext rfl)).elim
      · show 3 + (c.val - 3) = c.val
        omega
    · rw [dif_neg h6]
      by_cases h66 : c.val = 6
      · rw [if_pos h66]
        refine key 2 (by simp) ⟨2, ![N, 1]⟩ C rfl rfl 6 (by first | rfl | simp)
          (ix2 n (0 : Fin 1)) (fun b => ?_) ?_
        · match b with
          | ⟨0, _⟩ => exact fun _ => rfl
          | ⟨1, _⟩ => exact fun hb => (hb (Fin.ext rfl)).elim
        · show 6 + 0 = c.val
          omega
      · rw [if_neg h66]
        refine key 3 (by simp) ⟨2, ![N, 1]⟩ D rfl rfl 7 (by first | rfl | simp)
          (ix2 n (0 : Fin 1)) (fun b => ?_) ?_
        · match b with
          | ⟨0, _⟩ => exact fun _ => rfl
          | ⟨1, _⟩ => exact fun hb => (hb (Fin.ext rfl)).elim
        · show 7 + 0 = c.val
          omega

/-! ## The algebra of one edge's update -/

/-- With the vanishing term at zero and the literal 0.0 dropped from the two gathered pressures, the printed update is
    the specification's edge acceleration. -/
private theorem o_edge_alg (cc ri rj pi pj dr ui uj half eta : EReal) :
    cc * (((-(Ideal.div (rj * (pi + Sph.w0) + ri * (pj + Sph.w0)) (ri + rj))) * dr
        + half * ((ri * ui) * 0 + (rj * uj) * 0)) + eta * (ui - uj))
      = cc * ((Sph.w0 - Ideal.div (rj * pi + ri * pj) (ri + rj)) * dr + eta * (ui - uj)) := by
  rw [Sph.add_w0, Sph.add_w0, mul_zero, mul_zero, add_zero, mul_zero, add_zero, Sph.w0_sub]

/-- A real number less itself is zero on the extended reals. -/
private theorem o_sub_self_of_real (x : EReal) (h : ∃ r : ℝ, x = (r : EReal)) : x - x = 0 := by
  obtain ⟨r, rfl⟩ := h
  rw [← EReal.coe_sub, sub_self, EReal.coe_zero]

/-! ## The program's pieces -/

section Program

variable (V0 : Valuation τ sig (Elt Ideal))
  (hni : ∀ e, ((V0 (Proc.devRef .tc main_arg2) : IVec S6400000 32) e).toNat < 100000)
  (hnj : ∀ e, ((V0 (Proc.devRef .tc main_arg3) : IVec S6400000 32) e).toNat < 100000)

local notation "col" => Sph.colOf (V0 (Proc.devRef Proc.tc main_arg0)) (V0 (Proc.devRef Proc.tc main_arg1))
local notation "ni" => Sph.nodeOf (V0 (Proc.devRef Proc.tc main_arg2)) hni
local notation "nj" => Sph.nodeOf (V0 (Proc.devRef Proc.tc main_arg3)) hnj

/-- An in-range endpoint word is not negative: the normalising select returns it, and as a column it reads, signed,
    the edge's particle number. -/
private theorem o_norm_toInt (idx : IVec S6400000 32) (h : ∀ e, (idx e).toNat < 100000) (e : Fin 6400000) :
    ((broadcastInDim S6400000x1 ![0] bcast_S6400000_S6400000x1_0
        (select (cmpi .slt idx (broadcastInDim S6400000 ![] bcast_S_S6400000 (constantI S_ 32 0#32)))
          (addi idx (broadcastInDim S6400000 ![] bcast_S_S6400000 (constantI S_ 32 100000#32))) idx)
        : IVec S6400000x1 32) (ix2 e (0 : Fin 1))).toInt = ((Sph.nodeOf idx h e : Fin 100000) : ℤ) := by
  rw [o_bcast_col1, select_apply]
  have hlt : ¬ (cmpi .slt idx (broadcastInDim S6400000 ![] bcast_S_S6400000 (constantI S_ 32 0#32)) (ix1 e)) = 1#1 := by
    show ¬ IntOp.cmpi .slt (idx (ix1 e)) 0#32 = 1#1
    rw [Predicate.slt_iff_toNat (a := idx (ix1 e)) (b := 0#32) (by have := h (ix1 e); omega) (by decide)]
    intro hc
    rw [show (0#32 : BitVec 32).toNat = 0 from rfl] at hc
    exact Nat.not_lt_zero _ hc
  rw [eq_zero_of_ne_one hlt, select_zero]
  exact Sph.toInt_nodeOf idx h e

/-- A segment sum by the first endpoints into the zero table: entry (n, k) is the sum, over the edges that start at n,
    of the update's entry (e, k). -/
private theorem o_scatter_sum (idx : IVec S6400000 32) (h : ∀ e, (idx e).toNat < 100000)
    (upd : FVec Ideal S6400000x3 .f32) (f : Fin 6400000 → Fin 3 → EReal)
    (hupd : ∀ e k, (upd (ix2 e k) : EReal) = f e k) (n : Fin 100000) (k : Fin 3) :
    (Host.scatterAdd (F := Ideal) scatter_S100000x3_S6400000x1_S6400000x3_1_0_0_1
        (broadcastInDim S100000x3 ![] bcast_S_S100000x3 (constant S_ .f32 0x00000000#32))
        (broadcastInDim S6400000x1 ![0] bcast_S6400000_S6400000x1_0 idx) upd (ix2 n k) : EReal)
      = ∑ e : Fin 6400000, if Sph.nodeOf idx h e = n then f e k else 0 := by
  rw [LibIndexed.scatterAdd_rows_apply scatter_S100000x3_S6400000x1_S6400000x3_1_0_0_1 rfl rfl rfl rfl, o_bcast_const,
    Sph.w0_add]
  refine Finset.sum_congr rfl (fun e _ => ?_)
  rw [o_bcast_col1, Sph.toInt_nodeOf idx h e, hupd]
  by_cases hc : Sph.nodeOf idx h e = n
  · rw [if_pos hc, if_pos (by rw [hc])]
  · rw [if_neg hc, if_neg (fun hz => hc (Fin.ext (by exact_mod_cast hz)))]

/-- The pressure gathered at an edge's first endpoint. -/
private theorem o_gather_pres_i (e : Fin 6400000) :
    (Host.gather gather_S100000_S6400000x1_S6400000_n_0_n_n_0_1_1 (res_main_v63 (F := Ideal) V0)
        (broadcastInDim S6400000x1 ![0] bcast_S6400000_S6400000x1_0
          (select (cmpi .slt (V0 (Proc.devRef .tc main_arg2)) (broadcastInDim S6400000 ![] bcast_S_S6400000 (constantI S_ 32 0#32)))
            (addi (V0 (Proc.devRef .tc main_arg2)) (broadcastInDim S6400000 ![] bcast_S_S6400000 (constantI S_ 32 100000#32)))
            (V0 (Proc.devRef .tc main_arg2)))) : S6400000.Idx → EReal) (ix1 e)
      = Sph.presC (Sph.rho col ni nj (ni e)) + Sph.w0 := by
  rw [LibIndexed.gather_vec_apply gather_S100000_S6400000x1_S6400000_n_0_n_n_0_1_1 rfl rfl rfl rfl _ _ e (ni e) (o_norm_toInt _ hni e)]
  exact v63_apply V0 hni hnj (ni e)

/-- The pressure gathered at an edge's second endpoint. -/
private theorem o_gather_pres_j (e : Fin 6400000) :
    (Host.gather gather_S100000_S6400000x1_S6400000_n_0_n_n_0_1_1 (res_main_v63 (F := Ideal) V0)
        (broadcastInDim S6400000x1 ![0] bcast_S6400000_S6400000x1_0
          (select (cmpi .slt (V0 (Proc.devRef .tc main_arg3)) (broadcastInDim S6400000 ![] bcast_S_S6400000 (constantI S_ 32 0#32)))
            (addi (V0 (Proc.devRef .tc main_arg3)) (broadcastInDim S6400000 ![] bcast_S_S6400000 (constantI S_ 32 100000#32)))
            (V0 (Proc.devRef .tc main_arg3)))) : S6400000.Idx → EReal) (ix1 e)
      = Sph.presC (Sph.rho col ni nj (nj e)) + Sph.w0 := by
  rw [LibIndexed.gather_vec_apply gather_S100000_S6400000x1_S6400000_n_0_n_n_0_1_1 rfl rfl rfl rfl _ _ e (nj e) (o_norm_toInt _ hnj e)]
  exact v63_apply V0 hni hnj (nj e)

variable (hvel : ∀ x : S100000x3.Idx, ∃ r : ℝ, ((V0 (Proc.devRef .tc main_arg1) : S100000x3.Idx → EReal) x) = (r : EReal))

include hni hvel in
/-- The sum over k of (u_i − u_i)_k · dr_k, from 0.0, is zero: every velocity entry is a real number. -/
private theorem o_R1_zero (e : Fin 6400000) :
    (Host.reduceAdd (F := Ideal) (mulf (subf (res_main_v98 V0) (res_main_v98 V0)) (res_main_v16 V0))
        (constant S_ .f32 0x00000000#32) reducesTo_S6400000x3_S6400000_d1 h_S_ (ix1 e) : EReal) = 0 := by
  refine o_reduceAdd_zero _ (constant (F := Ideal) S_ .f32 0x00000000#32) _ _ (fun y => ?_) Sph.w0_eq _
  obtain ⟨e', k, rfl⟩ : ∃ (e' : Fin 6400000) (k : Fin 3), y = ix2 e' k := ⟨y 0, y 1, eq_ix2 y⟩
  rw [mulf_apply, subf_apply, v98_apply V0 hni e' k, Sph.colOf_hi,
    o_sub_self_of_real _ (hvel (ix2 (ni e') k)), zero_mul]

include hnj hvel in
/-- Likewise for the second endpoint's velocity. -/
private theorem o_R2_zero (e : Fin 6400000) :
    (Host.reduceAdd (F := Ideal) (mulf (subf (res_main_v105 V0) (res_main_v105 V0)) (res_main_v16 V0))
        (constant S_ .f32 0x00000000#32) reducesTo_S6400000x3_S6400000_d1 h_S_ (ix1 e) : EReal) = 0 := by
  refine o_reduceAdd_zero _ (constant (F := Ideal) S_ .f32 0x00000000#32) _ _ (fun y => ?_) Sph.w0_eq _
  obtain ⟨e', k, rfl⟩ : ∃ (e' : Fin 6400000) (k : Fin 3), y = ix2 e' k := ⟨y 0, y 1, eq_ix2 y⟩
  rw [mulf_apply, subf_apply, v105_apply V0 hnj e' k, Sph.colOf_hi,
    o_sub_self_of_real _ (hvel (ix2 (nj e') k)), zero_mul]

end Program

/-- **The reference's whole result is the specification's.** -/
theorem result_eq (V0 : Valuation τ sig (Elt Ideal))
    (hni : ∀ e, ((V0 (Proc.devRef .tc main_arg2) : IVec S6400000 32) e).toNat < 100000)
    (hnj : ∀ e, ((V0 (Proc.devRef .tc main_arg3) : IVec S6400000 32) e).toNat < 100000)
    (hvel : ∀ x : S100000x3.Idx, ∃ r : ℝ, ((V0 (Proc.devRef .tc main_arg1) : S100000x3.Idx → EReal) x) = (r : EReal)) :
    (val5 (F := Ideal) V0 (Proc.devRef .tc main_v197) : S100000x8.Idx → EReal)
      = Sph.result (V0 (Proc.devRef .tc main_arg0)) (V0 (Proc.devRef .tc main_arg1))
          (V0 (Proc.devRef .tc main_arg2)) (V0 (Proc.devRef .tc main_arg3)) hni hnj := by
  refine (val5_main_v197 (F := Ideal) V0).trans ?_
  funext y
  obtain ⟨n, c, rfl⟩ : ∃ (n : Fin 100000) (c : Fin 8), y = ix2 n c := ⟨y 0, y 1, eq_ix2 y⟩
  refine (o_concat4 _ _ _ _ _ n c).trans ?_
  show _ = Sph.row (Sph.colOf (V0 (Proc.devRef .tc main_arg0)) (V0 (Proc.devRef .tc main_arg1)))
    (Sph.nodeOf (V0 (Proc.devRef .tc main_arg2)) hni) (Sph.nodeOf (V0 (Proc.devRef .tc main_arg3)) hnj) n c
  unfold Sph.row
  by_cases h3 : c.val < 3
  · rw [dif_pos h3, dif_pos h3]
    refine (o_scatter_sum _ hni _ (Sph.aE (Sph.colOf (V0 (Proc.devRef .tc main_arg0)) (V0 (Proc.devRef .tc main_arg1)))
      (Sph.nodeOf (V0 (Proc.devRef .tc main_arg2)) hni) (Sph.nodeOf (V0 (Proc.devRef .tc main_arg3)) hnj))
      (fun e k => ?_) n _).trans ?_
    · refine (o_upd0_read _ _ _ _ _ _ _ _ _ _ _ _ _ _ _ e k).trans ?_
      rw [v149_apply V0 hni hnj e, v70_apply V0 hni hnj e, v77_apply V0 hni hnj e, o_gather_pres_i V0 hni hnj e,
        o_gather_pres_j V0 hni hnj e, v16_apply V0 hni hnj e k, v98_apply V0 hni e k, v105_apply V0 hnj e k,
        o_R1_zero V0 hni hvel e, o_R2_zero V0 hnj hvel e]
      unfold Sph.aE Sph.aC Sph.pijC
      exact o_edge_alg _ _ _ _ _ _ _ _ _ _
    · unfold Sph.dudt
      exact Finset.sum_congr rfl (fun e _ => rfl)
  · rw [dif_neg h3, dif_neg h3]
    by_cases h6 : c.val < 6
    · rw [dif_pos h6, if_pos h6]
      refine (o_scatter_sum _ hni _ (fun _ _ => 0) (fun e k => ?_) n _).trans ?_
      · refine (o_upd1_read _ _ _ _ _ _ e k).trans ?_
        rw [Ideal.ofBits_zero_f32, mul_zero, zero_mul]
      · exact Finset.sum_eq_zero (fun e _ => by split <;> rfl)
    · rw [dif_neg h6, if_neg h6]
      by_cases h66 : c.val = 6
      · rw [if_pos h66, if_pos h66]
        exact (o_bcast_col1 _ _ n).trans (v53_apply V0 hni hnj n)
      · rw [if_neg h66, if_neg h66]
        exact (o_bcast_col1 _ _ n).trans (v63_apply V0 hni hnj n)

end Cert.ReferenceIdeal.RefValue

end
-- ==== Proof.lean ====
/-
  The certificate's five claims.

  Both printed kernel programs are one text (the ideal pass rewrote no operation), run once for every float instance:
  three host stretches that build, per edge, the two endpoint columns (position over velocity); the density kernel,
  which leaves each edge's spline weight; the stretches that sum the weights into the start particles' densities, take
  the pressures and gather the endpoint densities; the acceleration kernel, which leaves each edge's acceleration; and
  the stretch that sums each acceleration component into the start particles and lays the eight result columns side by
  side. The frames are that run with the values forgotten. The reference is host operations only. Under the
  precondition (finite inputs, endpoint words that are particle numbers) both results are the one function of the
  inputs written in Sph.lean: the kernel's through its run's named buffer contents, the reference's through its run's
  composed term.
-/
import proofs.«429571_j62895501083203_3_alg».proof.Defs
import proofs.«429571_j62895501083203_3_alg».proof.Proof.Gen.Kernel
import proofs.«429571_j62895501083203_3_alg».proof.Proof.Gen.KernelIdeal
import proofs.«429571_j62895501083203_3_alg».proof.Proof.Gen.ReferenceIdeal
import proofs.«429571_j62895501083203_3_alg».proof.Proof.Gen.ReferenceIdeal.Run
import proofs.«429571_j62895501083203_3_alg».proof.Proof.Gen.Pre_finite_inputs
import proofs.«429571_j62895501083203_3_alg».proof.Proof.RefFrame
import proofs.«429571_j62895501083203_3_alg».proof.Proof.IndexRange
import proofs.«429571_j62895501083203_3_alg».proof.Proof.Sph
import proofs.«429571_j62895501083203_3_alg».proof.Proof.KernelRun
import proofs.«429571_j62895501083203_3_alg».proof.Proof.WordKernelRun
import proofs.«429571_j62895501083203_3_alg».proof.Proof.KernelValue
import proofs.«429571_j62895501083203_3_alg».proof.Proof.RefOutput

noncomputable section

namespace Cert.Proof

open Idealize.ShloMosaic Idealize.SL.Sem

/-- The word-level kernel program runs and leaves its arguments as launched: its run with the values forgotten. -/
theorem frame_k : Cert.frame_Kernel := fun m ρ _ => Cert.Kernel.Run.frame (F := Bits) m ρ

/-- The idealized kernel program runs and leaves its arguments as launched. -/
theorem frame_ki : Cert.frame_KernelIdeal := fun m ρ _ => Cert.KernelIdeal.Run.frame (F := Ideal) m ρ

/-- The ideal pass rewrote nothing: there is no rewrite to justify. -/
theorem preserves : Cert.preserves_Kernel_KernelIdeal := trivial

/-- From memories that agree on the four inputs, under the precondition, both programs end holding the one function
    of the inputs: the kernel's result buffer at the return is it (the run's last contents, read stage by stage), and
    so is the reference's (its run's composed term, which is the contents after its last window, read stage by stage;
    this is where the velocities' finiteness is used: the reference multiplies by u − u). -/
theorem algebraic : Cert.algebraic_KernelIdeal_ReferenceIdeal := by
  intro m ρ m' ρ' hpre hagree
  refine ⟨fun c => Cert.KernelIdeal.Run.W11 (F := Ideal) m c (Proc.devRef .tc Cert.KernelIdeal.main_v45),
    Cert.KernelIdeal.Run.run_result (F := Ideal) m ρ, ?_⟩
  refine (θ_run Cert.ReferenceIdeal.defs _ _).mono (fun r h c => ⟨?_, (h c).2⟩)
    (Cert.ReferenceIdeal.Value.run (F := Ideal) m' ρ')
  obtain ⟨h0, h1, h2, h3⟩ := hagree c
  have hi := IndexRange.i_inb _ _ _ _ (hpre c)
  have hj := IndexRange.j_inb _ _ _ _ (hpre c)
  have hv := IndexRange.vel_finite _ _ _ _ (hpre c)
  have hR := Cert.ReferenceIdeal.RefValue.result_eq (StableHlo.launchContents m' c)
    (fun e => by
      rw [show StableHlo.launchContents m' c (Proc.devRef .tc Cert.ReferenceIdeal.main_arg2) = _ from h2]; exact hi e)
    (fun e => by
      rw [show StableHlo.launchContents m' c (Proc.devRef .tc Cert.ReferenceIdeal.main_arg3) = _ from h3]; exact hj e)
    (fun x => by
      rw [show StableHlo.launchContents m' c (Proc.devRef .tc Cert.ReferenceIdeal.main_arg1) = _ from h1]; exact hv x)
  have hK := Cert.KernelIdeal.Value'.result_eq m c hi hj
  exact (h c).1.trans ((Cert.ReferenceIdeal.Value.val5_main_v197 (F := Ideal) (StableHlo.launchContents m' c)).symm.trans
    (hR.trans ((Sph.result_congr h0 h1 h2 h3 _ _ _ _).trans hK.symm)))

theorem claim : Cert.Claim := ⟨Cert.Kernel.Gen.facts, Cert.KernelIdeal.Gen.facts, Cert.ReferenceIdeal.Gen.facts,
  Cert.Pre_finite_inputs.Gen.facts, frame_k, frame_ki, RefFrame.frame_ri, preserves, algebraic⟩

end Cert.Proof

end
